-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S32x1024x4 : S_.BroadcastsInDim S32x1024x4 (![] : Fin 0 → Fin S32x1024x4.rank)
  reducesTo_S32x1024x4_S_d0_1_2 : S32x1024x4.ReducesTo [0, 1, 2] S_

variable [Facts]

def fn_part1 {F : FTy → Type} [FloatOps F] (main_v13 : IVec S_ 1) (main_v16 : IVec S32x1024x4 1) : IVec S_ 1 :=
  let main_c_5 : IVec S_ 1 := constantI S_ 1 1#1
  let main_v17 : IVec S_ 1 := (fun x v => Host.reduce IntOp.andi x v reducesTo_S32x1024x4_S_d0_1_2 h_S_) main_v16 main_c_5
  let main_v18 : IVec S_ 1 := andi main_v13 main_v17
  main_v18

def fn {F : FTy → Type} [FloatOps F] (main_arg0 : FVec F S32x512x3 .f32) (main_arg1 : IVec S32x512 1) (main_arg2 : FVec F S32x512x3 .f32) (main_arg3 : IVec S32x512 1) (main_arg4 : FVec F S32x1024x4 .f32) (main_arg5 : FVec F S32x1024x4 .f32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S32x512x3 .f32 := Host.absf main_arg2
  let main_cst_0 : FVec F S_ .f32 := constant S_ .f32 0x7F800000#32
  let main_v5 : FVec F S32x512x3 .f32 := broadcastInDim S32x512x3 ![] bcast_S_S32x512x3 main_cst_0
  let main_v6 : IVec S32x512x3 1 := cmpf .olt main_v4 main_v5
  let main_c_1 : IVec S_ 1 := constantI S_ 1 1#1
  let main_v7 : IVec S_ 1 := (fun x v => Host.reduce IntOp.andi x v reducesTo_S32x512x3_S_d0_1_2 h_S_) main_v6 main_c_1
  let main_v8 : IVec S_ 1 := andi main_v3 main_v7
  let main_v9 : FVec F S32x1024x4 .f32 := Host.absf main_arg4
  let main_cst_2 : FVec F S_ .f32 := constant S_ .f32 0x7F800000#32
  let main_v10 : FVec F S32x1024x4 .f32 := broadcastInDim S32x1024x4 ![] bcast_S_S32x1024x4 main_cst_2
  let main_v11 : IVec S32x1024x4 1 := cmpf .olt main_v9 main_v10
  let main_c_3 : IVec S_ 1 := constantI S_ 1 1#1
  let main_v12 : IVec S_ 1 := (fun x v => Host.reduce IntOp.andi x v reducesTo_S32x1024x4_S_d0_1_2 h_S_) main_v11 main_c_3
  let main_v13 : IVec S_ 1 := andi main_v8 main_v12
  let main_v14 : FVec F S32x1024x4 .f32 := Host.absf main_arg5
  let main_cst_4 : FVec F S_ .f32 := constant S_ .f32 0x7F800000#32
  let main_v15 : FVec F S32x1024x4 .f32 := broadcastInDim S32x1024x4 ![] bcast_S_S32x1024x4 main_cst_4
  let main_v16 : IVec S32x1024x4 1 := cmpf .olt main_v14 main_v15
  fn_part1 (F := F) main_v13 main_v16
-- ==== Kernel.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩
abbrev S32x3 : Shape := ⟨2, ![32, 3]⟩
abbrev S32x511x3 : Shape := ⟨3, ![32, 511, 3]⟩
abbrev S32x511 : Shape := ⟨2, ![32, 511]⟩
abbrev S32x512x1 : Shape := ⟨3, ![32, 512, 1]⟩
abbrev S32x3x511 : Shape := ⟨3, ![32, 3, 511]⟩
abbrev S32x1x511 : Shape := ⟨3, ![32, 1, 511]⟩
abbrev S32x3x512 : Shape := ⟨3, ![32, 3, 512]⟩
abbrev S32x1x512 : Shape := ⟨3, ![32, 1, 512]⟩
abbrev S32x3x1 : Shape := ⟨3, ![32, 3, 1]⟩
abbrev S8x128 : Shape := ⟨2, ![8, 128]⟩
abbrev S1x512x3 : Shape := ⟨3, ![1, 512, 3]⟩
abbrev S1x512x1 : Shape := ⟨3, ![1, 512, 1]⟩
abbrev S1x3x511 : Shape := ⟨3, ![1, 3, 511]⟩
abbrev S1x1x511 : Shape := ⟨3, ![1, 1, 511]⟩
abbrev S1x3x512 : Shape := ⟨3, ![1, 3, 512]⟩
abbrev S1x1x512 : Shape := ⟨3, ![1, 1, 512]⟩
abbrev S1x3x1 : Shape := ⟨3, ![1, 3, 1]⟩
abbrev S1x1024x4 : Shape := ⟨3, ![1, 1024, 4]⟩
abbrev S512x3 : Shape := ⟨2, ![512, 3]⟩
abbrev S512x1 : Shape := ⟨2, ![512, 1]⟩
abbrev S3x511 : Shape := ⟨2, ![3, 511]⟩
abbrev S1x511 : Shape := ⟨2, ![1, 511]⟩
abbrev S3x1 : Shape := ⟨2, ![3, 1]⟩
abbrev S512x511 : Shape := ⟨2, ![512, 511]⟩
abbrev S1x1 : Shape := ⟨2, ![1, 1]⟩
abbrev S512 : Shape := ⟨1, ![512]⟩
abbrev S3x512 : Shape := ⟨2, ![3, 512]⟩
abbrev S1x512 : Shape := ⟨2, ![1, 512]⟩
abbrev S512x512 : Shape := ⟨2, ![512, 512]⟩
abbrev S1 : Shape := ⟨1, ![1]⟩
abbrev S511x1 : Shape := ⟨2, ![511, 1]⟩
abbrev S1024x4 : Shape := ⟨2, ![1024, 4]⟩
abbrev S1024 : Shape := ⟨1, ![1024]⟩
abbrev S1024x1 : Shape := ⟨2, ![1024, 1]⟩

abbrev nBuf : Space → Nat
  | .hbm => 71
  | .vmem => 28
  | .smem => 0
  | _ => 0

abbrev bufTy : (tb : Table) → Fin (tcTables nBuf tb) → BufTy
  | .hbm, ⟨0, _⟩ => ⟨S32x512x3, .f32⟩
  | .hbm, ⟨1, _⟩ => ⟨S32x512, .i1⟩
  | .hbm, ⟨2, _⟩ => ⟨S32x512x3, .f32⟩
  | .hbm, ⟨3, _⟩ => ⟨S32x512, .i1⟩
  | .hbm, ⟨4, _⟩ => ⟨S32x1024x4, .f32⟩
  | .hbm, ⟨5, _⟩ => ⟨S32x1024x4, .f32⟩
  | .hbm, ⟨6, _⟩ => ⟨S_, .f32⟩
  | .hbm, ⟨7, _⟩ => ⟨S32x3, .f32⟩
  | .hbm, ⟨8, _⟩ => ⟨S_, .f32⟩
  | .hbm, ⟨9, _⟩ => ⟨S32x3, .f32⟩
  | .hbm, ⟨10, _⟩ => ⟨S32x3, .f32⟩
  | .hbm, ⟨11, _⟩ => ⟨S_, .f32⟩
  | .hbm, ⟨12, _⟩ => ⟨S32x3, .f32⟩
  | .hbm, ⟨13, _⟩ => ⟨S32x3, .f32⟩
  | .hbm, ⟨14, _⟩ => ⟨S_, .f32⟩
  | .hbm, ⟨15, _⟩ => ⟨S32x3, .f32⟩
  | .hbm, ⟨16, _⟩ => ⟨S32x3, .f32⟩
  | .hbm, ⟨17, _⟩ => ⟨S_, .f32⟩
  | .hbm, ⟨18, _⟩ => ⟨S32x3, .f32⟩
  | .hbm, ⟨19, _⟩ => ⟨S32x3, .f32⟩
  | .hbm, ⟨20, _⟩ => ⟨S_, .f32⟩
  | .hbm, ⟨21, _⟩ => ⟨S32x3, .f32⟩
  | .hbm, ⟨22, _⟩ => ⟨S32x3, .f32⟩
  | .hbm, ⟨23, _⟩ => ⟨S32x511x3, .f32⟩
  | .hbm, ⟨24, _⟩ => ⟨S32x511x3, .f32⟩
  | .hbm, ⟨25, _⟩ => ⟨S32x511x3, .f32⟩
  | .hbm, ⟨26, _⟩ => ⟨S32x511x3, .f32⟩
  | .hbm, ⟨27, _⟩ => ⟨S_, .f32⟩
  | .hbm, ⟨28, _⟩ => ⟨S32x511, .f32⟩
  | .hbm, ⟨29, _⟩ => ⟨S_, .f32⟩
  | .hbm, ⟨30, _⟩ => ⟨S32x511, .f32⟩
  | .hbm, ⟨31, _⟩ => ⟨S32x511, .f32⟩
  | .hbm, ⟨32, _⟩ => ⟨S32x511, .i1⟩
  | .hbm, ⟨33, _⟩ => ⟨S32x511, .i1⟩
  | .hbm, ⟨34, _⟩ => ⟨S32x511, .i1⟩
  | .hbm, ⟨35, _⟩ => ⟨S32x511, .f32⟩
  | .hbm, ⟨36, _⟩ => ⟨S32x511x3, .f32⟩
  | .hbm, ⟨37, _⟩ => ⟨S_, .f32⟩
  | .hbm, ⟨38, _⟩ => ⟨S32x511, .f32⟩
  | .hbm, ⟨39, _⟩ => ⟨S32x512, .f32⟩
  | .hbm, ⟨40, _⟩ => ⟨S32x512, .f32⟩
  | .hbm, ⟨41, _⟩ => ⟨S32x512x1, .f32⟩
  | .hbm, ⟨42, _⟩ => ⟨S32x3x511, .f32⟩
  | .hbm, ⟨43, _⟩ => ⟨S32x3x511, .f32⟩
  | .hbm, ⟨44, _⟩ => ⟨S32x1x511, .f32⟩
  | .hbm, ⟨45, _⟩ => ⟨S32x1x511, .f32⟩
  | .hbm, ⟨46, _⟩ => ⟨S32x1x511, .f32⟩
  | .hbm, ⟨47, _⟩ => ⟨S32x3x512, .f32⟩
  | .hbm, ⟨48, _⟩ => ⟨S32x1x512, .f32⟩
  | .hbm, ⟨49, _⟩ => ⟨S32x3x1, .f32⟩
  | .hbm, ⟨50, _⟩ => ⟨S32x3x1, .f32⟩
  | .hbm, ⟨51, _⟩ => ⟨S8x128, .f32⟩
  | .hbm, ⟨52, _⟩ => ⟨S1x1, .f32⟩
  | .hbm, ⟨53, _⟩ => ⟨S_, .f32⟩
  | .hbm, ⟨54, _⟩ => ⟨S1x1, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x1, .f32⟩
  | .local _ .vmem, ⟨3, _⟩ => ⟨S1x512x1, .f32⟩
  | .local _ .vmem, ⟨4, _⟩ => ⟨S1x3x511, .f32⟩
  | .local _ .vmem, ⟨5, _⟩ => ⟨S1x3x511, .f32⟩
  | .local _ .vmem, ⟨6, _⟩ => ⟨S1x3x511, .f32⟩
  | .local _ .vmem, ⟨7, _⟩ => ⟨S1x3x511, .f32⟩
  | .local _ .vmem, ⟨8, _⟩ => ⟨S1x1x511, .f32⟩
  | .local _ .vmem, ⟨9, _⟩ => ⟨S1x1x511, .f32⟩
  | .local _ .vmem, ⟨10, _⟩ => ⟨S1x1x511, .f32⟩
  | .local _ .vmem, ⟨11, _⟩ => ⟨S1x1x511, .f32⟩
  | .local _ .vmem, ⟨12, _⟩ => ⟨S1x1x511, .f32⟩
  | .local _ .vmem, ⟨13, _⟩ => ⟨S1x1x511, .f32⟩
  | .local _ .vmem, ⟨14, _⟩ => ⟨S1x3x512, .f32⟩
  | .local _ .vmem, ⟨15, _⟩ => ⟨S1x3x512, .f32⟩
  | .local _ .vmem, ⟨16, _⟩ => ⟨S1x1x512, .f32⟩
  | .local _ .vmem, ⟨17, _⟩ => ⟨S1x1x512, .f32⟩
  | .local _ .vmem, ⟨18, _⟩ => ⟨S1x3x1, .f32⟩
  | .local _ .vmem, ⟨19, _⟩ => ⟨S1x3x1, .f32⟩
  | .local _ .vmem, ⟨20, _⟩ => ⟨S1x3x1, .f32⟩
  | .local _ .vmem, ⟨21, _⟩ => ⟨S1x3x1, .f32⟩
  | .local _ .vmem, ⟨22, _⟩ => ⟨S1x1024x4, .f32⟩
  | .local _ .vmem, ⟨23, _⟩ => ⟨S1x1024x4, .f32⟩
  | .local _ .vmem, ⟨24, _⟩ => ⟨S1x1024x4, .f32⟩
  | .local _ .vmem, ⟨25, _⟩ => ⟨S1x1024x4, .f32⟩
  | .local _ .vmem, ⟨26, _⟩ => ⟨S8x128, .f32⟩
  | .local _ .vmem, ⟨27, _⟩ => ⟨S8x128, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v241 : BitVec 1 := Scalar.cmpi .eq arg0 c31_i32
  let v242 : BitVec 32 := Scalar.extui v241
  let c0_i32_71 : BitVec 32 := 0#32
  let v243 : BitVec 1 := Scalar.cmpi .ne v242 c0_i32_71
  v243

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x511 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x511 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x511 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x511 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x511 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  reducesTo_S32x512x3_S32x3_d1 : S32x512x3.ReducesTo [1] S32x3
  h_S_ : 0 < S_.numel
  bcast_S_S32x3 : S_.BroadcastsInDim S32x3 (![] : Fin 0 → Fin S32x3.rank)
  slices_S32x512x3_S32x511x3_0_0_0 : S32x512x3.Slices ![0, 0, 0] S32x511x3
  slices_S32x512x3_S32x511x3_0_1_0 : S32x512x3.Slices ![0, 1, 0] S32x511x3
  reducesTo_S32x511x3_S32x511_d2 : S32x511x3.ReducesTo [2] S32x511
  bcast_S_S32x511 : S_.BroadcastsInDim S32x511 (![] : Fin 0 → Fin S32x511.rank)
  slices_S32x512_S32x511_0_0 : S32x512.Slices ![0, 0] S32x511
  slices_S32x512_S32x511_0_1 : S32x512.Slices ![0, 1] S32x511
  bcast_S32x512_S32x512x1_0_1 : S32x512.BroadcastsInDim S32x512x1 (![0, 1] : Fin 2 → Fin S32x512x1.rank)
  transposes_S32x511x3_S32x3x511_0_2_1 : S32x511x3.Transposes [0, 2, 1] S32x3x511
  bcast_S32x511_S32x1x511_0_2 : S32x511.BroadcastsInDim S32x1x511 (![0, 2] : Fin 2 → Fin S32x1x511.rank)
  transposes_S32x512x3_S32x3x512_0_2_1 : S32x512x3.Transposes [0, 2, 1] S32x3x512
  bcast_S32x512_S32x1x512_0_2 : S32x512.BroadcastsInDim S32x1x512 (![0, 2] : Fin 2 → Fin S32x1x512.rank)
  bcast_S32x3_S32x3x1_0_1 : S32x3.BroadcastsInDim S32x3x1 (![0, 1] : Fin 2 → Fin S32x3x1.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  slices_S512x3_o0_0_S512x1 : S512x3.Slices ![0, 0] S512x1
  slices_S512x3_o0_1_S512x1 : S512x3.Slices ![0, 1] S512x1
  slices_S512x3_o0_2_S512x1 : S512x3.Slices ![0, 2] S512x1
  inb_S1x3x511_S1x3x511_0_0_0 : ∀ a, (![0, 0, 0] : Fin 3 → Nat) a + S1x3x511.size a ≤ S1x3x511.size a
  h_S1x3x511 : 0 < S1x3x511.numel
  shapeCasts_S1x3x511_S3x511 : S1x3x511.ShapeCasts S3x511
  inb_S1x1x511_S1x1x511_0_0_0 : ∀ a, (![0, 0, 0] : Fin 3 → Nat) a + S1x1x511.size a ≤ S1x1x511.size a
  h_S1x1x511 : 0 < S1x1x511.numel
  shapeCasts_S1x1x511_S1x511 : S1x1x511.ShapeCasts S1x511
  inb_S1x3x1_S1x3x1_0_0_0 : ∀ a, (![0, 0, 0] : Fin 3 → Nat) a + S1x3x1.size a ≤ S1x3x1.size a
  h_S1x3x1 : 0 < S1x3x1.numel
  shapeCasts_S1x3x1_S3x1 : S1x3x1.ShapeCasts S3x1
  slices_S3x511_o0_0_S1x511 : S3x511.Slices ![0, 0] S1x511
  broadcasts_S512x1_S512x511 : S512x1.Broadcasts S512x511
  broadcasts_S1x511_S512x511 : S1x511.Broadcasts S512x511
  slices_S3x511_o1_0_S1x511 : S3x511.Slices ![1, 0] S1x511
  slices_S3x511_o2_0_S1x511 : S3x511.Slices ![2, 0] S1x511
  slices_S3x1_o0_0_S1x1 : S3x1.Slices ![0, 0] S1x1
  inpos_S1x1_p0_0 : ∀ a, (![0, 0] : Fin 2 → Nat) a < S1x1.size a
  slices_S3x1_o1_0_S1x1 : S3x1.Slices ![1, 0] S1x1
  slices_S3x1_o2_0_S1x1 : S3x1.Slices ![2, 0] S1x1
  reduces_S512x511_S512 : S512x511.Reduces [1] S512
  shapeCasts_S512_S512x1 : S512.ShapeCasts S512x1
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  slices_S3x512_o0_0_S1x512 : S3x512.Slices ![0, 0] S1x512
  broadcasts_S512x1_S512x512 : S512x1.Broadcasts S512x512
  broadcasts_S1x512_S512x512 : S1x512.Broadcasts S512x512
  slices_S3x512_o1_0_S1x512 : S3x512.Slices ![1, 0] S1x512
  slices_S3x512_o2_0_S1x512 : S3x512.Slices ![2, 0] S1x512
  reduces_S512x512_S512 : S512x512.Reduces [1] S512
  reduces_S512x1_S1 : S512x1.Reduces [0] S1
  shapeCasts_S1_S1x1 : S1.ShapeCasts S1x1
  slices_S512x1_o1_0_S511x1 : S512x1.Slices ![1, 0] S511x1
  slices_S512x1_o0_0_S511x1 : S512x1.Slices ![0, 0] S511x1
  reduces_S511x1_S1 : S511x1.Reduces [0] S1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  reduces_S1024x4_S1024 : S1024x4.Reduces [1] S1024
  shapeCasts_S1024_S1024x1 : S1024.ShapeCasts S1024x1
  reduces_S1024x1_S1 : S1024x1.Reduces [0] S1
  iota_S8x128_d1_w32 : S8x128.Iotas .tc 32 [1]
  iota_S8x128_d0_w32 : S8x128.Iotas .tc 32 [0]
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S32x512x3.size a
  hwx0_0 : ∀ i : grid0.Coords, EltTy.bits .f32 = 32 ∨ (Rect.block (s := S32x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .f32 = 32 ∨ (Rect.block (s := S32x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x511.size a ≤ S32x3x511.size a
  hwx0_2 : ∀ i : grid0.Coords, EltTy.bits .f32 = 32 ∨ (Rect.block (s := S32x3x511) S1x3x511.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x511.size a ≤ S32x3x511.size a
  hwx0_3 : ∀ i : grid0.Coords, EltTy.bits .f32 = 32 ∨ (Rect.block (s := S32x3x511) S1x3x511.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x511.size a ≤ S32x1x511.size a
  hwx0_4 : ∀ i : grid0.Coords, EltTy.bits .f32 = 32 ∨ (Rect.block (s := S32x1x511) S1x1x511.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x511.size a ≤ S32x1x511.size a
  hwx0_5 : ∀ i : grid0.Coords, EltTy.bits .f32 = 32 ∨ (Rect.block (s := S32x1x511) S1x1x511.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x511.size a ≤ S32x1x511.size a
  hwx0_6 : ∀ i : grid0.Coords, EltTy.bits .f32 = 32 ∨ (Rect.block (s := S32x1x511) S1x1x511.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x512.size a ≤ S32x3x512.size a
  hwx0_7 : ∀ i : grid0.Coords, EltTy.bits .f32 = 32 ∨ (Rect.block (s := S32x3x512) S1x3x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S32x1x512.size a
  hwx0_8 : ∀ i : grid0.Coords, EltTy.bits .f32 = 32 ∨ (Rect.block (s := S32x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x3x1.size a ≤ S32x3x1.size a
  hwx0_9 : ∀ i : grid0.Coords, EltTy.bits .f32 = 32 ∨ (Rect.block (s := S32x3x1) S1x3x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x3x1.size a ≤ S32x3x1.size a
  hwx0_10 : ∀ i : grid0.Coords, EltTy.bits .f32 = 32 ∨ (Rect.block (s := S32x3x1) S1x3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x4.size a ≤ S32x1024x4.size a
  hwx0_11 : ∀ i : grid0.Coords, EltTy.bits .f32 = 32 ∨ (Rect.block (s := S32x1024x4) S1x1024x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x4.size a ≤ S32x1024x4.size a
  hwx0_12 : ∀ i : grid0.Coords, EltTy.bits .f32 = 32 ∨ (Rect.block (s := S32x1024x4) S1x1024x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x128.size a ≤ S8x128.size a
  hwx0_13 : ∀ i : grid0.Coords, EltTy.bits .f32 = 32 ∨ (Rect.block (s := S8x128) S8x128.size (cc0_transform_13 i) (hinb0_13 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x3x511.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x3x511.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x1x511.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1x511.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x1x511.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x3x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x3x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x3x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S1x1024x4.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S1x1024x4.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v36) S8x128.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩
abbrev S32x3 : Shape := ⟨2, ![32, 3]⟩
abbrev S32x511x3 : Shape := ⟨3, ![32, 511, 3]⟩
abbrev S32x511 : Shape := ⟨2, ![32, 511]⟩
abbrev S32x512x1 : Shape := ⟨3, ![32, 512, 1]⟩
abbrev S32x512x511 : Shape := ⟨3, ![32, 512, 511]⟩
abbrev S32x1x511 : Shape := ⟨3, ![32, 1, 511]⟩
abbrev S32x1x511x3 : Shape := ⟨4, ![32, 1, 511, 3]⟩
abbrev S32x512x511x1 : Shape := ⟨4, ![32, 512, 511, 1]⟩
abbrev S32x512x511x3 : Shape := ⟨4, ![32, 512, 511, 3]⟩
abbrev S32x512x1x3 : Shape := ⟨4, ![32, 512, 1, 3]⟩
abbrev S32x1x1x3 : Shape := ⟨4, ![32, 1, 1, 3]⟩
abbrev S32x1x512x3 : Shape := ⟨4, ![32, 1, 512, 3]⟩
abbrev S32x512x512x3 : Shape := ⟨4, ![32, 512, 512, 3]⟩
abbrev S32x512x512 : Shape := ⟨3, ![32, 512, 512]⟩
abbrev S32x1x512 : Shape := ⟨3, ![32, 1, 512]⟩
abbrev S32 : Shape := ⟨1, ![32]⟩

abbrev nBuf : Space → Nat
  | .hbm => 173
  | .vmem => 0
  | .smem => 0
  | _ => 0

abbrev hbmTy0_0 (i : Nat) : BufTy := match i % 128 with
  | 0 => ⟨S32x512x3, .f32⟩
  | 1 => ⟨S32x512, .i1⟩
  | 2 => ⟨S32x512x3, .f32⟩
  | 3 => ⟨S32x512, .i1⟩
  | 4 => ⟨S32x1024x4, .f32⟩
  | 5 => ⟨S32x1024x4, .f32⟩
  | 6 => ⟨S_, .f32⟩
  | 7 => ⟨S32x3, .f32⟩
  | 8 => ⟨S_, .f32⟩
  | 9 => ⟨S32x3, .f32⟩
  | 10 => ⟨S32x3, .f32⟩
  | 11 => ⟨S_, .f32⟩
  | 12 => ⟨S32x3, .f32⟩
  | 13 => ⟨S32x3, .f32⟩
  | 14 => ⟨S_, .f32⟩
  | 15 => ⟨S32x3, .f32⟩
  | 16 => ⟨S32x3, .f32⟩
  | 17 => ⟨S_, .f32⟩
  | 18 => ⟨S32x3, .f32⟩
  | 19 => ⟨S32x3, .f32⟩
  | 20 => ⟨S_, .f32⟩
  | 21 => ⟨S32x3, .f32⟩
  | 22 => ⟨S32x3, .f32⟩
  | 23 => ⟨S32x511x3, .f32⟩
  | 24 => ⟨S32x511x3, .f32⟩
  | 25 => ⟨S32x511x3, .f32⟩
  | 26 => ⟨S32x511x3, .f32⟩
  | 27 => ⟨S_, .f32⟩
  | 28 => ⟨S32x511, .f32⟩
  | 29 => ⟨S_, .f32⟩
  | 30 => ⟨S32x511, .f32⟩
  | 31 => ⟨S32x511, .f32⟩
  | 32 => ⟨S32x511, .i1⟩
  | 33 => ⟨S32x511, .i1⟩
  | 34 => ⟨S32x511, .i1⟩
  | 35 => ⟨S32x512x1, .i1⟩
  | 36 => ⟨S32x512x1, .f32⟩
  | 37 => ⟨S32x512x3, .f32⟩
  | 38 => ⟨S32x512x3, .f32⟩
  | 39 => ⟨S32x512x511, .f32⟩
  | 40 => ⟨S32x511x3, .f32⟩
  | 41 => ⟨S_, .f32⟩
  | 42 => ⟨S32x511, .f32⟩
  | 43 => ⟨S32x1x511, .f32⟩
  | 44 => ⟨S32x512x511, .f32⟩
  | 45 => ⟨S32x512x511, .f32⟩
  | 46 => ⟨S32x1x511, .f32⟩
  | 47 => ⟨S32x512x511, .f32⟩
  | 48 => ⟨S32x512x511, .f32⟩
  | 49 => ⟨S_, .f32⟩
  | 50 => ⟨S_, .f32⟩
  | 51 => ⟨S_, .f32⟩
  | 52 => ⟨S32x512x511, .f32⟩
  | 53 => ⟨S32x512x511, .f32⟩
  | 54 => ⟨S_, .f32⟩
  | 55 => ⟨S32x512x511, .f32⟩
  | 56 => ⟨S32x512x511, .f32⟩
  | 57 => ⟨S32x1x511x3, .f32⟩
  | 58 => ⟨S32x512x511x1, .f32⟩
  | 59 => ⟨S32x1x511x3, .f32⟩
  | 60 => ⟨S32x512x511x3, .f32⟩
  | 61 => ⟨S32x512x511x3, .f32⟩
  | 62 => ⟨S32x512x511x3, .f32⟩
  | 63 => ⟨S32x512x511x3, .f32⟩
  | 64 => ⟨S32x512x511x3, .f32⟩
  | 65 => ⟨S32x512x1x3, .f32⟩
  | 66 => ⟨S32x512x511x3, .f32⟩
  | 67 => ⟨S32x512x511x3, .f32⟩
  | 68 => ⟨S32x1x1x3, .f32⟩
  | 69 => ⟨S32x512x511x3, .f32⟩
  | 70 => ⟨S32x512x511x3, .f32⟩
  | 71 => ⟨S32x512x511x3, .f32⟩
  | 72 => ⟨S_, .f32⟩
  | 73 => ⟨S32x512x511, .f32⟩
  | 74 => ⟨S32x511, .i1⟩
  | 75 => ⟨S32x511, .f32⟩
  | 76 => ⟨S32x1x511, .f32⟩
  | 77 => ⟨S_, .f32⟩
  | 78 => ⟨S32x1x511, .f32⟩
  | 79 => ⟨S32x1x511, .f32⟩
  | 80 => ⟨S32x512x511, .f32⟩
  | 81 => ⟨S32x512x511, .f32⟩
  | 82 => ⟨S_, .f32⟩
  | 83 => ⟨S32x512x511, .f32⟩
  | 84 => ⟨S32x512x511, .f32⟩
  | 85 => ⟨S32x512x511, .f32⟩
  | 86 => ⟨S_, .f32⟩
  | 87 => ⟨S32x512, .f32⟩
  | 88 => ⟨S32x512x1x3, .f32⟩
  | 89 => ⟨S32x1x512x3, .f32⟩
  | 90 => ⟨S32x512x512x3, .f32⟩
  | 91 => ⟨S32x512x512x3, .f32⟩
  | 92 => ⟨S32x512x512x3, .f32⟩
  | 93 => ⟨S32x1x1x3, .f32⟩
  | 94 => ⟨S32x512x512x3, .f32⟩
  | 95 => ⟨S32x512x512x3, .f32⟩
  | 96 => ⟨S32x512x512x3, .f32⟩
  | 97 => ⟨S_, .f32⟩
  | 98 => ⟨S32x512x512, .f32⟩
  | 99 => ⟨S32x512, .i1⟩
  | 100 => ⟨S32x512, .f32⟩
  | 101 => ⟨S32x1x512, .f32⟩
  | 102 => ⟨S_, .f32⟩
  | 103 => ⟨S32x1x512, .f32⟩
  | 104 => ⟨S32x1x512, .f32⟩
  | 105 => ⟨S32x512x512, .f32⟩
  | 106 => ⟨S32x512x512, .f32⟩
  | 107 => ⟨S_, .f32⟩
  | 108 => ⟨S32x512, .f32⟩
  | 109 => ⟨S_, .f32⟩
  | 110 => ⟨S32x512, .f32⟩
  | 111 => ⟨S32x512, .f32⟩
  | 112 => ⟨S32x512, .f32⟩
  | 113 => ⟨S_, .f32⟩
  | 114 => ⟨S32x512, .f32⟩
  | 115 => ⟨S32x512, .f32⟩
  | 116 => ⟨S_, .f32⟩
  | 117 => ⟨S32x512, .f32⟩
  | 118 => ⟨S32x512, .f32⟩
  | 119 => ⟨S32x512, .f32⟩
  | 120 => ⟨S_, .f32⟩
  | 121 => ⟨S_, .f32⟩
  | 122 => ⟨S_, .f32⟩
  | 123 => ⟨S32x512, .f32⟩
  | 124 => ⟨S32x512, .f32⟩
  | 125 => ⟨S_, .f32⟩
  | 126 => ⟨S32x512, .f32⟩
  | 127 => ⟨S32x512, .f32⟩
  | _ => ⟨S32x512x3, .f32⟩

abbrev hbmTy0_1 (i : Nat) : BufTy := match i % 128 with
  | 0 => ⟨S32x512, .f32⟩
  | 1 => ⟨S_, .f32⟩
  | 2 => ⟨S32x512, .f32⟩
  | 3 => ⟨S32x512, .f32⟩
  | 4 => ⟨S32x512, .f32⟩
  | 5 => ⟨S_, .f32⟩
  | 6 => ⟨S_, .f32⟩
  | 7 => ⟨S_, .f32⟩
  | 8 => ⟨S_, .f32⟩
  | 9 => ⟨S_, .f32⟩
  | 10 => ⟨S32x511x3, .f32⟩
  | 11 => ⟨S32x511x3, .f32⟩
  | 12 => ⟨S32x511x3, .f32⟩
  | 13 => ⟨S32x511, .i1⟩
  | 14 => ⟨S32x511, .i1⟩
  | 15 => ⟨S32x511, .i1⟩
  | 16 => ⟨S32x511, .f32⟩
  | 17 => ⟨S32x511x3, .f32⟩
  | 18 => ⟨S_, .f32⟩
  | 19 => ⟨S32x511, .f32⟩
  | 20 => ⟨S32x511, .f32⟩
  | 21 => ⟨S_, .f32⟩
  | 22 => ⟨S32, .f32⟩
  | 23 => ⟨S_, .f32⟩
  | 24 => ⟨S32, .f32⟩
  | 25 => ⟨S_, .f32⟩
  | 26 => ⟨S32, .f32⟩
  | 27 => ⟨S32, .f32⟩
  | 28 => ⟨S32, .f32⟩
  | 29 => ⟨S_, .f32⟩
  | 30 => ⟨S_, .f32⟩
  | 31 => ⟨S_, .f32⟩
  | 32 => ⟨S_, .f32⟩
  | 33 => ⟨S32x1024x4, .f32⟩
  | 34 => ⟨S32x1024x4, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S32x512x3, .f32⟩

abbrev hbmTy (i : Nat) : BufTy := match i / 128 with
  | 0 => hbmTy0_0 i
  | 1 => hbmTy0_1 i
  | _ => ⟨S32x512x3, .f32⟩

abbrev bufTy : (tb : Table) → Fin (tcTables nBuf tb) → BufTy
  | .hbm, ⟨i, _⟩ => hbmTy i
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_cst_9 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_cst_21 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v88 : Ref sig .tc := ⟨.hbm, 127, rfl⟩
abbrev main_v89 : Ref sig .tc := ⟨.hbm, 128, rfl⟩
abbrev main_cst_22 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_23 : Ref sig .tc := ⟨.hbm, 133, rfl⟩
abbrev main_v93 : Ref sig .tc := ⟨.hbm, 134, rfl⟩
abbrev main_cst_24 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_25 : Ref sig .tc := ⟨.hbm, 146, rfl⟩
abbrev main_v104 : Ref sig .tc := ⟨.hbm, 147, rfl⟩
abbrev main_v105 : Ref sig .tc := ⟨.hbm, 148, rfl⟩
abbrev main_cst_26 : Ref sig .tc := ⟨.hbm, 149, rfl⟩
abbrev main_v106 : Ref sig .tc := ⟨.hbm, 150, rfl⟩
abbrev main_cst_27 : Ref sig .tc := ⟨.hbm, 151, rfl⟩
abbrev main_v107 : Ref sig .tc := ⟨.hbm, 152, rfl⟩
abbrev main_cst_28 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_29 : Ref sig .tc := ⟨.hbm, 157, rfl⟩
abbrev main_v111 : Ref sig .tc := ⟨.hbm, 158, rfl⟩
abbrev main_cst_30 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_31 : Ref sig .tc := ⟨.hbm, 163, rfl⟩
abbrev main_v115 : Ref sig .tc := ⟨.hbm, 164, rfl⟩
abbrev main_cst_32 : Ref sig .tc := ⟨.hbm, 165, rfl⟩
abbrev main_v116 : Ref sig .tc := ⟨.hbm, 166, rfl⟩
abbrev main_cst_33 : Ref sig .tc := ⟨.hbm, 167, rfl⟩
abbrev main_v117 : Ref sig .tc := ⟨.hbm, 168, rfl⟩
abbrev main_v118 : Ref sig .tc := ⟨.hbm, 169, rfl⟩
abbrev main_cst_34 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  reducesTo_S32x512x3_S32x3_d1 : S32x512x3.ReducesTo [1] S32x3
  h_S_ : 0 < S_.numel
  bcast_S_S32x3 : S_.BroadcastsInDim S32x3 (![] : Fin 0 → Fin S32x3.rank)
  slices_S32x512x3_S32x511x3_0_0_0 : S32x512x3.Slices ![0, 0, 0] S32x511x3
  slices_S32x512x3_S32x511x3_0_1_0 : S32x512x3.Slices ![0, 1, 0] S32x511x3
  reducesTo_S32x511x3_S32x511_d2 : S32x511x3.ReducesTo [2] S32x511
  bcast_S_S32x511 : S_.BroadcastsInDim S32x511 (![] : Fin 0 → Fin S32x511.rank)
  slices_S32x512_S32x511_0_0 : S32x512.Slices ![0, 0] S32x511
  slices_S32x512_S32x511_0_1 : S32x512.Slices ![0, 1] S32x511
  bcast_S32x512_S32x512x1_0_1 : S32x512.BroadcastsInDim S32x512x1 (![0, 1] : Fin 2 → Fin S32x512x1.rank)
  bcast_S32x512x1_S32x512x3_0_1_2 : S32x512x1.BroadcastsInDim S32x512x3 (![0, 1, 2] : Fin 3 → Fin S32x512x3.rank)
  bcast_S32x511_S32x1x511_0_2 : S32x511.BroadcastsInDim S32x1x511 (![0, 2] : Fin 2 → Fin S32x1x511.rank)
  bcast_S32x1x511_S32x512x511_0_1_2 : S32x1x511.BroadcastsInDim S32x512x511 (![0, 1, 2] : Fin 3 → Fin S32x512x511.rank)
  bcast_S_S32x512x511 : S_.BroadcastsInDim S32x512x511 (![] : Fin 0 → Fin S32x512x511.rank)
  bcast_S32x511x3_S32x1x511x3_0_2_3 : S32x511x3.BroadcastsInDim S32x1x511x3 (![0, 2, 3] : Fin 3 → Fin S32x1x511x3.rank)
  bcast_S32x512x511_S32x512x511x1_0_1_2 : S32x512x511.BroadcastsInDim S32x512x511x1 (![0, 1, 2] : Fin 3 → Fin S32x512x511x1.rank)
  bcast_S32x512x511x1_S32x512x511x3_0_1_2_3 : S32x512x511x1.BroadcastsInDim S32x512x511x3 (![0, 1, 2, 3] : Fin 4 → Fin S32x512x511x3.rank)
  bcast_S32x1x511x3_S32x512x511x3_0_1_2_3 : S32x1x511x3.BroadcastsInDim S32x512x511x3 (![0, 1, 2, 3] : Fin 4 → Fin S32x512x511x3.rank)
  bcast_S32x512x3_S32x512x1x3_0_1_3 : S32x512x3.BroadcastsInDim S32x512x1x3 (![0, 1, 3] : Fin 3 → Fin S32x512x1x3.rank)
  bcast_S32x512x1x3_S32x512x511x3_0_1_2_3 : S32x512x1x3.BroadcastsInDim S32x512x511x3 (![0, 1, 2, 3] : Fin 4 → Fin S32x512x511x3.rank)
  bcast_S32x3_S32x1x1x3_0_3 : S32x3.BroadcastsInDim S32x1x1x3 (![0, 3] : Fin 2 → Fin S32x1x1x3.rank)
  bcast_S32x1x1x3_S32x512x511x3_0_1_2_3 : S32x1x1x3.BroadcastsInDim S32x512x511x3 (![0, 1, 2, 3] : Fin 4 → Fin S32x512x511x3.rank)
  reducesTo_S32x512x511x3_S32x512x511_d3 : S32x512x511x3.ReducesTo [3] S32x512x511
  bcast_S_S32x1x511 : S_.BroadcastsInDim S32x1x511 (![] : Fin 0 → Fin S32x1x511.rank)
  reducesTo_S32x512x511_S32x512_d2 : S32x512x511.ReducesTo [2] S32x512
  bcast_S32x512x3_S32x1x512x3_0_2_3 : S32x512x3.BroadcastsInDim S32x1x512x3 (![0, 2, 3] : Fin 3 → Fin S32x1x512x3.rank)
  bcast_S32x512x1x3_S32x512x512x3_0_1_2_3 : S32x512x1x3.BroadcastsInDim S32x512x512x3 (![0, 1, 2, 3] : Fin 4 → Fin S32x512x512x3.rank)
  bcast_S32x1x512x3_S32x512x512x3_0_1_2_3 : S32x1x512x3.BroadcastsInDim S32x512x512x3 (![0, 1, 2, 3] : Fin 4 → Fin S32x512x512x3.rank)
  bcast_S32x1x1x3_S32x512x512x3_0_1_2_3 : S32x1x1x3.BroadcastsInDim S32x512x512x3 (![0, 1, 2, 3] : Fin 4 → Fin S32x512x512x3.rank)
  reducesTo_S32x512x512x3_S32x512x512_d3 : S32x512x512x3.ReducesTo [3] S32x512x512
  bcast_S32x512_S32x1x512_0_2 : S32x512.BroadcastsInDim S32x1x512 (![0, 2] : Fin 2 → Fin S32x1x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  bcast_S_S32x512 : S_.BroadcastsInDim S32x512 (![] : Fin 0 → Fin S32x512.rank)
  reducesTo_S32x512_S_d0_1 : S32x512.ReducesTo [0, 1] S_
  reducesTo_S32x511_S32_d1 : S32x511.ReducesTo [1] S32
  bcast_S_S32 : S_.BroadcastsInDim S32 (![] : Fin 0 → Fin S32.rank)
  reducesTo_S32_S_d0 : S32.ReducesTo [0] S_
  reducesTo_S32x1024x4_S_d0_1_2 : S32x1024x4.ReducesTo [0, 1, 2] S_
  dot_S32x512x3_S32x511x3_S32x512x511_2_2_1_1_0_0_wf : DotDims.WF S32x512x3 S32x511x3 S32x512x511 [2] [2] [1] [1] [0] [0]

variable [Facts₀]

def dot_S32x512x3_S32x511x3_S32x512x511_2_2_1_1_0_0 : DotDims S32x512x3 S32x511x3 S32x512x511 where
  lhsContracting := [2]
  rhsContracting := [2]
  lhsNonContracting := [1]
  rhsNonContracting := [1]
  lhsBatch := [0]
  rhsBatch := [0]
  wf := dot_S32x512x3_S32x511x3_S32x512x511_2_2_1_1_0_0_wf

class Facts : Prop extends Facts₀ where

variable [Facts]
-- ==== Proof.Compose.lean ====
/-
  The kernel body's values, named by what they are. One grid step loads a batch's blocks (x0 the path points [1,512,3],
  x1 their mask column [1,512,1], x2 / x3 the segments' starts and vectors transposed [1,3,511], x4 / x5 / x6 the
  segments' squared lengths, start·vector and validity [1,1,511], x7 the targets transposed [1,3,512], x8 their
  validity [1,1,512], x9 / x10 the per-dimension scales [1,3,1], x11 / x12 the observations [1,1024,4]) and adds to the
  running 8 x 128 tile the four sums of that batch. The definitions compose the generated payload terms exactly as the
  body threads them; nothing is computed here.
-/
import proofs.«102376_j34763465294043_1_alg».proof.Proof.Gen.KernelIdeal.Skeleton

noncomputable section

namespace Cert.KernelIdeal.Pay

open Cert.KernelIdeal Cert.KernelIdeal.Gen Idealize.ShloMosaic

variable {F : FTy → Type} [FloatOps F]

/-- The clamped foot parameters, points by segments. -/
def footV (x0 : Vec F S1x512x3 .f32) (x1 : Vec F S1x512x1 .f32) (x3 : Vec F S1x3x511 .f32)
    (x4 x5 : Vec F S1x1x511 .f32) : FVec F S512x511 .f32 :=
  k0_pay18 (k0_pay5 x0 x1) (k0_pay6 x0 x1) (k0_pay7 x0 x1) (k0_pay12 x3) (k0_pay13 x4) (k0_pay14 x5)

/-- The first two dimensions' squared scaled offsets from the segments. -/
def dist2V (x0 : Vec F S1x512x3 .f32) (x1 : Vec F S1x512x1 .f32) (x2 x3 : Vec F S1x3x511 .f32)
    (x4 x5 : Vec F S1x1x511 .f32) (x9 : Vec F S1x3x1 .f32) : FVec F S512x511 .f32 :=
  k0_pay19 (k0_pay5 x0 x1) (k0_pay6 x0 x1) (k0_pay7 x0 x1) (k0_pay11 x2) (k0_pay12 x3) (k0_pay13 x4) (k0_pay14 x5) (k0_pay16 x9)

/-- The line label of every point, as a column. -/
def lineCol (x0 : Vec F S1x512x3 .f32) (x1 : Vec F S1x512x1 .f32) (x2 x3 : Vec F S1x3x511 .f32)
    (x4 x5 x6 : Vec F S1x1x511 .f32) (x9 : Vec F S1x3x1 .f32) : FVec F S512x1 .f32 :=
  k0_pay22 (k0_pay7 x0 x1) (k0_pay15 x6) (k0_pay16 x9) (footV x0 x1 x3 x4 x5) (dist2V x0 x1 x2 x3 x4 x5 x9)
    (k0_pay20 (k0_pay11 x2)) (k0_pay21 (k0_pay12 x3))

/-- The batch's masked sum of (1 - label), a 1 x 1 cell. -/
def numCell (x0 : Vec F S1x512x3 .f32) (x1 : Vec F S1x512x1 .f32) (x2 x3 : Vec F S1x3x511 .f32)
    (x4 x5 x6 : Vec F S1x1x511 .f32) (x7 : Vec F S1x3x512 .f32) (x8 : Vec F S1x1x512 .f32)
    (x9 x10 : Vec F S1x3x1 .f32) : FVec F S1x1 .f32 :=
  k0_pay27 (k0_pay4 x1) (k0_pay7 x0 x1) (k0_pay17 x10) (lineCol x0 x1 x2 x3 x4 x5 x6 x9) (k0_pay24 x8)
    (k0_pay25 (k0_pay5 x0 x1) (k0_pay6 x0 x1) (k0_pay17 x10) x7) (k0_pay26 x7)

/-- The batch's masked count. -/
def denCell (x1 : Vec F S1x512x1 .f32) : FVec F S1x1 .f32 := k0_pay28 (k0_pay4 x1)

/-- The batch's smoothness term. -/
def smoothCell (x0 : Vec F S1x512x3 .f32) (x1 : Vec F S1x512x1 .f32) : FVec F S1x1 .f32 :=
  k0_pay31 (k0_pay4 x1) (k0_pay10 x0) (k0_pay29 (k0_pay8 x0) (k0_pay9 x0)) (k0_pay30 (k0_pay10 x0))

/-- The batch's sum of squared observation differences. -/
def caeCell (x11 x12 : Vec F S1x1024x4 .f32) : FVec F S1x1 .f32 := k0_pay32 x11 x12

/-- What the running tile holds after a step that found 'prev' in it. -/
def accStep (x0 : Vec F S1x512x3 .f32) (x1 : Vec F S1x512x1 .f32) (x2 x3 : Vec F S1x3x511 .f32)
    (x4 x5 x6 : Vec F S1x1x511 .f32) (x7 : Vec F S1x3x512 .f32) (x8 : Vec F S1x1x512 .f32)
    (x9 x10 : Vec F S1x3x1 .f32) (x11 x12 : Vec F S1x1024x4 .f32) (prev : Vec F S8x128 .f32) : FVec F S8x128 .f32 :=
  k0_pay1 (smoothCell x0 x1) (caeCell x11 x12) (iota .tc S8x128 32 [1] iota_S8x128_d1_w32) (k0_pay33)
    (k0_pay34 (numCell x0 x1 x2 x3 x4 x5 x6 x7 x8 x9 x10) (denCell x1)) (k0_pay35) prev

end Cert.KernelIdeal.Pay

end
-- ==== Proof.KPieces.lean ====
/-
  What one grid step leaves in the running tile (the scratch the kernel carries from step to step) and, at the last
  step, in the output block: in every case the step's sums added to what the tile held — zeros at the first step,
  where the body clears it first. Stated for any float instance. Each case's run found its stores as pieces; a
  covering store of the whole 8 x 128 tile reads back as its payload, a load of a whole staging buffer as the
  buffer's contents, and the payload is the composition of the body's terms.
-/
import proofs.«102376_j34763465294043_1_alg».proof.Proof.GenP.KernelIdeal.Frame
import proofs.«102376_j34763465294043_1_alg».proof.Proof.Compose
import Idealize.ShloMosaic.Lib.Pipeline.Value
import Idealize.ShloMosaic.Lib.Tactic

set_option maxRecDepth 16384

noncomputable section

namespace Cert.KernelIdeal.KVal

open Cert.KernelIdeal Cert.KernelIdeal.Gen Cert.KernelIdeal.GenP Cert.KernelIdeal.Pay Idealize.ShloMosaic Idealize.ShloMosaic.TcCoe
open Idealize.ShloMosaic.Tactic Idealize.SL.Sem

variable {F : FTy → Type} [FloatOps F]

/-- The offsets of a whole-buffer access of rank 2 are zero. -/
theorem hz : (![0, 0] : Fin 2 → Nat) = fun _ => 0 := funext fun a => by fin_cases a <;> rfl

/-- The offsets of a whole-buffer access of rank 3 are zero. -/
theorem hz3 : (![0, 0, 0] : Fin 3 → Nat) = fun _ => 0 := funext fun a => by fin_cases a <;> rfl

/-- First step: the tile is cleared, then the step's sums are added to the cleared tile read back. -/
theorem sout_A (c : Dev nD) (i : grid0.Coords) (arg1 : Memref sig .tc .vmem S1x512x3 .f32) (harg1 : arg1.IsWhole) (arg2 : Memref sig .tc .vmem S1x512x1 .f32) (harg2 : arg2.IsWhole) (arg3 : Memref sig .tc .vmem S1x3x511 .f32) (harg3 : arg3.IsWhole) (arg4 : Memref sig .tc .vmem S1x3x511 .f32) (harg4 : arg4.IsWhole) (arg5 : Memref sig .tc .vmem S1x1x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x3x1 .f32) (harg10 : arg10.IsWhole) (arg11 : Memref sig .tc .vmem S1x3x1 .f32) (harg11 : arg11.IsWhole) (arg12 : Memref sig .tc .vmem S1x1024x4 .f32) (harg12 : arg12.IsWhole) (arg13 : Memref sig .tc .vmem S1x1024x4 .f32) (harg13 : arg13.IsWhole) (arg14 : Memref sig .tc .vmem S8x128 .f32) (harg14 : arg14.IsWhole) (arg15 : Memref sig .tc .vmem S8x128 .f32) (harg15 : arg15.IsWhole) (hc0 : cond0_0 i) (hc1 : ¬cond0_1 i) (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x1024x4 .f32) (x12 : Vec F S1x1024x4 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 = accStep x0 x1 x2 x3 x4 x5 x6 x7 x8 x9 x10 x11 x12 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x1024x4) hz3, View.ld_unit_zero (S := S8x128) hz, View.readCov_unit_zero (S := S8x128) _ hz]
  unfold accStep smoothCell caeCell numCell denCell lineCol footV dist2V
  rfl

/-- A middle step: the sums are added to what the step before left. -/
theorem sout_B (c : Dev nD) (i : grid0.Coords) (arg1 : Memref sig .tc .vmem S1x512x3 .f32) (harg1 : arg1.IsWhole) (arg2 : Memref sig .tc .vmem S1x512x1 .f32) (harg2 : arg2.IsWhole) (arg3 : Memref sig .tc .vmem S1x3x511 .f32) (harg3 : arg3.IsWhole) (arg4 : Memref sig .tc .vmem S1x3x511 .f32) (harg4 : arg4.IsWhole) (arg5 : Memref sig .tc .vmem S1x1x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x3x1 .f32) (harg10 : arg10.IsWhole) (arg11 : Memref sig .tc .vmem S1x3x1 .f32) (harg11 : arg11.IsWhole) (arg12 : Memref sig .tc .vmem S1x1024x4 .f32) (harg12 : arg12.IsWhole) (arg13 : Memref sig .tc .vmem S1x1024x4 .f32) (harg13 : arg13.IsWhole) (arg14 : Memref sig .tc .vmem S8x128 .f32) (harg14 : arg14.IsWhole) (arg15 : Memref sig .tc .vmem S8x128 .f32) (harg15 : arg15.IsWhole) (hc0 : ¬cond0_0 i) (hc1 : ¬cond0_1 i) (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x1024x4 .f32) (x12 : Vec F S1x1024x4 .f32) (xs0 : Vec F S8x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = accStep x0 x1 x2 x3 x4 x5 x6 x7 x8 x9 x10 x11 x12 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x1024x4) hz3, View.ld_unit_zero (S := S8x128) hz, View.readCov_unit_zero (S := S8x128) _ hz]
  unfold accStep smoothCell caeCell numCell denCell lineCol footV dist2V
  rfl

/-- The last step, the tile: as a middle step. -/
theorem sout_C (c : Dev nD) (i : grid0.Coords) (arg1 : Memref sig .tc .vmem S1x512x3 .f32) (harg1 : arg1.IsWhole) (arg2 : Memref sig .tc .vmem S1x512x1 .f32) (harg2 : arg2.IsWhole) (arg3 : Memref sig .tc .vmem S1x3x511 .f32) (harg3 : arg3.IsWhole) (arg4 : Memref sig .tc .vmem S1x3x511 .f32) (harg4 : arg4.IsWhole) (arg5 : Memref sig .tc .vmem S1x1x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x3x1 .f32) (harg10 : arg10.IsWhole) (arg11 : Memref sig .tc .vmem S1x3x1 .f32) (harg11 : arg11.IsWhole) (arg12 : Memref sig .tc .vmem S1x1024x4 .f32) (harg12 : arg12.IsWhole) (arg13 : Memref sig .tc .vmem S1x1024x4 .f32) (harg13 : arg13.IsWhole) (arg14 : Memref sig .tc .vmem S8x128 .f32) (harg14 : arg14.IsWhole) (arg15 : Memref sig .tc .vmem S8x128 .f32) (harg15 : arg15.IsWhole) (hc0 : ¬cond0_0 i) (hc1 : cond0_1 i) (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x1024x4 .f32) (x12 : Vec F S1x1024x4 .f32) (xs0 : Vec F S8x128 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = accStep x0 x1 x2 x3 x4 x5 x6 x7 x8 x9 x10 x11 x12 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x1024x4) hz3, View.ld_unit_zero (S := S8x128) hz, View.readCov_unit_zero (S := S8x128) _ hz]
  unfold accStep smoothCell caeCell numCell denCell lineCol footV dist2V
  rfl

/-- The last step, the output block: the tile read back after the step's store, stored whole. -/
theorem out_C (c : Dev nD) (i : grid0.Coords) (arg1 : Memref sig .tc .vmem S1x512x3 .f32) (harg1 : arg1.IsWhole) (arg2 : Memref sig .tc .vmem S1x512x1 .f32) (harg2 : arg2.IsWhole) (arg3 : Memref sig .tc .vmem S1x3x511 .f32) (harg3 : arg3.IsWhole) (arg4 : Memref sig .tc .vmem S1x3x511 .f32) (harg4 : arg4.IsWhole) (arg5 : Memref sig .tc .vmem S1x1x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x3x1 .f32) (harg10 : arg10.IsWhole) (arg11 : Memref sig .tc .vmem S1x3x1 .f32) (harg11 : arg11.IsWhole) (arg12 : Memref sig .tc .vmem S1x1024x4 .f32) (harg12 : arg12.IsWhole) (arg13 : Memref sig .tc .vmem S1x1024x4 .f32) (harg13 : arg13.IsWhole) (arg14 : Memref sig .tc .vmem S8x128 .f32) (harg14 : arg14.IsWhole) (arg15 : Memref sig .tc .vmem S8x128 .f32) (harg15 : arg15.IsWhole) (hc0 : ¬cond0_0 i) (hc1 : cond0_1 i) (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x1024x4 .f32) (x12 : Vec F S1x1024x4 .f32) (xs0 : Vec F S8x128 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0 = accStep x0 x1 x2 x3 x4 x5 x6 x7 x8 x9 x10 x11 x12 xs0 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 x12 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x1024x4) hz3, View.ld_unit_zero (S := S8x128) hz, View.readCov_unit_zero (S := S8x128) _ hz]
  unfold accStep smoothCell caeCell numCell denCell lineCol footV dist2V
  rfl

end Cert.KernelIdeal.KVal

end
-- ==== Proof.Spec.lean ====
/-
  The mathematics both programs compute, stated once, over the extended reals.

  Per batch b (32 of them) a path of 512 points in R^3 (each point multiplied by its 0/1 mask), a target polyline
  of 512 points (511 segments), and two observation arrays. For a path point p and a segment (a, s) with
  squared length L and a·s = c the clamped foot parameter is t = clip((p·s - c) / L, 0, 1); the squared distance to
  the segment, scaled per dimension by sigma, plus 10^6 on an invalid segment, goes through exp(-x/2) and a maximum
  over the segments ("line label"); the squared scaled distance to each target point, plus 10^6 on an invalid one,
  goes through a minimum over the targets and exp(-x/2) ("point label"); the label is clip(0.6·line + 0.4·point, 0, 1).
  The path loss is the masked sum of (1 - label) over the masked count, both summed over all batches; the smoothness
  loss is the mean over batches of the masked sum of squared consecutive differences over (the masked count + 10^-8);
  the reconstruction loss is the mean of squared differences; the total is 0.8·smooth + path + 0.5·recon.

  Every float literal stays its f32 word read at the ideal instance: the same word occurs on both sides.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- An f32 word read as an extended real. -/
abbrev lit (w : BitVec 32) : EReal := Ideal.ofBits .f32 w

abbrev zero : EReal := lit 0x00000000#32
abbrev one : EReal := lit 0x3F800000#32
abbrev big : EReal := lit 0x49742400#32      -- 10^6
abbrev nhalf : EReal := lit 0xBF000000#32    -- -1/2
abbrev wLine : EReal := lit 0x3F19999A#32    -- the f32 nearest 0.6
abbrev wPoint : EReal := lit 0x3ECCCCCD#32   -- the f32 nearest 0.4
abbrev eps : EReal := lit 0x322BCC77#32      -- the f32 nearest 10^-8
abbrev ninf : EReal := lit 0xFF800000#32     -- -infinity
abbrev pinf : EReal := lit 0x7F800000#32     -- +infinity
abbrev ratio : EReal := lit 0x3D4CCCCD#32    -- the f32 nearest 0.05
abbrev c32 : EReal := lit 0x42000000#32      -- 32
abbrev cN : EReal := lit 0x48000000#32       -- 131072 = 32·1024·4
abbrev wSmooth : EReal := lit 0x3F4CCCCD#32  -- the f32 nearest 0.8
abbrev wCae : EReal := lit 0x3F000000#32     -- 1/2

/-- A one-bit word as 0 or 1. -/
abbrev bit (w : BitVec 1) : EReal := ((w.toNat : ℝ) : EReal)

/-! ## One batch, over its rows

  'pt n d' the path's points, 'mk n' their 0/1 mask; 'a m d', 's m d' a segment's start and vector, 'len m' its
  squared length (at least 10^-8), 'dot m' = a·s, 'bad m' 1 on an invalid segment; 'tg g d' the target points,
  'tbad g' 1 on an invalid one; 'sgl d', 'sgp d' the per-dimension scales. -/
section Batch

variable (pt : Fin 512 → Fin 3 → EReal) (mk : Fin 512 → EReal)
  (a s : Fin 511 → Fin 3 → EReal) (len dot bad : Fin 511 → EReal)
  (tg : Fin 512 → Fin 3 → EReal) (tbad : Fin 512 → EReal) (sgl sgp : Fin 3 → EReal)

/-- The masked point. -/
def pc (n : Fin 512) (d : Fin 3) : EReal := pt n d * mk n

/-- The clamped foot parameter of point n on segment m. -/
def foot (n : Fin 512) (m : Fin 511) : EReal :=
  min one (max zero (Ideal.div ((∑ d : Fin 3, pc pt mk n d * s m d) - dot m) (len m)))

/-- One dimension's scaled offset of point n from its foot on segment m. -/
def offLine (n : Fin 512) (m : Fin 511) (d : Fin 3) : EReal :=
  Ideal.div (pc pt mk n d - (a m d + foot pt mk s len dot n m * s m d)) (sgl d)

/-- Squared scaled distance to segment m, with the penalty on an invalid segment. -/
def distLine (n : Fin 512) (m : Fin 511) : EReal :=
  (∑ d : Fin 3, offLine pt mk a s len dot sgl n m d * offLine pt mk a s len dot sgl n m d) + bad m * big

/-- The line label: the largest exp(-dist/2) over the segments. -/
def labelLine (n : Fin 512) : EReal :=
  (Finset.univ : Finset (Fin 511)).fold max ninf fun m => Ideal.exp (nhalf * distLine pt mk a s len dot bad sgl n m)

/-- One dimension's scaled offset of point n from target g. -/
def offPoint (n : Fin 512) (g : Fin 512) (d : Fin 3) : EReal := Ideal.div (pc pt mk n d - tg g d) (sgp d)

/-- Squared scaled distance to target g, with the penalty on an invalid target. -/
def distPoint (n : Fin 512) (g : Fin 512) : EReal :=
  (∑ d : Fin 3, offPoint pt mk tg sgp n g d * offPoint pt mk tg sgp n g d) + tbad g * big

/-- The point label: exp(-1/2 · the least distance over the targets). -/
def labelPoint (n : Fin 512) : EReal :=
  Ideal.exp (nhalf * (Finset.univ : Finset (Fin 512)).fold min pinf fun g => distPoint pt mk tg tbad sgp n g)

/-- The clipped mixture of the two labels. -/
def label (n : Fin 512) : EReal :=
  min one (max zero (wLine * labelLine pt mk a s len dot bad sgl n + wPoint * labelPoint pt mk tg tbad sgp n))

/-- The batch's masked sum of (1 - label). -/
def numB : EReal := ∑ n : Fin 512, (one - label pt mk a s len dot bad tg tbad sgl sgp n) * mk n

/-- The batch's masked count. -/
def denB : EReal := ∑ n : Fin 512, mk n

end Batch

/-- The batch's smoothness term: 'pt' the raw points, 'md n' 1 where points n and n+1 are both valid. -/
def smoothB (pt : Fin 512 → Fin 3 → EReal) (md : Fin 511 → EReal) : EReal :=
  Ideal.div
    (∑ n : Fin 511, (∑ d : Fin 3, (pt n.succ d - pt n.castSucc d) * (pt n.succ d - pt n.castSucc d)) * md n)
    ((∑ n : Fin 511, md n) + eps)

/-- The batch's sum of squared differences of the two observation arrays. -/
def caeB (x y : Fin 1024 → Fin 4 → EReal) : EReal :=
  ∑ r : Fin 1024, ∑ c : Fin 4, (x r c - y r c) * (x r c - y r c)

/-- The four sums placed in lanes 0 to 3 of row 0 of an 8 x 128 tile, zero elsewhere. -/
def tile (v0 v1 v2 v3 : EReal) (r : Fin 8) (l : Fin 128) : EReal :=
  if r.val = 0 ∧ l.val = 3 then v3 else if r.val = 0 ∧ l.val = 2 then v2
  else if r.val = 0 ∧ l.val = 1 then v1 else if r.val = 0 ∧ l.val = 0 then v0 else zero

/-! ## The whole arrays

  What both programs compute on the host from the argument arrays by the SAME operations is named here once and never
  opened: the per-dimension scale (5% of the path's extent, at least 10^-8), the segments' starts and vectors, their
  squared lengths and a·s, and the segment-validity bits. -/

abbrev A3 : Shape := ⟨3, ![32, 512, 3]⟩
abbrev A2 : Shape := ⟨2, ![32, 512]⟩
abbrev AO : Shape := ⟨3, ![32, 1024, 4]⟩
abbrev G3 : Shape := ⟨3, ![32, 511, 3]⟩
abbrev G2 : Shape := ⟨2, ![32, 511]⟩
abbrev S2 : Shape := ⟨2, ![32, 3]⟩
abbrev S0 : Shape := ⟨0, ![]⟩

/-- The per-batch, per-dimension scale: max(0.05 · (max over points - min over points), 10^-8). -/
def sigma (pp : A3.Idx → EReal) : S2.Idx → EReal :=
  maximumf (F := Ideal) (φ := .f32)
    (mulf (broadcastInDim S2 ![] (by decide) (constant (F := Ideal) S0 .f32 0x3D4CCCCD#32))
      (subf (Host.reduce FloatOps.maximumf pp (constant (F := Ideal) S0 .f32 0xFF800000#32) (by decide : A3.ReducesTo [1] S2) (by decide))
            (Host.reduce FloatOps.minimumf pp (constant (F := Ideal) S0 .f32 0x7F800000#32) (by decide : A3.ReducesTo [1] S2) (by decide))))
    (broadcastInDim S2 ![] (by decide) (constant (F := Ideal) S0 .f32 0x322BCC77#32))

/-- The segments' starting points: targets 0 to 510. -/
def segStart (tg : A3.Idx → EReal) : G3.Idx → EReal := extractStridedSlice G3 ![0, 0, 0] tg (by decide)

/-- The segments' vectors: target m+1 minus target m. -/
def segVec (tg : A3.Idx → EReal) : G3.Idx → EReal :=
  subf (F := Ideal) (φ := .f32) (extractStridedSlice G3 ![0, 1, 0] tg (by decide)) (segStart tg)

/-- The segments' squared lengths, at least 10^-8. -/
def segLen (tg : A3.Idx → EReal) : G2.Idx → EReal :=
  maximumf (F := Ideal) (φ := .f32)
    (Host.reduceAdd (F := Ideal) (φ := .f32) (mulf (segVec tg) (segVec tg)) (constant (F := Ideal) S0 .f32 0x00000000#32) (by decide : G3.ReducesTo [2] G2) (by decide))
    (broadcastInDim G2 ![] (by decide) (constant (F := Ideal) S0 .f32 0x322BCC77#32))

/-- Start · vector of each segment. -/
def segDot (tg : A3.Idx → EReal) : G2.Idx → EReal :=
  Host.reduceAdd (F := Ideal) (φ := .f32) (mulf (segStart tg) (segVec tg)) (constant (F := Ideal) S0 .f32 0x00000000#32) (by decide : G3.ReducesTo [2] G2) (by decide)

/-- A segment is valid when both its end points are. -/
def segOk (tm : A2.Idx → BitVec 1) : G2.Idx → BitVec 1 :=
  andi (extractStridedSlice G2 ![0, 0] tm (by decide)) (extractStridedSlice G2 ![0, 1] tm (by decide))

section Whole

variable (pp : A3.Idx → EReal) (pm : A2.Idx → BitVec 1) (tg : A3.Idx → EReal) (tm : A2.Idx → BitVec 1)
  (orc ob : AO.Idx → EReal)

/-- Batch b's masked sum of (1 - label). -/
def numAt (b : Fin 32) : EReal :=
  numB (fun n d => pp (ix3 b n d)) (fun n => bit (pm (ix2 b n)))
    (fun m d => segStart tg (ix3 b m d)) (fun m d => segVec tg (ix3 b m d))
    (fun m => segLen tg (ix2 b m)) (fun m => segDot tg (ix2 b m)) (fun m => bit (~~~ segOk tm (ix2 b m)))
    (fun g d => tg (ix3 b g d)) (fun g => bit (~~~ tm (ix2 b g)))
    (fun d => sigma pp (ix2 b d)) (fun d => sigma pp (ix2 b d))

/-- Batch b's masked count. -/
def denAt (b : Fin 32) : EReal := denB fun n => bit (pm (ix2 b n))

/-- Batch b's smoothness term. -/
def smoothAt (b : Fin 32) : EReal :=
  smoothB (fun n d => pp (ix3 b n d)) fun n => bit (pm (ix2 b n.succ) &&& pm (ix2 b n.castSucc))

/-- Batch b's sum of squared observation differences. -/
def caeAt (b : Fin 32) : EReal := caeB (fun r c => orc (ix3 b r c)) fun r c => ob (ix3 b r c)

/-- Batch b's four sums as a tile. -/
def tileAt (b : Fin 32) (r : Fin 8) (l : Fin 128) : EReal :=
  tile (numAt pp pm tg tm b) (denAt pm b) (smoothAt pp pm b) (caeAt orc ob b) r l

/-- The running tile after batches 0 to k. -/
def accUpTo (k : ℕ) (r : Fin 8) (l : Fin 128) : EReal :=
  ∑ b : Fin 32, if b.val ≤ k then tileAt pp pm tg tm orc ob b r l else 0

def lossPath : EReal := Ideal.div (∑ b : Fin 32, numAt pp pm tg tm b) (∑ b : Fin 32, denAt pm b)
def lossSmooth : EReal := Ideal.div (∑ b : Fin 32, smoothAt pp pm b) c32
def lossCae : EReal := Ideal.div (∑ b : Fin 32, caeAt orc ob b) cN
def total : EReal := (wSmooth * lossSmooth pp pm + lossPath pp pm tg tm) + wCae * lossCae orc ob

end Whole

end Cert.Spec

end
-- ==== Proof.KBlocks.lean ====
/-
  What each input window's block holds at grid point t, entry by entry, in terms of the argument arrays: the host lines before the launch transpose, broadcast and convert them, and the block at point t is batch t of the result.
-/
import proofs.«102376_j34763465294043_1_alg».proof.Proof.GenP.KernelIdeal.Frame.Runs
import proofs.«102376_j34763465294043_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KVal

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ)

/-- The batch a grid point works on. -/
abbrev batchOf (t : Fin cfg0.N) : Fin 32 := ⟨t.val, lt_of_lt_of_eq t.isLt N_0⟩

/-! ## The arrays the launch finds

  Each staged array is one layout operation (a transpose, a broadcast to a unit axis) of a quantity the host
  computed from the argument arrays. -/

section Arrays
variable (c : Dev nD)

/-- The path mask as 0 or 1, with a trailing unit axis. -/
theorem arr26 : (V m c main_v26 : S32x512x1.Idx → EReal)
    = broadcastInDim S32x512x1 ![0, 1] Facts₀.bcast_S32x512_S32x512x1_0_1
        (uitofp (F := Ideal) .f32 (m ((c : Thread nD τ).loc main_arg1))) := by
  show StableHlo.after hostOps0 (fun b => m (c, b)) (Proc.devRef .tc main_v26) = _
  after_results_simp <;> rfl

/-- The segments' starting points, transposed to dimension-major. -/
theorem arr27 : (V m c main_v27 : S32x3x511.Idx → EReal)
    = transpose S32x3x511 [0, 2, 1] (Cert.Spec.segStart (m ((c : Thread nD τ).loc main_arg2)))
        Facts₀.transposes_S32x511x3_S32x3x511_0_2_1 := by
  show StableHlo.after hostOps0 (fun b => m (c, b)) (Proc.devRef .tc main_v27) = _
  after_results_simp <;> rfl

/-- The segments' vectors, transposed to dimension-major. -/
theorem arr28 : (V m c main_v28 : S32x3x511.Idx → EReal)
    = transpose S32x3x511 [0, 2, 1] (Cert.Spec.segVec (m ((c : Thread nD τ).loc main_arg2)))
        Facts₀.transposes_S32x511x3_S32x3x511_0_2_1 := by
  show StableHlo.after hostOps0 (fun b => m (c, b)) (Proc.devRef .tc main_v28) = _
  after_results_simp <;> rfl

/-- The segments' squared lengths, with a middle unit axis. -/
theorem arr29 : (V m c main_v29 : S32x1x511.Idx → EReal)
    = broadcastInDim S32x1x511 ![0, 2] Facts₀.bcast_S32x511_S32x1x511_0_2
        (Cert.Spec.segLen (m ((c : Thread nD τ).loc main_arg2))) := by
  show StableHlo.after hostOps0 (fun b => m (c, b)) (Proc.devRef .tc main_v29) = _
  after_results_simp <;> rfl

/-- Start · vector of each segment, with a middle unit axis. -/
theorem arr30 : (V m c main_v30 : S32x1x511.Idx → EReal)
    = broadcastInDim S32x1x511 ![0, 2] Facts₀.bcast_S32x511_S32x1x511_0_2
        (Cert.Spec.segDot (m ((c : Thread nD τ).loc main_arg2))) := by
  show StableHlo.after hostOps0 (fun b => m (c, b)) (Proc.devRef .tc main_v30) = _
  after_results_simp <;> rfl

/-- The segments' validity as 0 or 1, with a middle unit axis. -/
theorem arr31 : (V m c main_v31 : S32x1x511.Idx → EReal)
    = broadcastInDim S32x1x511 ![0, 2] Facts₀.bcast_S32x511_S32x1x511_0_2
        (uitofp (F := Ideal) .f32 (Cert.Spec.segOk (m ((c : Thread nD τ).loc main_arg3)))) := by
  show StableHlo.after hostOps0 (fun b => m (c, b)) (Proc.devRef .tc main_v31) = _
  after_results_simp <;> rfl

/-- The target points, transposed to dimension-major. -/
theorem arr32 : (V m c main_v32 : S32x3x512.Idx → EReal)
    = transpose S32x3x512 [0, 2, 1] (m ((c : Thread nD τ).loc main_arg2))
        Facts₀.transposes_S32x512x3_S32x3x512_0_2_1 := by
  show StableHlo.after hostOps0 (fun b => m (c, b)) (Proc.devRef .tc main_v32) = _
  after_results_simp <;> rfl

/-- The targets' validity as 0 or 1, with a middle unit axis. -/
theorem arr33 : (V m c main_v33 : S32x1x512.Idx → EReal)
    = broadcastInDim S32x1x512 ![0, 2] Facts₀.bcast_S32x512_S32x1x512_0_2
        (uitofp (F := Ideal) .f32 (m ((c : Thread nD τ).loc main_arg3))) := by
  show StableHlo.after hostOps0 (fun b => m (c, b)) (Proc.devRef .tc main_v33) = _
  after_results_simp <;> rfl

/-- The per-dimension scale, with a trailing unit axis. -/
theorem arr34 : (V m c main_v34 : S32x3x1.Idx → EReal)
    = broadcastInDim S32x3x1 ![0, 1] Facts₀.bcast_S32x3_S32x3x1_0_1
        (Cert.Spec.sigma (m ((c : Thread nD τ).loc main_arg0))) := by
  show StableHlo.after hostOps0 (fun b => m (c, b)) (Proc.devRef .tc main_v34) = _
  after_results_simp <;> rfl

/-- The same scale, computed a second time by the same operations. -/
theorem arr35 : (V m c main_v35 : S32x3x1.Idx → EReal)
    = broadcastInDim S32x3x1 ![0, 1] Facts₀.bcast_S32x3_S32x3x1_0_1
        (Cert.Spec.sigma (m ((c : Thread nD τ).loc main_arg0))) := by
  show StableHlo.after hostOps0 (fun b => m (c, b)) (Proc.devRef .tc main_v35) = _
  after_results_simp <;> rfl

end Arrays

variable (c : Dev nD) (t : Fin cfg0.N)

/-! ## Block reads

  Every window's block is [1, a, b] with block index (t, 0, 0): entry (0, p, q) of the block at point t is entry
  (t, p, q) of the array. -/

/-- Window 0's block index at point t is (t, 0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Entry (0, p, q) of window 0's block at point t is entry (t, p, q) of its array. -/
theorem rd0 (p : Fin 512) (q : Fin 3) :
    iblk m c 0 t (ix3 (0 : Fin 1) p q) = (V m c main_arg0 : S32x512x3.Idx → EReal) (ix3 (batchOf t) p q) := by
  obtain ⟨e0, e1, e2⟩ := idx0 t
  show V m c main_arg0 (((cfg0.win 0).blk t).view.emb (ix3 (0 : Fin 1) p q)) = V m c main_arg0 (ix3 (batchOf t) p q)
  congr 1
  funext a
  apply Fin.ext
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 3 + 1 * q.val = q.val; omega

/-- Window 1's block index at point t is (t, 0, 0). -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Entry (0, p, q) of window 1's block at point t is entry (t, p, q) of its array. -/
theorem rd1 (p : Fin 512) (q : Fin 1) :
    iblk m c 1 t (ix3 (0 : Fin 1) p q) = (V m c main_v26 : S32x512x1.Idx → EReal) (ix3 (batchOf t) p q) := by
  obtain ⟨e0, e1, e2⟩ := idx1 t
  show V m c main_v26 (((cfg0.win 1).blk t).view.emb (ix3 (0 : Fin 1) p q)) = V m c main_v26 (ix3 (batchOf t) p q)
  congr 1
  funext a
  apply Fin.ext
  match a with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 1 + 1 * q.val = q.val; omega

/-- Window 2's block index at point t is (t, 0, 0). -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Entry (0, p, q) of window 2's block at point t is entry (t, p, q) of its array. -/
theorem rd2 (p : Fin 3) (q : Fin 511) :
    iblk m c 2 t (ix3 (0 : Fin 1) p q) = (V m c main_v27 : S32x3x511.Idx → EReal) (ix3 (batchOf t) p q) := by
  obtain ⟨e0, e1, e2⟩ := idx2 t
  show V m c main_v27 (((cfg0.win 2).blk t).view.emb (ix3 (0 : Fin 1) p q)) = V m c main_v27 (ix3 (batchOf t) p q)
  congr 1
  funext a
  apply Fin.ext
  match a with
  | ⟨0, _⟩ => show win0_2.index t (0 : Fin 3) * 1 + 1 * 0 = t.val; omega
  | ⟨1, _⟩ => show win0_2.index t (1 : Fin 3) * 3 + 1 * p.val = p.val; omega
  | ⟨2, _⟩ => show win0_2.index t (2 : Fin 3) * 511 + 1 * q.val = q.val; omega

/-- Window 3's block index at point t is (t, 0, 0). -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Entry (0, p, q) of window 3's block at point t is entry (t, p, q) of its array. -/
theorem rd3 (p : Fin 3) (q : Fin 511) :
    iblk m c 3 t (ix3 (0 : Fin 1) p q) = (V m c main_v28 : S32x3x511.Idx → EReal) (ix3 (batchOf t) p q) := by
  obtain ⟨e0, e1, e2⟩ := idx3 t
  show V m c main_v28 (((cfg0.win 3).blk t).view.emb (ix3 (0 : Fin 1) p q)) = V m c main_v28 (ix3 (batchOf t) p q)
  congr 1
  funext a
  apply Fin.ext
  match a with
  | ⟨0, _⟩ => show win0_3.index t (0 : Fin 3) * 1 + 1 * 0 = t.val; omega
  | ⟨1, _⟩ => show win0_3.index t (1 : Fin 3) * 3 + 1 * p.val = p.val; omega
  | ⟨2, _⟩ => show win0_3.index t (2 : Fin 3) * 511 + 1 * q.val = q.val; omega

/-- Window 4's block index at point t is (t, 0, 0). -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Entry (0, p, q) of window 4's block at point t is entry (t, p, q) of its array. -/
theorem rd4 (p : Fin 1) (q : Fin 511) :
    iblk m c 4 t (ix3 (0 : Fin 1) p q) = (V m c main_v29 : S32x1x511.Idx → EReal) (ix3 (batchOf t) p q) := by
  obtain ⟨e0, e1, e2⟩ := idx4 t
  show V m c main_v29 (((cfg0.win 4).blk t).view.emb (ix3 (0 : Fin 1) p q)) = V m c main_v29 (ix3 (batchOf t) p q)
  congr 1
  funext a
  apply Fin.ext
  match a with
  | ⟨0, _⟩ => show win0_4.index t (0 : Fin 3) * 1 + 1 * 0 = t.val; omega
  | ⟨1, _⟩ => show win0_4.index t (1 : Fin 3) * 1 + 1 * p.val = p.val; omega
  | ⟨2, _⟩ => show win0_4.index t (2 : Fin 3) * 511 + 1 * q.val = q.val; omega

/-- Window 5's block index at point t is (t, 0, 0). -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Entry (0, p, q) of window 5's block at point t is entry (t, p, q) of its array. -/
theorem rd5 (p : Fin 1) (q : Fin 511) :
    iblk m c 5 t (ix3 (0 : Fin 1) p q) = (V m c main_v30 : S32x1x511.Idx → EReal) (ix3 (batchOf t) p q) := by
  obtain ⟨e0, e1, e2⟩ := idx5 t
  show V m c main_v30 (((cfg0.win 5).blk t).view.emb (ix3 (0 : Fin 1) p q)) = V m c main_v30 (ix3 (batchOf t) p q)
  congr 1
  funext a
  apply Fin.ext
  match a with
  | ⟨0, _⟩ => show win0_5.index t (0 : Fin 3) * 1 + 1 * 0 = t.val; omega
  | ⟨1, _⟩ => show win0_5.index t (1 : Fin 3) * 1 + 1 * p.val = p.val; omega
  | ⟨2, _⟩ => show win0_5.index t (2 : Fin 3) * 511 + 1 * q.val = q.val; omega

/-- Window 6's block index at point t is (t, 0, 0). -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Entry (0, p, q) of window 6's block at point t is entry (t, p, q) of its array. -/
theorem rd6 (p : Fin 1) (q : Fin 511) :
    iblk m c 6 t (ix3 (0 : Fin 1) p q) = (V m c main_v31 : S32x1x511.Idx → EReal) (ix3 (batchOf t) p q) := by
  obtain ⟨e0, e1, e2⟩ := idx6 t
  show V m c main_v31 (((cfg0.win 6).blk t).view.emb (ix3 (0 : Fin 1) p q)) = V m c main_v31 (ix3 (batchOf t) p q)
  congr 1
  funext a
  apply Fin.ext
  match a with
  | ⟨0, _⟩ => show win0_6.index t (0 : Fin 3) * 1 + 1 * 0 = t.val; omega
  | ⟨1, _⟩ => show win0_6.index t (1 : Fin 3) * 1 + 1 * p.val = p.val; omega
  | ⟨2, _⟩ => show win0_6.index t (2 : Fin 3) * 511 + 1 * q.val = q.val; omega

/-- Window 7's block index at point t is (t, 0, 0). -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Entry (0, p, q) of window 7's block at point t is entry (t, p, q) of its array. -/
theorem rd7 (p : Fin 3) (q : Fin 512) :
    iblk m c 7 t (ix3 (0 : Fin 1) p q) = (V m c main_v32 : S32x3x512.Idx → EReal) (ix3 (batchOf t) p q) := by
  obtain ⟨e0, e1, e2⟩ := idx7 t
  show V m c main_v32 (((cfg0.win 7).blk t).view.emb (ix3 (0 : Fin 1) p q)) = V m c main_v32 (ix3 (batchOf t) p q)
  congr 1
  funext a
  apply Fin.ext
  match a with
  | ⟨0, _⟩ => show win0_7.index t (0 : Fin 3) * 1 + 1 * 0 = t.val; omega
  | ⟨1, _⟩ => show win0_7.index t (1 : Fin 3) * 3 + 1 * p.val = p.val; omega
  | ⟨2, _⟩ => show win0_7.index t (2 : Fin 3) * 512 + 1 * q.val = q.val; omega

/-- Window 8's block index at point t is (t, 0, 0). -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Entry (0, p, q) of window 8's block at point t is entry (t, p, q) of its array. -/
theorem rd8 (p : Fin 1) (q : Fin 512) :
    iblk m c 8 t (ix3 (0 : Fin 1) p q) = (V m c main_v33 : S32x1x512.Idx → EReal) (ix3 (batchOf t) p q) := by
  obtain ⟨e0, e1, e2⟩ := idx8 t
  show V m c main_v33 (((cfg0.win 8).blk t).view.emb (ix3 (0 : Fin 1) p q)) = V m c main_v33 (ix3 (batchOf t) p q)
  congr 1
  funext a
  apply Fin.ext
  match a with
  | ⟨0, _⟩ => show win0_8.index t (0 : Fin 3) * 1 + 1 * 0 = t.val; omega
  | ⟨1, _⟩ => show win0_8.index t (1 : Fin 3) * 1 + 1 * p.val = p.val; omega
  | ⟨2, _⟩ => show win0_8.index t (2 : Fin 3) * 512 + 1 * q.val = q.val; omega

/-- Window 9's block index at point t is (t, 0, 0). -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Entry (0, p, q) of window 9's block at point t is entry (t, p, q) of its array. -/
theorem rd9 (p : Fin 3) (q : Fin 1) :
    iblk m c 9 t (ix3 (0 : Fin 1) p q) = (V m c main_v34 : S32x3x1.Idx → EReal) (ix3 (batchOf t) p q) := by
  obtain ⟨e0, e1, e2⟩ := idx9 t
  show V m c main_v34 (((cfg0.win 9).blk t).view.emb (ix3 (0 : Fin 1) p q)) = V m c main_v34 (ix3 (batchOf t) p q)
  congr 1
  funext a
  apply Fin.ext
  match a with
  | ⟨0, _⟩ => show win0_9.index t (0 : Fin 3) * 1 + 1 * 0 = t.val; omega
  | ⟨1, _⟩ => show win0_9.index t (1 : Fin 3) * 3 + 1 * p.val = p.val; omega
  | ⟨2, _⟩ => show win0_9.index t (2 : Fin 3) * 1 + 1 * q.val = q.val; omega

/-- Window 10's block index at point t is (t, 0, 0). -/
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- Entry (0, p, q) of window 10's block at point t is entry (t, p, q) of its array. -/
theorem rd10 (p : Fin 3) (q : Fin 1) :
    iblk m c 10 t (ix3 (0 : Fin 1) p q) = (V m c main_v35 : S32x3x1.Idx → EReal) (ix3 (batchOf t) p q) := by
  obtain ⟨e0, e1, e2⟩ := idx10 t
  show V m c main_v35 (((cfg0.win 10).blk t).view.emb (ix3 (0 : Fin 1) p q)) = V m c main_v35 (ix3 (batchOf t) p q)
  congr 1
  funext a
  apply Fin.ext
  match a with
  | ⟨0, _⟩ => show win0_10.index t (0 : Fin 3) * 1 + 1 * 0 = t.val; omega
  | ⟨1, _⟩ => show win0_10.index t (1 : Fin 3) * 3 + 1 * p.val = p.val; omega
  | ⟨2, _⟩ => show win0_10.index t (2 : Fin 3) * 1 + 1 * q.val = q.val; omega

/-- Window 11's block index at point t is (t, 0, 0). -/
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-- Entry (0, p, q) of window 11's block at point t is entry (t, p, q) of its array. -/
theorem rd11 (p : Fin 1024) (q : Fin 4) :
    iblk m c 11 t (ix3 (0 : Fin 1) p q) = (V m c main_arg4 : S32x1024x4.Idx → EReal) (ix3 (batchOf t) p q) := by
  obtain ⟨e0, e1, e2⟩ := idx11 t
  show V m c main_arg4 (((cfg0.win 11).blk t).view.emb (ix3 (0 : Fin 1) p q)) = V m c main_arg4 (ix3 (batchOf t) p q)
  congr 1
  funext a
  apply Fin.ext
  match a with
  | ⟨0, _⟩ => show win0_11.index t (0 : Fin 3) * 1 + 1 * 0 = t.val; omega
  | ⟨1, _⟩ => show win0_11.index t (1 : Fin 3) * 1024 + 1 * p.val = p.val; omega
  | ⟨2, _⟩ => show win0_11.index t (2 : Fin 3) * 4 + 1 * q.val = q.val; omega

/-- Window 12's block index at point t is (t, 0, 0). -/
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

/-- Entry (0, p, q) of window 12's block at point t is entry (t, p, q) of its array. -/
theorem rd12 (p : Fin 1024) (q : Fin 4) :
    iblk m c 12 t (ix3 (0 : Fin 1) p q) = (V m c main_arg5 : S32x1024x4.Idx → EReal) (ix3 (batchOf t) p q) := by
  obtain ⟨e0, e1, e2⟩ := idx12 t
  show V m c main_arg5 (((cfg0.win 12).blk t).view.emb (ix3 (0 : Fin 1) p q)) = V m c main_arg5 (ix3 (batchOf t) p q)
  congr 1
  funext a
  apply Fin.ext
  match a with
  | ⟨0, _⟩ => show win0_12.index t (0 : Fin 3) * 1 + 1 * 0 = t.val; omega
  | ⟨1, _⟩ => show win0_12.index t (1 : Fin 3) * 1024 + 1 * p.val = p.val; omega
  | ⟨2, _⟩ => show win0_12.index t (2 : Fin 3) * 4 + 1 * q.val = q.val; omega

/-! ## The blocks, entry by entry -/

/-- Window 0: the path points of batch t. -/
theorem blk0 (n : Fin 512) (d : Fin 3) :
    iblk m c 0 t (ix3 (0 : Fin 1) n d) = (m ((c : Thread nD τ).loc main_arg0)) (ix3 (batchOf t) n d) :=
  (rd0 m c t n d).trans (congrFun (V_main_arg0 m c) (ix3 (batchOf t) n d))

/-- Window 1: the path mask of batch t as 0 or 1, a column. -/
theorem blk1 (n : Fin 512) :
    iblk m c 1 t (ix3 (0 : Fin 1) n (0 : Fin 1)) = Cert.Spec.bit ((m ((c : Thread nD τ).loc main_arg1)) (ix2 (batchOf t) n)) := by
  refine (rd1 m c t n (0 : Fin 1)).trans ?_
  refine (congrFun (arr26 m c) (ix3 (batchOf t) n (0 : Fin 1))).trans ?_
  refine (broadcastInDim_apply (s := S32x512) (t := S32x512x1) ![0, 1] Facts₀.bcast_S32x512_S32x512x1_0_1 _
    (ix3 (batchOf t) n (0 : Fin 1)) (ix2 (batchOf t) n) (fun a => match a with | ⟨0, _⟩ => rfl | ⟨1, _⟩ => rfl)).trans ?_
  rfl

/-- Window 2: the segments' starting points, dimension-major. -/
theorem blk2 (d : Fin 3) (s : Fin 511) :
    iblk m c 2 t (ix3 (0 : Fin 1) d s) = Cert.Spec.segStart (m ((c : Thread nD τ).loc main_arg2)) (ix3 (batchOf t) s d) := by
  refine (rd2 m c t d s).trans ?_
  refine (congrFun (arr27 m c) (ix3 (batchOf t) d s)).trans ?_
  exact transpose_apply (s := S32x511x3) (t := S32x3x511) [0, 2, 1] _ Facts₀.transposes_S32x511x3_S32x3x511_0_2_1
    (ix3 (batchOf t) d s) (ix3 (batchOf t) s d) (fun b => match b with | ⟨0, _⟩ => rfl | ⟨1, _⟩ => rfl | ⟨2, _⟩ => rfl)

/-- Window 3: the segments' vectors, dimension-major. -/
theorem blk3 (d : Fin 3) (s : Fin 511) :
    iblk m c 3 t (ix3 (0 : Fin 1) d s) = Cert.Spec.segVec (m ((c : Thread nD τ).loc main_arg2)) (ix3 (batchOf t) s d) := by
  refine (rd3 m c t d s).trans ?_
  refine (congrFun (arr28 m c) (ix3 (batchOf t) d s)).trans ?_
  exact transpose_apply (s := S32x511x3) (t := S32x3x511) [0, 2, 1] _ Facts₀.transposes_S32x511x3_S32x3x511_0_2_1
    (ix3 (batchOf t) d s) (ix3 (batchOf t) s d) (fun b => match b with | ⟨0, _⟩ => rfl | ⟨1, _⟩ => rfl | ⟨2, _⟩ => rfl)

/-- Window 4: the segments' squared lengths. -/
theorem blk4 (s : Fin 511) :
    iblk m c 4 t (ix3 (0 : Fin 1) (0 : Fin 1) s) = Cert.Spec.segLen (m ((c : Thread nD τ).loc main_arg2)) (ix2 (batchOf t) s) := by
  refine (rd4 m c t (0 : Fin 1) s).trans ?_
  refine (congrFun (arr29 m c) (ix3 (batchOf t) (0 : Fin 1) s)).trans ?_
  exact broadcastInDim_apply (s := S32x511) (t := S32x1x511) ![0, 2] Facts₀.bcast_S32x511_S32x1x511_0_2 _
    (ix3 (batchOf t) (0 : Fin 1) s) (ix2 (batchOf t) s) (fun a => match a with | ⟨0, _⟩ => rfl | ⟨1, _⟩ => rfl)

/-- Window 5: start · vector of each segment. -/
theorem blk5 (s : Fin 511) :
    iblk m c 5 t (ix3 (0 : Fin 1) (0 : Fin 1) s) = Cert.Spec.segDot (m ((c : Thread nD τ).loc main_arg2)) (ix2 (batchOf t) s) := by
  refine (rd5 m c t (0 : Fin 1) s).trans ?_
  refine (congrFun (arr30 m c) (ix3 (batchOf t) (0 : Fin 1) s)).trans ?_
  exact broadcastInDim_apply (s := S32x511) (t := S32x1x511) ![0, 2] Facts₀.bcast_S32x511_S32x1x511_0_2 _
    (ix3 (batchOf t) (0 : Fin 1) s) (ix2 (batchOf t) s) (fun a => match a with | ⟨0, _⟩ => rfl | ⟨1, _⟩ => rfl)

/-- Window 6: the segments' validity as 0 or 1. -/
theorem blk6 (s : Fin 511) :
    iblk m c 6 t (ix3 (0 : Fin 1) (0 : Fin 1) s) = Cert.Spec.bit (Cert.Spec.segOk (m ((c : Thread nD τ).loc main_arg3)) (ix2 (batchOf t) s)) := by
  refine (rd6 m c t (0 : Fin 1) s).trans ?_
  refine (congrFun (arr31 m c) (ix3 (batchOf t) (0 : Fin 1) s)).trans ?_
  refine (broadcastInDim_apply (s := S32x511) (t := S32x1x511) ![0, 2] Facts₀.bcast_S32x511_S32x1x511_0_2 _
    (ix3 (batchOf t) (0 : Fin 1) s) (ix2 (batchOf t) s) (fun a => match a with | ⟨0, _⟩ => rfl | ⟨1, _⟩ => rfl)).trans ?_
  rfl

/-- Window 7: the target points, dimension-major. -/
theorem blk7 (d : Fin 3) (g : Fin 512) :
    iblk m c 7 t (ix3 (0 : Fin 1) d g) = (m ((c : Thread nD τ).loc main_arg2)) (ix3 (batchOf t) g d) := by
  refine (rd7 m c t d g).trans ?_
  refine (congrFun (arr32 m c) (ix3 (batchOf t) d g)).trans ?_
  exact transpose_apply (s := S32x512x3) (t := S32x3x512) [0, 2, 1] _ Facts₀.transposes_S32x512x3_S32x3x512_0_2_1
    (ix3 (batchOf t) d g) (ix3 (batchOf t) g d) (fun b => match b with | ⟨0, _⟩ => rfl | ⟨1, _⟩ => rfl | ⟨2, _⟩ => rfl)

/-- Window 8: the targets' validity as 0 or 1. -/
theorem blk8 (g : Fin 512) :
    iblk m c 8 t (ix3 (0 : Fin 1) (0 : Fin 1) g) = Cert.Spec.bit ((m ((c : Thread nD τ).loc main_arg3)) (ix2 (batchOf t) g)) := by
  refine (rd8 m c t (0 : Fin 1) g).trans ?_
  refine (congrFun (arr33 m c) (ix3 (batchOf t) (0 : Fin 1) g)).trans ?_
  refine (broadcastInDim_apply (s := S32x512) (t := S32x1x512) ![0, 2] Facts₀.bcast_S32x512_S32x1x512_0_2 _
    (ix3 (batchOf t) (0 : Fin 1) g) (ix2 (batchOf t) g) (fun a => match a with | ⟨0, _⟩ => rfl | ⟨1, _⟩ => rfl)).trans ?_
  rfl

/-- Window 9: the per-dimension scale (the line's). -/
theorem blk9 (d : Fin 3) :
    iblk m c 9 t (ix3 (0 : Fin 1) d (0 : Fin 1)) = Cert.Spec.sigma (m ((c : Thread nD τ).loc main_arg0)) (ix2 (batchOf t) d) := by
  refine (rd9 m c t d (0 : Fin 1)).trans ?_
  refine (congrFun (arr34 m c) (ix3 (batchOf t) d (0 : Fin 1))).trans ?_
  exact broadcastInDim_apply (s := S32x3) (t := S32x3x1) ![0, 1] Facts₀.bcast_S32x3_S32x3x1_0_1 _
    (ix3 (batchOf t) d (0 : Fin 1)) (ix2 (batchOf t) d) (fun a => match a with | ⟨0, _⟩ => rfl | ⟨1, _⟩ => rfl)

/-- Window 10: the per-dimension scale (the points': the same number). -/
theorem blk10 (d : Fin 3) :
    iblk m c 10 t (ix3 (0 : Fin 1) d (0 : Fin 1)) = Cert.Spec.sigma (m ((c : Thread nD τ).loc main_arg0)) (ix2 (batchOf t) d) := by
  refine (rd10 m c t d (0 : Fin 1)).trans ?_
  refine (congrFun (arr35 m c) (ix3 (batchOf t) d (0 : Fin 1))).trans ?_
  exact broadcastInDim_apply (s := S32x3) (t := S32x3x1) ![0, 1] Facts₀.bcast_S32x3_S32x3x1_0_1 _
    (ix3 (batchOf t) d (0 : Fin 1)) (ix2 (batchOf t) d) (fun a => match a with | ⟨0, _⟩ => rfl | ⟨1, _⟩ => rfl)

/-- Window 11: the reconstructed observations of batch t. -/
theorem blk11 (r : Fin 1024) (k : Fin 4) :
    iblk m c 11 t (ix3 (0 : Fin 1) r k) = (m ((c : Thread nD τ).loc main_arg4)) (ix3 (batchOf t) r k) :=
  (rd11 m c t r k).trans (congrFun (V_main_arg4 m c) (ix3 (batchOf t) r k))

/-- Window 12: the observations of batch t. -/
theorem blk12 (r : Fin 1024) (k : Fin 4) :
    iblk m c 12 t (ix3 (0 : Fin 1) r k) = (m ((c : Thread nD τ).loc main_arg5)) (ix3 (batchOf t) r k) :=
  (rd12 m c t r k).trans (congrFun (V_main_arg5 m c) (ix3 (batchOf t) r k))

end Cert.KernelIdeal.KVal

end
-- ==== Proof.PayLine.lean ====
/-
  The line label the kernel body computes for point n of the loaded batch is the specification's, of the blocks' entries.
-/
import proofs.«102376_j34763465294043_1_alg».proof.Proof.Compose
import proofs.«102376_j34763465294043_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

namespace Line

/-! ## Layout operations read at coordinates -/

/-- A column broadcast along its rows reads, at (p, c), the column at p. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at (i, 0), the vector at i. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row d of a three-row matrix, as a one-row matrix. -/
theorem row0 {α : Type} {b : ℕ} (X : (⟨2, ![3, b]⟩ : Shape).Idx → α)
    (h : (⟨2, ![3, b]⟩ : Shape).Slices ![0, 0] ⟨2, ![1, b]⟩) (u : Fin 1) (m : Fin b) :
    extractStridedSlice ⟨2, ![1, b]⟩ ![0, 0] X h (ix2 u m) = X (ix2 (0 : Fin 3) m) :=
  slice2_axis0_apply 0 X h u m 0 (by have := u.isLt; show (0 : ℕ) = 0 + u.val; omega)
theorem row1 {α : Type} {b : ℕ} (X : (⟨2, ![3, b]⟩ : Shape).Idx → α)
    (h : (⟨2, ![3, b]⟩ : Shape).Slices ![1, 0] ⟨2, ![1, b]⟩) (u : Fin 1) (m : Fin b) :
    extractStridedSlice ⟨2, ![1, b]⟩ ![1, 0] X h (ix2 u m) = X (ix2 (1 : Fin 3) m) :=
  slice2_axis0_apply 1 X h u m 1 (by have := u.isLt; show (1 : ℕ) = 1 + u.val; omega)
theorem row2 {α : Type} {b : ℕ} (X : (⟨2, ![3, b]⟩ : Shape).Idx → α)
    (h : (⟨2, ![3, b]⟩ : Shape).Slices ![2, 0] ⟨2, ![1, b]⟩) (u : Fin 1) (m : Fin b) :
    extractStridedSlice ⟨2, ![1, b]⟩ ![2, 0] X h (ix2 u m) = X (ix2 (2 : Fin 3) m) :=
  slice2_axis0_apply 2 X h u m 2 (by have := u.isLt; show (2 : ℕ) = 2 + u.val; omega)

/-- Column d of a three-column matrix, as a column. -/
theorem col0 {α : Type} {a : ℕ} (X : (⟨2, ![a, 3]⟩ : Shape).Idx → α)
    (h : (⟨2, ![a, 3]⟩ : Shape).Slices ![0, 0] ⟨2, ![a, 1]⟩) (n : Fin a) (u : Fin 1) :
    extractStridedSlice ⟨2, ![a, 1]⟩ ![0, 0] X h (ix2 n u) = X (ix2 n (0 : Fin 3)) :=
  slice2_axis1_apply 0 X h n u 0 (by have := u.isLt; show (0 : ℕ) = 0 + u.val; omega)
theorem col1 {α : Type} {a : ℕ} (X : (⟨2, ![a, 3]⟩ : Shape).Idx → α)
    (h : (⟨2, ![a, 3]⟩ : Shape).Slices ![0, 1] ⟨2, ![a, 1]⟩) (n : Fin a) (u : Fin 1) :
    extractStridedSlice ⟨2, ![a, 1]⟩ ![0, 1] X h (ix2 n u) = X (ix2 n (1 : Fin 3)) :=
  slice2_axis1_apply 1 X h n u 1 (by have := u.isLt; show (1 : ℕ) = 1 + u.val; omega)
theorem col2 {α : Type} {a : ℕ} (X : (⟨2, ![a, 3]⟩ : Shape).Idx → α)
    (h : (⟨2, ![a, 3]⟩ : Shape).Slices ![0, 2] ⟨2, ![a, 1]⟩) (n : Fin a) (u : Fin 1) :
    extractStridedSlice ⟨2, ![a, 1]⟩ ![0, 2] X h (ix2 n u) = X (ix2 n (2 : Fin 3)) :=
  slice2_axis1_apply 2 X h n u 2 (by have := u.isLt; show (2 : ℕ) = 2 + u.val; omega)

/-- The one entry of a 1 x 1 matrix. -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  exact congrArg v (funext fun a => by match a with | ⟨0, _⟩ => rfl | ⟨1, _⟩ => rfl)

/-- A maximum along the rows of a matrix, read at row n, is the fold of max over that row's entries. -/
theorem rowmax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (n : Fin a) :
    multiReduction .maximumf [1] ⟨1, ![a]⟩ src 0xFF800000#32 h hφ hacc (ix1 n)
      = (Finset.univ : Finset (Fin b)).fold max (Ideal.ofBits .f32 0xFF800000#32) fun m => src (ix2 n m) := by
  refine (Ideal.multiReduction_maximumf_single src _ h hφ hacc (ix1 n)).trans ?_
  show (Finset.univ : Finset (Fin b)).fold max (Ideal.ofBits .f32 0xFF800000#32) (src ∘ h.lift (ix1 n)) = _
  refine congrArg (fun f => Finset.fold max (Ideal.ofBits .f32 0xFF800000#32) f (Finset.univ : Finset (Fin b))) (funext fun m => ?_)
  show src (h.lift (ix1 n) m) = src (ix2 n m)
  refine congrArg src ?_
  funext c
  match c with
  | ⟨0, _⟩ => exact Fin.ext rfl
  | ⟨1, _⟩ => exact Fin.ext rfl

/-! ## The kernel's values at coordinates -/

/-- Dimension 0 of the masked point n. -/
theorem pay5_apply (x0 : Vec Ideal S1x512x3 .f32) (x1 : Vec Ideal S1x512x1 .f32) (n : Fin 512) :
    k0_pay5 (F := Ideal) x0 x1 (ix2 n (0 : Fin 1))
      = (x0 (ix3 (0 : Fin 1) n (0 : Fin 3)) : EReal) * x1 (ix3 (0 : Fin 1) n (0 : Fin 1)) := by
  unfold k0_pay5 k0_pay3 k0_pay4
  simp only [mulf_apply, col0, shapeCast_1ab_ab_apply]

/-- Dimension 1 of the masked point n. -/
theorem pay6_apply (x0 : Vec Ideal S1x512x3 .f32) (x1 : Vec Ideal S1x512x1 .f32) (n : Fin 512) :
    k0_pay6 (F := Ideal) x0 x1 (ix2 n (0 : Fin 1))
      = (x0 (ix3 (0 : Fin 1) n (1 : Fin 3)) : EReal) * x1 (ix3 (0 : Fin 1) n (0 : Fin 1)) := by
  unfold k0_pay6 k0_pay3 k0_pay4
  simp only [mulf_apply, col1, shapeCast_1ab_ab_apply]

/-- Dimension 2 of the masked point n. -/
theorem pay7_apply (x0 : Vec Ideal S1x512x3 .f32) (x1 : Vec Ideal S1x512x1 .f32) (n : Fin 512) :
    k0_pay7 (F := Ideal) x0 x1 (ix2 n (0 : Fin 1))
      = (x0 (ix3 (0 : Fin 1) n (2 : Fin 3)) : EReal) * x1 (ix3 (0 : Fin 1) n (0 : Fin 1)) := by
  unfold k0_pay7 k0_pay3 k0_pay4
  simp only [mulf_apply, col2, shapeCast_1ab_ab_apply]

/-- The segments' starts, dimension d of segment m. -/
theorem pay11_apply (x2 : Vec Ideal S1x3x511 .f32) (d : Fin 3) (m : Fin 511) :
    k0_pay11 (F := Ideal) x2 (ix2 d m) = x2 (ix3 (0 : Fin 1) d m) := by
  unfold k0_pay11
  exact shapeCast_1ab_ab_apply _ _ d m

/-- The segments' vectors, dimension d of segment m. -/
theorem pay12_apply (x3 : Vec Ideal S1x3x511 .f32) (d : Fin 3) (m : Fin 511) :
    k0_pay12 (F := Ideal) x3 (ix2 d m) = x3 (ix3 (0 : Fin 1) d m) := by
  unfold k0_pay12
  exact shapeCast_1ab_ab_apply _ _ d m

/-- The segments' squared lengths. -/
theorem pay13_apply (x4 : Vec Ideal S1x1x511 .f32) (m : Fin 511) :
    k0_pay13 (F := Ideal) x4 (ix2 (0 : Fin 1) m) = x4 (ix3 (0 : Fin 1) (0 : Fin 1) m) := by
  unfold k0_pay13
  exact shapeCast_1ab_ab_apply _ _ (0 : Fin 1) m

/-- The segments' start · vector. -/
theorem pay14_apply (x5 : Vec Ideal S1x1x511 .f32) (m : Fin 511) :
    k0_pay14 (F := Ideal) x5 (ix2 (0 : Fin 1) m) = x5 (ix3 (0 : Fin 1) (0 : Fin 1) m) := by
  unfold k0_pay14
  exact shapeCast_1ab_ab_apply _ _ (0 : Fin 1) m

/-- The segments' validity. -/
theorem pay15_apply (x6 : Vec Ideal S1x1x511 .f32) (m : Fin 511) :
    k0_pay15 (F := Ideal) x6 (ix2 (0 : Fin 1) m) = x6 (ix3 (0 : Fin 1) (0 : Fin 1) m) := by
  unfold k0_pay15
  exact shapeCast_1ab_ab_apply _ _ (0 : Fin 1) m

/-- The per-dimension scale. -/
theorem pay16_apply (x9 : Vec Ideal S1x3x1 .f32) (d : Fin 3) :
    k0_pay16 (F := Ideal) x9 (ix2 d (0 : Fin 1)) = x9 (ix3 (0 : Fin 1) d (0 : Fin 1)) := by
  unfold k0_pay16
  exact shapeCast_1ab_ab_apply _ _ d (0 : Fin 1)

/-- The clamped foot parameter of point n on segment m, over the operands. -/
theorem pay18_apply (v8 v10 v12 : FVec Ideal S512x1 .f32) (v19 : FVec Ideal S3x511 .f32) (v21 v23 : FVec Ideal S1x511 .f32)
    (n : Fin 512) (m : Fin 511) :
    k0_pay18 v8 v10 v12 v19 v21 v23 (ix2 n m)
      = min (Ideal.ofBits .f32 0x3F800000#32) (max (Ideal.ofBits .f32 0x00000000#32)
          (Ideal.div
            ((((Ideal.ofBits .f32 0x00000000#32 + v8 (ix2 n (0 : Fin 1)) * v19 (ix2 (0 : Fin 3) m))
                + v10 (ix2 n (0 : Fin 1)) * v19 (ix2 (1 : Fin 3) m))
                + v12 (ix2 n (0 : Fin 1)) * v19 (ix2 (2 : Fin 3) m))
              - v23 (ix2 (0 : Fin 1) m))
            (v21 (ix2 (0 : Fin 1) m)))) := by
  unfold k0_pay18
  simp only [minimumf_apply, maximumf_apply, divf_apply, subf_apply, addf_apply, mulf_apply, broadcast_apply,
    bcast_col, broadcastTo_1b_ab_apply, row0, row1, row2]
  rfl

/-- The first two dimensions' squared scaled offsets, over the operands. -/
theorem pay19_apply (v8 v10 v12 : FVec Ideal S512x1 .f32) (v17 v19 : FVec Ideal S3x511 .f32) (v21 v23 : FVec Ideal S1x511 .f32)
    (v27 : FVec Ideal S3x1 .f32) (n : Fin 512) (m : Fin 511) :
    k0_pay19 v8 v10 v12 v17 v19 v21 v23 v27 (ix2 n m)
      = (Ideal.ofBits .f32 0x00000000#32
          + Ideal.div (v8 (ix2 n (0 : Fin 1)) - (v17 (ix2 (0 : Fin 3) m) + k0_pay18 v8 v10 v12 v19 v21 v23 (ix2 n m) * v19 (ix2 (0 : Fin 3) m)))
              (v27 (ix2 (0 : Fin 3) (0 : Fin 1)))
            * Ideal.div (v8 (ix2 n (0 : Fin 1)) - (v17 (ix2 (0 : Fin 3) m) + k0_pay18 v8 v10 v12 v19 v21 v23 (ix2 n m) * v19 (ix2 (0 : Fin 3) m)))
              (v27 (ix2 (0 : Fin 3) (0 : Fin 1))))
        + Ideal.div (v10 (ix2 n (0 : Fin 1)) - (v17 (ix2 (1 : Fin 3) m) + k0_pay18 v8 v10 v12 v19 v21 v23 (ix2 n m) * v19 (ix2 (1 : Fin 3) m)))
              (v27 (ix2 (1 : Fin 3) (0 : Fin 1)))
            * Ideal.div (v10 (ix2 n (0 : Fin 1)) - (v17 (ix2 (1 : Fin 3) m) + k0_pay18 v8 v10 v12 v19 v21 v23 (ix2 n m) * v19 (ix2 (1 : Fin 3) m)))
              (v27 (ix2 (1 : Fin 3) (0 : Fin 1))) := by
  unfold k0_pay19
  simp only [divf_apply, subf_apply, addf_apply, mulf_apply, broadcast_apply,
    bcast_col, broadcastTo_1b_ab_apply, row0, row1, extractAt_00]
  rfl

/-- Row 2 of the segments' starts. -/
theorem pay20_apply (v17 : FVec Ideal S3x511 .f32) (m : Fin 511) :
    k0_pay20 v17 (ix2 (0 : Fin 1) m) = v17 (ix2 (2 : Fin 3) m) := by
  unfold k0_pay20
  exact row2 _ _ _ m

/-- Row 2 of the segments' vectors. -/
theorem pay21_apply (v19 : FVec Ideal S3x511 .f32) (m : Fin 511) :
    k0_pay21 v19 (ix2 (0 : Fin 1) m) = v19 (ix2 (2 : Fin 3) m) := by
  unfold k0_pay21
  exact row2 _ _ _ m

/-- The line label of point n, over the operands: the third dimension's squared scaled offset is added to the
    first two, then the penalty of an invalid segment, and the largest exp(-x/2) over the segments is taken. -/
theorem pay22_apply (v12 : FVec Ideal S512x1 .f32) (v25 : FVec Ideal S1x511 .f32) (v27 : FVec Ideal S3x1 .f32)
    (v53 v82 : FVec Ideal S512x511 .f32) (v83 v84 : FVec Ideal S1x511 .f32) (n : Fin 512) :
    k0_pay22 v12 v25 v27 v53 v82 v83 v84 (ix2 n (0 : Fin 1))
      = (Finset.univ : Finset (Fin 511)).fold max (Ideal.ofBits .f32 0xFF800000#32) fun m =>
          Ideal.exp (Ideal.ofBits .f32 0xBF000000#32
            * ((v82 (ix2 n m)
                + Ideal.div (v12 (ix2 n (0 : Fin 1)) - (v83 (ix2 (0 : Fin 1) m) + v53 (ix2 n m) * v84 (ix2 (0 : Fin 1) m)))
                    (v27 (ix2 (2 : Fin 3) (0 : Fin 1)))
                  * Ideal.div (v12 (ix2 n (0 : Fin 1)) - (v83 (ix2 (0 : Fin 1) m) + v53 (ix2 n m) * v84 (ix2 (0 : Fin 1) m)))
                    (v27 (ix2 (2 : Fin 3) (0 : Fin 1))))
              + (Ideal.ofBits .f32 0x3F800000#32 - v25 (ix2 (0 : Fin 1) m)) * Ideal.ofBits .f32 0x49742400#32)) := by
  unfold k0_pay22
  refine (cast_col _ _ n (0 : Fin 1)).trans ?_
  refine (rowmax_apply _ _ _ _ n).trans ?_
  refine congrArg (fun f => Finset.fold max (Ideal.ofBits .f32 0xFF800000#32) f (Finset.univ : Finset (Fin 511))) (funext fun m => ?_)
  show Ideal.exp _ = _
  simp only [divf_apply, subf_apply, addf_apply, mulf_apply, broadcast_apply,
    bcast_col, broadcastTo_1b_ab_apply, row2, extractAt_00]
  rfl

end Line

open Line

/-- Additions in the kernel start from the zero word. -/
theorem Line.zero_word_add (x : EReal) : Ideal.ofBits .f32 0x00000000#32 + x = x := by
  rw [Ideal.ofBits_zero_f32, zero_add]

/-- The clamped foot parameter of point n on segment m, the operands being the blocks' casts. -/
theorem Line.foot_raw (x0 : Vec Ideal S1x512x3 .f32) (x1 : Vec Ideal S1x512x1 .f32) (x3 : Vec Ideal S1x3x511 .f32)
    (x4 x5 : Vec Ideal S1x1x511 .f32) (n : Fin 512) (m : Fin 511) :
    k0_pay18 (F := Ideal) (k0_pay5 x0 x1) (k0_pay6 x0 x1) (k0_pay7 x0 x1) (k0_pay12 x3) (k0_pay13 x4) (k0_pay14 x5) (ix2 n m)
      = Cert.Spec.foot (fun n d => x0 (ix3 (0 : Fin 1) n d)) (fun n => x1 (ix3 (0 : Fin 1) n (0 : Fin 1)))
          (fun m d => x3 (ix3 (0 : Fin 1) d m)) (fun m => x4 (ix3 (0 : Fin 1) (0 : Fin 1) m)) (fun m => x5 (ix3 (0 : Fin 1) (0 : Fin 1) m)) n m := by
  refine (pay18_apply _ _ _ _ _ _ n m).trans ?_
  rw [pay5_apply, pay6_apply, pay7_apply, pay12_apply, pay12_apply, pay12_apply, pay13_apply, pay14_apply]
  unfold Cert.Spec.foot Cert.Spec.pc
  rw [Fin.sum_univ_three, Line.zero_word_add]

/-- The clamped foot parameters the kernel computes are the specification's. -/
theorem footV_apply (x0 : Vec Ideal S1x512x3 .f32) (x1 : Vec Ideal S1x512x1 .f32) (x3 : Vec Ideal S1x3x511 .f32)
    (x4 x5 : Vec Ideal S1x1x511 .f32) (n : Fin 512) (m : Fin 511) :
    footV (F := Ideal) x0 x1 x3 x4 x5 (ix2 n m)
      = Cert.Spec.foot (fun n d => x0 (ix3 (0 : Fin 1) n d)) (fun n => x1 (ix3 (0 : Fin 1) n (0 : Fin 1)))
          (fun m d => x3 (ix3 (0 : Fin 1) d m)) (fun m => x4 (ix3 (0 : Fin 1) (0 : Fin 1) m)) (fun m => x5 (ix3 (0 : Fin 1) (0 : Fin 1) m)) n m :=
  Line.foot_raw x0 x1 x3 x4 x5 n m

/-- The first two dimensions' squared scaled offsets of point n from its foot on segment m. -/
theorem dist2V_apply (x0 : Vec Ideal S1x512x3 .f32) (x1 : Vec Ideal S1x512x1 .f32) (x2 x3 : Vec Ideal S1x3x511 .f32)
    (x4 x5 : Vec Ideal S1x1x511 .f32) (x9 : Vec Ideal S1x3x1 .f32) (n : Fin 512) (m : Fin 511) :
    dist2V (F := Ideal) x0 x1 x2 x3 x4 x5 x9 (ix2 n m)
      = Cert.Spec.offLine (fun n d => x0 (ix3 (0 : Fin 1) n d)) (fun n => x1 (ix3 (0 : Fin 1) n (0 : Fin 1)))
            (fun m d => x2 (ix3 (0 : Fin 1) d m)) (fun m d => x3 (ix3 (0 : Fin 1) d m))
            (fun m => x4 (ix3 (0 : Fin 1) (0 : Fin 1) m)) (fun m => x5 (ix3 (0 : Fin 1) (0 : Fin 1) m)) (fun d => x9 (ix3 (0 : Fin 1) d (0 : Fin 1))) n m 0
          * Cert.Spec.offLine (fun n d => x0 (ix3 (0 : Fin 1) n d)) (fun n => x1 (ix3 (0 : Fin 1) n (0 : Fin 1)))
            (fun m d => x2 (ix3 (0 : Fin 1) d m)) (fun m d => x3 (ix3 (0 : Fin 1) d m))
            (fun m => x4 (ix3 (0 : Fin 1) (0 : Fin 1) m)) (fun m => x5 (ix3 (0 : Fin 1) (0 : Fin 1) m)) (fun d => x9 (ix3 (0 : Fin 1) d (0 : Fin 1))) n m 0
        + Cert.Spec.offLine (fun n d => x0 (ix3 (0 : Fin 1) n d)) (fun n => x1 (ix3 (0 : Fin 1) n (0 : Fin 1)))
            (fun m d => x2 (ix3 (0 : Fin 1) d m)) (fun m d => x3 (ix3 (0 : Fin 1) d m))
            (fun m => x4 (ix3 (0 : Fin 1) (0 : Fin 1) m)) (fun m => x5 (ix3 (0 : Fin 1) (0 : Fin 1) m)) (fun d => x9 (ix3 (0 : Fin 1) d (0 : Fin 1))) n m 1
          * Cert.Spec.offLine (fun n d => x0 (ix3 (0 : Fin 1) n d)) (fun n => x1 (ix3 (0 : Fin 1) n (0 : Fin 1)))
            (fun m d => x2 (ix3 (0 : Fin 1) d m)) (fun m d => x3 (ix3 (0 : Fin 1) d m))
            (fun m => x4 (ix3 (0 : Fin 1) (0 : Fin 1) m)) (fun m => x5 (ix3 (0 : Fin 1) (0 : Fin 1) m)) (fun d => x9 (ix3 (0 : Fin 1) d (0 : Fin 1))) n m 1 := by
  unfold dist2V
  refine (pay19_apply _ _ _ _ _ _ _ _ n m).trans ?_
  rw [Line.foot_raw, pay5_apply, pay6_apply, pay11_apply, pay11_apply, pay12_apply, pay12_apply, pay16_apply, pay16_apply,
    Line.zero_word_add]
  rfl

/-- Row n of the line-label column: the largest exp(-dist/2) over the 511 segments, the blocks read by coordinates
    (segments' arrays are stored dimension-major; an invalid segment's penalty factor is 1 - its validity). -/
theorem lineCol_apply (x0 : Vec Ideal S1x512x3 .f32) (x1 : Vec Ideal S1x512x1 .f32) (x2 x3 : Vec Ideal S1x3x511 .f32)
    (x4 x5 x6 : Vec Ideal S1x1x511 .f32) (x9 : Vec Ideal S1x3x1 .f32) (n : Fin 512) :
    lineCol (F := Ideal) x0 x1 x2 x3 x4 x5 x6 x9 (ix2 n (0 : Fin 1))
      = Cert.Spec.labelLine (fun n d => x0 (ix3 (0 : Fin 1) n d)) (fun n => x1 (ix3 (0 : Fin 1) n (0 : Fin 1)))
          (fun m d => x2 (ix3 (0 : Fin 1) d m)) (fun m d => x3 (ix3 (0 : Fin 1) d m))
          (fun m => x4 (ix3 (0 : Fin 1) (0 : Fin 1) m)) (fun m => x5 (ix3 (0 : Fin 1) (0 : Fin 1) m))
          (fun m => Cert.Spec.one - x6 (ix3 (0 : Fin 1) (0 : Fin 1) m)) (fun d => x9 (ix3 (0 : Fin 1) d (0 : Fin 1))) n := by
  unfold lineCol
  refine (pay22_apply _ _ _ _ _ _ _ n).trans ?_
  unfold Cert.Spec.labelLine
  refine congrArg (fun f => Finset.fold max (Ideal.ofBits .f32 0xFF800000#32) f (Finset.univ : Finset (Fin 511))) (funext fun m => ?_)
  show Ideal.exp (_ * (_ + _)) = Ideal.exp (_ * _)
  rw [footV_apply, dist2V_apply, pay7_apply, pay15_apply, pay16_apply, pay20_apply, pay21_apply, pay11_apply, pay12_apply]
  unfold Cert.Spec.distLine
  rw [Fin.sum_univ_three]
  rfl

end Cert.KernelIdeal.Pay

end
-- ==== Proof.PayPoint.lean ====
/-
  The batch's masked sum of (1 - label) the kernel body computes is the specification's, of the blocks' entries.
-/
import proofs.«102376_j34763465294043_1_alg».proof.Proof.Compose
import proofs.«102376_j34763465294043_1_alg».proof.Proof.Spec
import proofs.«102376_j34763465294043_1_alg».proof.Proof.PayLine
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

namespace Point

/-! ## Layout operations at explicit coordinates -/

/-- A column [a,1] broadcast to [a,b] reads, at (p,c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (i,u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one entry of the unit slice at row o of a 3 x 1 column is the column's entry at row o. -/
theorem extractAt_slice_3x1 (v : FVec Ideal S3x1 .f32) (d : Fin 3) (o : ℕ) (hd : d.val = o)
    (hs : S3x1.Slices ![o, 0] S1x1) (hp : ∀ a, (![0, 0] : Fin 2 → Nat) a < S1x1.size a) :
    extractAt ![0, 0] (extractStridedSlice S1x1 ![o, 0] v hs) hp = v (ix2 d (0 : Fin 1)) := by
  unfold extractAt
  refine extractStridedSlice_apply _ v hs _ (ix2 d (0 : Fin 1)) fun ax => ?_
  match ax with
  | ⟨0, _⟩ => show d.val = o + 0; omega
  | ⟨1, _⟩ => rfl

/-- The minimum over the columns of a 512 x 512 array, from plus infinity, at row n. -/
theorem multiReduction_minimumf_row (src : FVec Ideal S512x512 .f32) (h : S512x512.Reduces [1] S512)
    (hφ : FKind.Formats .f32) (hacc : (0x7F800000#32 : BitVec 32) = 0x7F800000#32) (n : Fin 512) :
    multiReduction .minimumf [1] S512 src 0x7F800000#32 h hφ hacc (ix1 n)
      = (Finset.univ : Finset (Fin 512)).fold min (Ideal.ofBits .f32 0x7F800000#32) fun g => src (ix2 n g) := by
  refine (multiReduction_minimumf_eq_fold src _ h hφ hacc (ix1 n)).trans ?_
  refine (h.fold_filter_drop_single _ _ src (ix1 n)).trans ?_
  have e : (src ∘ h.lift (ix1 n)) = fun g : Fin 512 => src (ix2 n g) := by
    funext g
    refine congrArg src ?_
    funext c
    match c with
    | ⟨0, _⟩ => rfl
    | ⟨1, _⟩ => rfl
  rw [e]
  rfl

/-- The sum over the rows of a 512 x 1 column. -/
theorem multiReduction_add_col (src : FVec Ideal S512x1 .f32) (h : S512x1.Reduces [0] S1)
    (hφ : FKind.Formats .f32) (hacc : (0x00000000#32 : BitVec 32) = 0x00000000#32) :
    multiReduction .add [0] S1 src 0x00000000#32 h hφ hacc (ix1 (0 : Fin 1))
      = ∑ n : Fin 512, src (ix2 n (0 : Fin 1)) := by
  refine (Ideal.multiReduction_add_single src 0x00000000#32 h hφ hacc (ix1 (0 : Fin 1))).trans ?_
  refine Finset.sum_congr rfl fun n _ => congrArg src ?_
  funext c
  match c with
  | ⟨0, _⟩ => rfl
  | ⟨1, _⟩ => rfl

/-- The exponential of a vector reads, at an index, the exponential of the entry. -/
theorem exp_apply {s : Shape} {φ : FTy} (x : FVec Ideal s φ) (i : s.Idx) : exp x i = Ideal.exp (x i) := rfl

/-! ## The loaded blocks' casts and slices -/

/-- The path points as a 512 x 3 array. -/
theorem pay3_apply (x0 : Vec Ideal S1x512x3 .f32) (n : Fin 512) (d : Fin 3) :
    k0_pay3 x0 (ix2 n d) = x0 (ix3 (0 : Fin 1) n d) := by
  unfold k0_pay3
  exact shapeCast_1ab_ab_apply x0 shapeCasts_S1x512x3_S512x3 n d

/-- The mask column. -/
theorem pay4_apply (x1 : Vec Ideal S1x512x1 .f32) (n : Fin 512) :
    k0_pay4 x1 (ix2 n (0 : Fin 1)) = x1 (ix3 (0 : Fin 1) n (0 : Fin 1)) := by
  unfold k0_pay4
  exact shapeCast_1ab_ab_apply x1 shapeCasts_S1x512x1_S512x1 n (0 : Fin 1)

/-- Dimension 0 of the masked points. -/
theorem pay5_apply (x0 : Vec Ideal S1x512x3 .f32) (x1 : Vec Ideal S1x512x1 .f32) (n : Fin 512) :
    k0_pay5 x0 x1 (ix2 n (0 : Fin 1))
      = x0 (ix3 (0 : Fin 1) n (0 : Fin 3)) * x1 (ix3 (0 : Fin 1) n (0 : Fin 1)) := by
  unfold k0_pay5
  show extractStridedSlice S512x1 ![0, 0] (k0_pay3 x0) slices_S512x3_o0_0_S512x1 (ix2 n (0 : Fin 1))
      * k0_pay4 x1 (ix2 n (0 : Fin 1)) = _
  refine congrArg₂ (fun a b : EReal => a * b) ?_ (pay4_apply x1 n)
  exact (slice2_axis1_apply 0 (k0_pay3 x0) slices_S512x3_o0_0_S512x1 n (0 : Fin 1) (0 : Fin 3) rfl).trans
    (pay3_apply x0 n 0)

/-- Dimension 1 of the masked points. -/
theorem pay6_apply (x0 : Vec Ideal S1x512x3 .f32) (x1 : Vec Ideal S1x512x1 .f32) (n : Fin 512) :
    k0_pay6 x0 x1 (ix2 n (0 : Fin 1))
      = x0 (ix3 (0 : Fin 1) n (1 : Fin 3)) * x1 (ix3 (0 : Fin 1) n (0 : Fin 1)) := by
  unfold k0_pay6
  show extractStridedSlice S512x1 ![0, 1] (k0_pay3 x0) slices_S512x3_o0_1_S512x1 (ix2 n (0 : Fin 1))
      * k0_pay4 x1 (ix2 n (0 : Fin 1)) = _
  refine congrArg₂ (fun a b : EReal => a * b) ?_ (pay4_apply x1 n)
  exact (slice2_axis1_apply 1 (k0_pay3 x0) slices_S512x3_o0_1_S512x1 n (0 : Fin 1) (1 : Fin 3) rfl).trans
    (pay3_apply x0 n 1)

/-- Dimension 2 of the masked points. -/
theorem pay7_apply (x0 : Vec Ideal S1x512x3 .f32) (x1 : Vec Ideal S1x512x1 .f32) (n : Fin 512) :
    k0_pay7 x0 x1 (ix2 n (0 : Fin 1))
      = x0 (ix3 (0 : Fin 1) n (2 : Fin 3)) * x1 (ix3 (0 : Fin 1) n (0 : Fin 1)) := by
  unfold k0_pay7
  show extractStridedSlice S512x1 ![0, 2] (k0_pay3 x0) slices_S512x3_o0_2_S512x1 (ix2 n (0 : Fin 1))
      * k0_pay4 x1 (ix2 n (0 : Fin 1)) = _
  refine congrArg₂ (fun a b : EReal => a * b) ?_ (pay4_apply x1 n)
  exact (slice2_axis1_apply 2 (k0_pay3 x0) slices_S512x3_o0_2_S512x1 n (0 : Fin 1) (2 : Fin 3) rfl).trans
    (pay3_apply x0 n 2)

/-- The per-dimension scale column. -/
theorem pay17_apply (x10 : Vec Ideal S1x3x1 .f32) (d : Fin 3) :
    k0_pay17 x10 (ix2 d (0 : Fin 1)) = x10 (ix3 (0 : Fin 1) d (0 : Fin 1)) := by
  unfold k0_pay17
  exact shapeCast_1ab_ab_apply x10 shapeCasts_S1x3x1_S3x1 d (0 : Fin 1)

/-- The targets, dimension-major. -/
theorem pay23_apply (x7 : Vec Ideal S1x3x512 .f32) (d : Fin 3) (g : Fin 512) :
    k0_pay23 x7 (ix2 d g) = x7 (ix3 (0 : Fin 1) d g) := by
  unfold k0_pay23
  exact shapeCast_1ab_ab_apply x7 shapeCasts_S1x3x512_S3x512 d g

/-- The targets' validity row. -/
theorem pay24_apply (x8 : Vec Ideal S1x1x512 .f32) (g : Fin 512) :
    k0_pay24 x8 (ix2 (0 : Fin 1) g) = x8 (ix3 (0 : Fin 1) (0 : Fin 1) g) := by
  unfold k0_pay24
  exact shapeCast_1ab_ab_apply x8 shapeCasts_S1x1x512_S1x512 (0 : Fin 1) g

/-- Row 2 of the targets. -/
theorem pay26_apply (x7 : Vec Ideal S1x3x512 .f32) (g : Fin 512) :
    k0_pay26 x7 (ix2 (0 : Fin 1) g) = x7 (ix3 (0 : Fin 1) (2 : Fin 3) g) := by
  unfold k0_pay26
  exact (slice2_axis0_apply 2 (k0_pay23 x7) slices_S3x512_o2_0_S1x512 (0 : Fin 1) g (2 : Fin 3) rfl).trans
    (pay23_apply x7 2 g)

/-! ## One dimension's scaled offset, points by targets -/

/-- A masked coordinate column minus a target row, over one entry of the scale column, at (n, g). -/
theorem off_apply (v : FVec Ideal S512x1 .f32) (v29 : FVec Ideal S3x1 .f32) (row : FVec Ideal S1x512 .f32)
    (d : Fin 3) (o : ℕ) (hd : d.val = o) (hs : S3x1.Slices ![o, 0] S1x1) (n g : Fin 512) :
    divf (subf (broadcastTo S512x512 v broadcasts_S512x1_S512x512) (broadcastTo S512x512 row broadcasts_S1x512_S512x512))
        (broadcast S512x512 (extractAt ![0, 0] (extractStridedSlice S1x1 ![o, 0] v29 hs) inpos_S1x1_p0_0)) (ix2 n g)
      = Ideal.div (v (ix2 n (0 : Fin 1)) - row (ix2 (0 : Fin 1) g)) (v29 (ix2 d (0 : Fin 1))) := by
  show Ideal.div (broadcastTo S512x512 v broadcasts_S512x1_S512x512 (ix2 n g)
        - broadcastTo S512x512 row broadcasts_S1x512_S512x512 (ix2 n g))
      (extractAt ![0, 0] (extractStridedSlice S1x1 ![o, 0] v29 hs) inpos_S1x1_p0_0) = _
  rw [broadcastTo_a1_ab_apply v broadcasts_S512x1_S512x512 n g,
    broadcastTo_1b_ab_apply row broadcasts_S1x512_S512x512 n g,
    extractAt_slice_3x1 v29 d o hd hs inpos_S1x1_p0_0]

/-- Row d of the targets, as a row. -/
theorem targetRow_apply (x7 : Vec Ideal S1x3x512 .f32) (d : Fin 3) (o : ℕ) (hd : d.val = o)
    (hs : S3x512.Slices ![o, 0] S1x512) (g : Fin 512) :
    extractStridedSlice S1x512 ![o, 0] (k0_pay23 x7) hs (ix2 (0 : Fin 1) g) = x7 (ix3 (0 : Fin 1) d g) :=
  (slice2_axis0_apply o (k0_pay23 x7) hs (0 : Fin 1) g d (by omega)).trans (pay23_apply x7 d g)

/-- Dimensions 0 and 1 of the squared scaled offset of point n from target g, added to zero. -/
theorem pay25_apply (v8 v10 : FVec Ideal S512x1 .f32) (v29 : FVec Ideal S3x1 .f32) (x7 : Vec Ideal S1x3x512 .f32)
    (n g : Fin 512) :
    k0_pay25 v8 v10 v29 x7 (ix2 n g)
      = (Cert.Spec.zero
          + Ideal.div (v8 (ix2 n (0 : Fin 1)) - x7 (ix3 (0 : Fin 1) (0 : Fin 3) g)) (v29 (ix2 (0 : Fin 3) (0 : Fin 1)))
            * Ideal.div (v8 (ix2 n (0 : Fin 1)) - x7 (ix3 (0 : Fin 1) (0 : Fin 3) g)) (v29 (ix2 (0 : Fin 3) (0 : Fin 1))))
        + Ideal.div (v10 (ix2 n (0 : Fin 1)) - x7 (ix3 (0 : Fin 1) (1 : Fin 3) g)) (v29 (ix2 (1 : Fin 3) (0 : Fin 1)))
            * Ideal.div (v10 (ix2 n (0 : Fin 1)) - x7 (ix3 (0 : Fin 1) (1 : Fin 3) g)) (v29 (ix2 (1 : Fin 3) (0 : Fin 1))) := by
  have e0 := off_apply v8 v29 (extractStridedSlice S1x512 ![0, 0] (k0_pay23 x7) slices_S3x512_o0_0_S1x512)
    (0 : Fin 3) 0 rfl slices_S3x1_o0_0_S1x1 n g
  have e1 := off_apply v10 v29 (extractStridedSlice S1x512 ![1, 0] (k0_pay23 x7) slices_S3x512_o1_0_S1x512)
    (1 : Fin 3) 1 rfl slices_S3x1_o1_0_S1x1 n g
  rw [targetRow_apply x7 (0 : Fin 3) 0 rfl slices_S3x512_o0_0_S1x512 g] at e0
  rw [targetRow_apply x7 (1 : Fin 3) 1 rfl slices_S3x512_o1_0_S1x512 g] at e1
  unfold k0_pay25
  exact congrArg₂ (fun a b : EReal => a + b)
    (congrArg₂ (fun a b : EReal => a + b) rfl (congrArg₂ (fun a b : EReal => a * b) e0 e0))
    (congrArg₂ (fun a b : EReal => a * b) e1 e1)

/-! ## The numerator cell over abstract operands -/

/-- The clipped mixture, one minus it, times the mask: equal parts give equal values. -/
theorem cell_congr {L L' P P' M M' : EReal} (hL : L = L') (hP : P = P') (hM : M = M') :
    (Cert.Spec.one - min Cert.Spec.one (max Cert.Spec.zero
        (Cert.Spec.wLine * L + Cert.Spec.wPoint * Ideal.exp (Cert.Spec.nhalf * P)))) * M
      = (Cert.Spec.one - min Cert.Spec.one (max Cert.Spec.zero
        (Cert.Spec.wLine * L' + Cert.Spec.wPoint * Ideal.exp (Cert.Spec.nhalf * P')))) * M' := by
  rw [hL, hP, hM]

/-- The cell: the sum over the points of (1 - clip(0.6 line + 0.4 exp(-1/2 min over targets of the distance))) times
    the mask, the distance being the first two dimensions' part plus dimension 2's plus the penalty. -/
theorem pay27_apply (v6 v12 : FVec Ideal S512x1 .f32) (v29 : FVec Ideal S3x1 .f32) (v107 : FVec Ideal S512x1 .f32)
    (v111 : FVec Ideal S1x512 .f32) (v132 : FVec Ideal S512x512 .f32) (v133 : FVec Ideal S1x512 .f32) :
    k0_pay27 v6 v12 v29 v107 v111 v132 v133 (ix2 (0 : Fin 1) (0 : Fin 1))
      = ∑ n : Fin 512, (Cert.Spec.one - min Cert.Spec.one (max Cert.Spec.zero
          (Cert.Spec.wLine * v107 (ix2 n (0 : Fin 1)) + Cert.Spec.wPoint * Ideal.exp (Cert.Spec.nhalf *
            (Finset.univ : Finset (Fin 512)).fold min Cert.Spec.pinf fun g =>
              (v132 (ix2 n g)
                + Ideal.div (v12 (ix2 n (0 : Fin 1)) - v133 (ix2 (0 : Fin 1) g)) (v29 (ix2 (2 : Fin 3) (0 : Fin 1)))
                  * Ideal.div (v12 (ix2 n (0 : Fin 1)) - v133 (ix2 (0 : Fin 1) g)) (v29 (ix2 (2 : Fin 3) (0 : Fin 1))))
              + (Cert.Spec.one - v111 (ix2 (0 : Fin 1) g)) * Cert.Spec.big)))) * v6 (ix2 n (0 : Fin 1)) := by
  unfold k0_pay27
  refine (shapeCast_a_1a_apply _ shapeCasts_S1_S1x1 (0 : Fin 1) (0 : Fin 1)).trans ?_
  refine (multiReduction_add_col _ reduces_S512x1_S1 _ _).trans ?_
  refine Finset.sum_congr rfl fun n _ => ?_
  simp only [mulf_apply, subf_apply, addf_apply, minimumf_apply, maximumf_apply, broadcast_apply, exp_apply]
  refine cell_congr rfl ?_ rfl
  refine (shapeCast_a_a1_apply _ shapeCasts_S512_S512x1 n (0 : Fin 1)).trans ?_
  refine (multiReduction_minimumf_row _ reduces_S512x512_S512 _ _ n).trans ?_
  refine congrArg (fun f : Fin 512 → EReal => Finset.fold min Cert.Spec.pinf f Finset.univ) (funext fun g => ?_)
  have e2 := off_apply v12 v29 v133 (2 : Fin 3) 2 rfl slices_S3x1_o2_0_S1x1 n g
  exact congrArg₂ (fun a b : EReal => a + b)
    (congrArg₂ (fun a b : EReal => a + b) rfl (congrArg₂ (fun a b : EReal => a * b) e2 e2))
    (broadcastTo_1b_ab_apply _ broadcasts_S1x512_S512x512 n g)

/-! ## The distance to a target: three explicit dimensions from zero are the sum over the dimensions -/

theorem dist_assemble (p t s : Fin 3 → EReal) (b : EReal) :
    (((Cert.Spec.zero + Ideal.div (p 0 - t 0) (s 0) * Ideal.div (p 0 - t 0) (s 0))
        + Ideal.div (p 1 - t 1) (s 1) * Ideal.div (p 1 - t 1) (s 1))
        + Ideal.div (p 2 - t 2) (s 2) * Ideal.div (p 2 - t 2) (s 2)) + b * Cert.Spec.big
      = (∑ d : Fin 3, Ideal.div (p d - t d) (s d) * Ideal.div (p d - t d) (s d)) + b * Cert.Spec.big := by
  rw [Fin.sum_univ_three]
  show (((Ideal.ofBits .f32 0x00000000#32 + _) + _) + _) + _ = _
  rw [Ideal.ofBits_zero_f32, zero_add]

end Point

/-- The 1 x 1 cell holding the batch's numerator. -/
theorem numCell_apply (x0 : Vec Ideal S1x512x3 .f32) (x1 : Vec Ideal S1x512x1 .f32) (x2 x3 : Vec Ideal S1x3x511 .f32)
    (x4 x5 x6 : Vec Ideal S1x1x511 .f32) (x7 : Vec Ideal S1x3x512 .f32) (x8 : Vec Ideal S1x1x512 .f32)
    (x9 x10 : Vec Ideal S1x3x1 .f32) :
    numCell (F := Ideal) x0 x1 x2 x3 x4 x5 x6 x7 x8 x9 x10 (ix2 (0 : Fin 1) (0 : Fin 1))
      = Cert.Spec.numB (fun n d => x0 (ix3 (0 : Fin 1) n d)) (fun n => x1 (ix3 (0 : Fin 1) n (0 : Fin 1)))
          (fun m d => x2 (ix3 (0 : Fin 1) d m)) (fun m d => x3 (ix3 (0 : Fin 1) d m))
          (fun m => x4 (ix3 (0 : Fin 1) (0 : Fin 1) m)) (fun m => x5 (ix3 (0 : Fin 1) (0 : Fin 1) m))
          (fun m => Cert.Spec.one - x6 (ix3 (0 : Fin 1) (0 : Fin 1) m))
          (fun g d => x7 (ix3 (0 : Fin 1) d g)) (fun g => Cert.Spec.one - x8 (ix3 (0 : Fin 1) (0 : Fin 1) g))
          (fun d => x9 (ix3 (0 : Fin 1) d (0 : Fin 1))) (fun d => x10 (ix3 (0 : Fin 1) d (0 : Fin 1))) := by
  unfold numCell
  refine (Point.pay27_apply _ _ _ _ _ _ _).trans ?_
  unfold Cert.Spec.numB
  refine Finset.sum_congr rfl fun n _ => ?_
  refine Point.cell_congr (lineCol_apply x0 x1 x2 x3 x4 x5 x6 x9 n) ?_ (Point.pay4_apply x1 n)
  refine congrArg (fun f : Fin 512 → EReal => Finset.fold min Cert.Spec.pinf f Finset.univ) (funext fun g => ?_)
  rw [Point.pay25_apply, Point.pay5_apply, Point.pay6_apply, Point.pay7_apply, Point.pay17_apply, Point.pay17_apply,
    Point.pay17_apply, Point.pay24_apply, Point.pay26_apply]
  exact Point.dist_assemble
    (fun d => Cert.Spec.pc (fun n d => x0 (ix3 (0 : Fin 1) n d)) (fun n => x1 (ix3 (0 : Fin 1) n (0 : Fin 1))) n d)
    (fun d => x7 (ix3 (0 : Fin 1) d g)) (fun d => x10 (ix3 (0 : Fin 1) d (0 : Fin 1)))
    (Cert.Spec.one - x8 (ix3 (0 : Fin 1) (0 : Fin 1) g))

end Cert.KernelIdeal.Pay

end
-- ==== Proof.PaySmall.lean ====
/-
  The masked count, the smoothness term and the observation sum of the loaded batch, and the running tile after the step.
-/
import proofs.«102376_j34763465294043_1_alg».proof.Proof.Compose
import proofs.«102376_j34763465294043_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout operations at explicit coordinates -/

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A 1 x 1 cell broadcast to [a, b] reads the cell everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## Sums along one axis -/

/-- The sum down a column [n, 1] into [1]. -/
theorem colSum_apply {n : ℕ} (src : FVec Ideal ⟨2, ![n, 1]⟩ .f32) (acc : BitVec 32)
    (h : (⟨2, ![n, 1]⟩ : Shape).Reduces [0] ⟨1, ![1]⟩) (hφ : FKind.Formats .f32)
    (hacc : acc = FKind.add.neutral .f32 hφ) :
    multiReduction .add [0] ⟨1, ![1]⟩ src acc h hφ hacc (ix1 (0 : Fin 1)) = ∑ k : Fin n, src (ix2 k (0 : Fin 1)) := by
  refine (Ideal.multiReduction_add_single src acc h hφ hacc (ix1 (0 : Fin 1))).trans ?_
  refine Finset.sum_congr rfl fun k _ => congrArg src ?_
  funext c
  match c with
  | ⟨0, _⟩ => rfl
  | ⟨1, _⟩ => rfl

/-- The sum along the lanes of [m, k] into [m]. -/
theorem rowSum_apply {m k : ℕ} (src : FVec Ideal ⟨2, ![m, k]⟩ .f32) (acc : BitVec 32)
    (h : (⟨2, ![m, k]⟩ : Shape).Reduces [1] ⟨1, ![m]⟩) (hφ : FKind.Formats .f32)
    (hacc : acc = FKind.add.neutral .f32 hφ) (r : Fin m) :
    multiReduction .add [1] ⟨1, ![m]⟩ src acc h hφ hacc (ix1 r) = ∑ c : Fin k, src (ix2 r c) := by
  refine (Ideal.multiReduction_add_single src acc h hφ hacc (ix1 r)).trans ?_
  refine Finset.sum_congr rfl fun c _ => congrArg src ?_
  funext d
  match d with
  | ⟨0, _⟩ => rfl
  | ⟨1, _⟩ => rfl

/-! ## A select on "row 0 and lane k" -/

theorem ofNat32_eq_iff (a b : ℕ) (ha : a < 128) (hb : b < 128) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

theorem select_cell {α : Type} (rv lv k : ℕ) (hr : rv < 128) (hl : lv < 128) (hk : k < 128) (A B : α) :
    Scalar.select (IntOp.andi (IntOp.cmpi .eq (BitVec.ofNat 32 rv) (BitVec.ofNat 32 0))
        (IntOp.cmpi .eq (BitVec.ofNat 32 lv) (BitVec.ofNat 32 k))) A B
      = if rv = 0 ∧ lv = k then A else B := by
  unfold Scalar.select IntOp.andi IntOp.cmpi
  simp only [BitVec.ofBool_and_ofBool]
  by_cases hc : rv = 0 ∧ lv = k
  · rw [if_pos hc, if_pos]
    obtain ⟨h0, h1⟩ := hc
    subst h0; subst h1
    simp
  · rw [if_neg hc, if_neg]
    intro h
    apply hc
    have h' : ((BitVec.ofNat 32 rv == BitVec.ofNat 32 0) && (BitVec.ofNat 32 lv == BitVec.ofNat 32 k)) = true := by
      cases hb : ((BitVec.ofNat 32 rv == BitVec.ofNat 32 0) && (BitVec.ofNat 32 lv == BitVec.ofNat 32 k))
      · rw [hb] at h; exact absurd h (by decide)
      · rfl
    rw [Bool.and_eq_true, beq_iff_eq, beq_iff_eq] at h'
    exact ⟨(ofNat32_eq_iff rv 0 hr (by omega)).mp h'.1, (ofNat32_eq_iff lv k hl hk).mp h'.2⟩

/-! ## The loaded blocks as matrices -/

/-- The mask column at row n. -/
theorem pay4_apply (x1 : Vec Ideal S1x512x1 .f32) (n : Fin 512) (u : Fin 1) :
    k0_pay4 (F := Ideal) x1 (ix2 n u) = x1 (ix3 (0 : Fin 1) n u) := by
  unfold k0_pay4
  exact shapeCast_1ab_ab_apply _ _ n u

/-- The masked count as a sum over the rows. -/
theorem pay28_apply (v6 : FVec Ideal S512x1 .f32) :
    k0_pay28 (F := Ideal) v6 (ix2 (0 : Fin 1) (0 : Fin 1)) = ∑ n : Fin 512, v6 (ix2 n (0 : Fin 1)) := by
  unfold k0_pay28
  refine (shapeCast_a_a1_apply _ _ (0 : Fin 1) (0 : Fin 1)).trans ?_
  exact colSum_apply _ _ _ _ _

/-- The observation sum. -/
theorem pay32_apply (x11 x12 : Vec Ideal S1x1024x4 .f32) :
    k0_pay32 (F := Ideal) x11 x12 (ix2 (0 : Fin 1) (0 : Fin 1))
      = ∑ r : Fin 1024, ∑ c : Fin 4,
          (x11 (ix3 (0 : Fin 1) r c) - x12 (ix3 (0 : Fin 1) r c)) * (x11 (ix3 (0 : Fin 1) r c) - x12 (ix3 (0 : Fin 1) r c)) := by
  unfold k0_pay32
  refine (shapeCast_a_a1_apply _ _ (0 : Fin 1) (0 : Fin 1)).trans ?_
  refine (colSum_apply _ _ _ _ _).trans ?_
  refine Finset.sum_congr rfl fun r _ => ?_
  refine (shapeCast_a_a1_apply _ _ r (0 : Fin 1)).trans ?_
  refine (rowSum_apply _ _ _ _ _ r).trans ?_
  refine Finset.sum_congr rfl fun c _ => ?_
  show (shapeCast S1024x4 x11 _ (ix2 r c) - shapeCast S1024x4 x12 _ (ix2 r c))
      * (shapeCast S1024x4 x11 _ (ix2 r c) - shapeCast S1024x4 x12 _ (ix2 r c)) = _
  rw [shapeCast_1ab_ab_apply, shapeCast_1ab_ab_apply]

/-! ## The smoothness term -/

/-- The raw points as a matrix. -/
theorem pay3_apply (x0 : Vec Ideal S1x512x3 .f32) (n : Fin 512) (d : Fin 3) :
    k0_pay3 (F := Ideal) x0 (ix2 n d) = x0 (ix3 (0 : Fin 1) n d) := by
  unfold k0_pay3
  exact shapeCast_1ab_ab_apply _ _ n d

/-- The first coordinate's column. -/
theorem pay8_apply (x0 : Vec Ideal S1x512x3 .f32) (n : Fin 512) :
    k0_pay8 (F := Ideal) x0 (ix2 n (0 : Fin 1)) = x0 (ix3 (0 : Fin 1) n (0 : Fin 3)) := by
  unfold k0_pay8
  exact (slice2_axis1_apply 0 _ _ n (0 : Fin 1) (0 : Fin 3) rfl).trans (pay3_apply x0 n 0)

/-- The second coordinate's column. -/
theorem pay9_apply (x0 : Vec Ideal S1x512x3 .f32) (n : Fin 512) :
    k0_pay9 (F := Ideal) x0 (ix2 n (0 : Fin 1)) = x0 (ix3 (0 : Fin 1) n (1 : Fin 3)) := by
  unfold k0_pay9
  exact (slice2_axis1_apply 1 _ _ n (0 : Fin 1) (1 : Fin 3) rfl).trans (pay3_apply x0 n 1)

/-- The third coordinate's column. -/
theorem pay10_apply (x0 : Vec Ideal S1x512x3 .f32) (n : Fin 512) :
    k0_pay10 (F := Ideal) x0 (ix2 n (0 : Fin 1)) = x0 (ix3 (0 : Fin 1) n (2 : Fin 3)) := by
  unfold k0_pay10
  exact (slice2_axis1_apply 2 _ _ n (0 : Fin 1) (2 : Fin 3) rfl).trans (pay3_apply x0 n 2)

/-- Rows 1 to 511 of a column: row n of the cut is row n + 1. -/
theorem sliceUp_apply (v : FVec Ideal S512x1 .f32) (h : S512x1.Slices ![1, 0] S511x1) (n : Fin 511) :
    extractStridedSlice S511x1 ![1, 0] v h (ix2 n (0 : Fin 1)) = v (ix2 (n.succ : Fin 512) (0 : Fin 1)) :=
  slice2_axis0_apply 1 v h n (0 : Fin 1) n.succ (by rw [Fin.val_succ]; omega)

/-- Rows 0 to 510 of a column: row n of the cut is row n. -/
theorem sliceLo_apply (v : FVec Ideal S512x1 .f32) (h : S512x1.Slices ![0, 0] S511x1) (n : Fin 511) :
    extractStridedSlice S511x1 ![0, 0] v h (ix2 n (0 : Fin 1)) = v (ix2 (n.castSucc : Fin 512) (0 : Fin 1)) :=
  slice2_axis0_apply 0 v h n (0 : Fin 1) n.castSucc (by rw [Fin.val_castSucc]; omega)

/-- The first two coordinates' squared steps, summed from zero. -/
theorem pay29_apply (v13 v14 : FVec Ideal S512x1 .f32) (n : Fin 511) :
    k0_pay29 (F := Ideal) v13 v14 (ix2 n (0 : Fin 1))
      = (Ideal.ofBits .f32 0x00000000#32
          + (v13 (ix2 (n.succ : Fin 512) (0 : Fin 1)) - v13 (ix2 (n.castSucc : Fin 512) (0 : Fin 1)))
            * (v13 (ix2 (n.succ : Fin 512) (0 : Fin 1)) - v13 (ix2 (n.castSucc : Fin 512) (0 : Fin 1))))
        + (v14 (ix2 (n.succ : Fin 512) (0 : Fin 1)) - v14 (ix2 (n.castSucc : Fin 512) (0 : Fin 1)))
            * (v14 (ix2 (n.succ : Fin 512) (0 : Fin 1)) - v14 (ix2 (n.castSucc : Fin 512) (0 : Fin 1))) := by
  have hu : S512x1.Slices ![1, 0] S511x1 := by decide
  have hl : S512x1.Slices ![0, 0] S511x1 := by decide
  rw [← sliceUp_apply v13 hu n, ← sliceLo_apply v13 hl n, ← sliceUp_apply v14 hu n, ← sliceLo_apply v14 hl n]
  rfl

/-- The third coordinate's upper rows. -/
theorem pay30_apply (v15 : FVec Ideal S512x1 .f32) (n : Fin 511) :
    k0_pay30 (F := Ideal) v15 (ix2 n (0 : Fin 1)) = v15 (ix2 (n.succ : Fin 512) (0 : Fin 1)) := by
  unfold k0_pay30
  exact sliceUp_apply v15 _ n

/-- The quotient: the masked sum of squared steps over the masked pair count plus the small constant. -/
theorem pay31_apply (v6 v15 : FVec Ideal S512x1 .f32) (v180 v181 : FVec Ideal S511x1 .f32) :
    k0_pay31 (F := Ideal) v6 v15 v180 v181 (ix2 (0 : Fin 1) (0 : Fin 1))
      = Ideal.div
          (∑ n : Fin 511,
            (v180 (ix2 n (0 : Fin 1))
              + (v181 (ix2 n (0 : Fin 1)) - v15 (ix2 (n.castSucc : Fin 512) (0 : Fin 1)))
                * (v181 (ix2 n (0 : Fin 1)) - v15 (ix2 (n.castSucc : Fin 512) (0 : Fin 1))))
            * (v6 (ix2 (n.succ : Fin 512) (0 : Fin 1)) * v6 (ix2 (n.castSucc : Fin 512) (0 : Fin 1))))
          ((∑ n : Fin 511, v6 (ix2 (n.succ : Fin 512) (0 : Fin 1)) * v6 (ix2 (n.castSucc : Fin 512) (0 : Fin 1)))
            + Ideal.ofBits .f32 0x322BCC77#32) := by
  have hu : S512x1.Slices ![1, 0] S511x1 := by decide
  have hl : S512x1.Slices ![0, 0] S511x1 := by decide
  unfold k0_pay31
  dsimp only
  refine congrArg₂ Ideal.div ?_ (congrArg (· + Ideal.ofBits .f32 0x322BCC77#32) ?_)
  · refine (shapeCast_a_a1_apply _ _ (0 : Fin 1) (0 : Fin 1)).trans ?_
    refine (colSum_apply _ _ _ _ _).trans ?_
    refine Finset.sum_congr rfl fun n _ => ?_
    rw [← sliceLo_apply v15 hl n, ← sliceUp_apply v6 hu n, ← sliceLo_apply v6 hl n]
    rfl
  · refine (shapeCast_a_a1_apply _ _ (0 : Fin 1) (0 : Fin 1)).trans ?_
    refine (colSum_apply _ _ _ _ _).trans ?_
    refine Finset.sum_congr rfl fun n _ => ?_
    rw [← sliceUp_apply v6 hu n, ← sliceLo_apply v6 hl n]
    rfl

/-! ## The running tile -/

/-- The row number of a tile cell. -/
theorem rowIota_apply (h : S8x128.Iotas .tc 32 [0]) (r : Fin 8) (l : Fin 128) :
    iota .tc S8x128 32 [0] h (ix2 r l) = BitVec.ofNat 32 r.val :=
  iota_single_apply .tc S8x128 32 0 h (ix2 r l)

/-- The lane number of a tile cell. -/
theorem laneIota_apply (h : S8x128.Iotas .tc 32 [1]) (r : Fin 8) (l : Fin 128) :
    iota .tc S8x128 32 [1] h (ix2 r l) = BitVec.ofNat 32 l.val :=
  iota_single_apply .tc S8x128 32 1 h (ix2 r l)

/-- A 1 x 1 cell broadcast over the tile reads the cell everywhere. -/
theorem cellBcast_apply (v : FVec Ideal S1x1 .f32) (h1 : S1x1.ShapeCasts S1x1) (h2 : S1x1.Broadcasts S8x128)
    (r : Fin 8) (l : Fin 128) :
    broadcastTo S8x128 (shapeCast S1x1 v h1) h2 (ix2 r l) = v (ix2 (0 : Fin 1) (0 : Fin 1)) :=
  (broadcastTo_11_ab_apply _ h2 r l).trans (congrFun (shapeCast_self v h1) _)

/-- "Row 0" as a bit. -/
theorem pay33_apply (r : Fin 8) (l : Fin 128) :
    k0_pay33 (ix2 r l) = IntOp.cmpi .eq (BitVec.ofNat 32 r.val) (BitVec.ofNat 32 0) := by
  unfold k0_pay33
  show IntOp.cmpi .eq (iota .tc S8x128 32 [0] _ (ix2 r l)) 0#32 = _
  rw [rowIota_apply]

/-- "Lane 2" as a bit. -/
theorem pay35_apply (r : Fin 8) (l : Fin 128) :
    k0_pay35 (ix2 r l) = IntOp.cmpi .eq (BitVec.ofNat 32 l.val) (BitVec.ofNat 32 2) := by
  unfold k0_pay35
  show IntOp.cmpi .eq (iota .tc S8x128 32 [1] _ (ix2 r l)) 2#32 = _
  rw [laneIota_apply]

/-- The first two cells placed: the count in lane 1 and the masked sum in lane 0 of row 0, zero elsewhere. -/
theorem pay34_apply (num den : FVec Ideal S1x1 .f32) (r : Fin 8) (l : Fin 128) :
    k0_pay34 (F := Ideal) num den (ix2 r l)
      = if r.val = 0 ∧ l.val = 1 then den (ix2 (0 : Fin 1) (0 : Fin 1))
        else if r.val = 0 ∧ l.val = 0 then num (ix2 (0 : Fin 1) (0 : Fin 1))
        else Ideal.ofBits .f32 0x00000000#32 := by
  have hr : r.val < 128 := by omega
  unfold k0_pay34
  show Scalar.select (IntOp.andi (k0_pay33 (ix2 r l)) (IntOp.cmpi .eq (iota .tc S8x128 32 [1] _ (ix2 r l)) 1#32))
      (broadcastTo S8x128 (shapeCast S1x1 den _) _ (ix2 r l))
      (Scalar.select (IntOp.andi (k0_pay33 (ix2 r l)) (IntOp.cmpi .eq (iota .tc S8x128 32 [1] _ (ix2 r l)) 0#32))
        (broadcastTo S8x128 (shapeCast S1x1 num _) _ (ix2 r l)) (Ideal.ofBits .f32 0x00000000#32)) = _
  rw [pay33_apply, laneIota_apply, cellBcast_apply, cellBcast_apply,
    select_cell r.val l.val 1 hr l.isLt (by omega), select_cell r.val l.val 0 hr l.isLt (by omega)]

/-- The step: what the tile held plus the four cells in lanes 3, 2, 1, 0 of row 0. -/
theorem pay1_apply (sm cae : FVec Ideal S1x1 .f32) (h : S8x128.Iotas .tc 32 [1]) (v223 : FVec Ideal S8x128 .f32)
    (prev : Vec Ideal S8x128 .f32) (r : Fin 8) (l : Fin 128) :
    k0_pay1 (F := Ideal) sm cae (iota .tc S8x128 32 [1] h) k0_pay33 v223 k0_pay35 prev (ix2 r l)
      = prev (ix2 r l)
        + (if r.val = 0 ∧ l.val = 3 then cae (ix2 (0 : Fin 1) (0 : Fin 1))
           else if r.val = 0 ∧ l.val = 2 then sm (ix2 (0 : Fin 1) (0 : Fin 1))
           else v223 (ix2 r l)) := by
  have hr : r.val < 128 := by omega
  unfold k0_pay1
  rw [shapeCast_self]
  show prev (ix2 r l)
      + Scalar.select (IntOp.andi (k0_pay33 (ix2 r l)) (IntOp.cmpi .eq (iota .tc S8x128 32 [1] h (ix2 r l)) 3#32))
          (broadcastTo S8x128 (shapeCast S1x1 cae _) _ (ix2 r l))
          (Scalar.select (IntOp.andi (k0_pay33 (ix2 r l)) (k0_pay35 (ix2 r l)))
            (broadcastTo S8x128 (shapeCast S1x1 sm _) _ (ix2 r l)) (v223 (ix2 r l))) = _
  rw [pay33_apply, pay35_apply, laneIota_apply, cellBcast_apply, cellBcast_apply,
    select_cell r.val l.val 3 hr l.isLt (by omega), select_cell r.val l.val 2 hr l.isLt (by omega)]

/-! ## The four cells and the step against the specification -/

/-- The masked count. -/
theorem denCell_apply (x1 : Vec Ideal S1x512x1 .f32) :
    denCell (F := Ideal) x1 (ix2 (0 : Fin 1) (0 : Fin 1)) = Cert.Spec.denB (fun n => x1 (ix3 (0 : Fin 1) n (0 : Fin 1))) := by
  unfold denCell Cert.Spec.denB
  refine (pay28_apply _).trans ?_
  exact Finset.sum_congr rfl fun n _ => pay4_apply x1 n (0 : Fin 1)

/-- The smoothness term: consecutive points' squared differences where both are valid, over the count of such pairs
    plus 10^-8. -/
theorem smoothCell_apply (x0 : Vec Ideal S1x512x3 .f32) (x1 : Vec Ideal S1x512x1 .f32) :
    smoothCell (F := Ideal) x0 x1 (ix2 (0 : Fin 1) (0 : Fin 1))
      = Cert.Spec.smoothB (fun n d => x0 (ix3 (0 : Fin 1) n d))
          (fun n => x1 (ix3 (0 : Fin 1) n.succ (0 : Fin 1)) * x1 (ix3 (0 : Fin 1) n.castSucc (0 : Fin 1))) := by
  unfold smoothCell Cert.Spec.smoothB
  refine (pay31_apply _ _ _ _).trans ?_
  refine congrArg₂ Ideal.div ?_ (congrArg (· + Cert.Spec.eps) ?_)
  · refine Finset.sum_congr rfl fun n _ => ?_
    rw [pay29_apply, pay30_apply, pay8_apply, pay8_apply, pay9_apply, pay9_apply, pay10_apply, pay10_apply,
      pay4_apply, pay4_apply, Fin.sum_univ_three, Ideal.ofBits_zero_f32, zero_add]
  · refine Finset.sum_congr rfl fun n _ => ?_
    rw [pay4_apply, pay4_apply]

/-- The sum of squared observation differences. -/
theorem caeCell_apply (x11 x12 : Vec Ideal S1x1024x4 .f32) :
    caeCell (F := Ideal) x11 x12 (ix2 (0 : Fin 1) (0 : Fin 1))
      = Cert.Spec.caeB (fun r c => x11 (ix3 (0 : Fin 1) r c)) (fun r c => x12 (ix3 (0 : Fin 1) r c)) := by
  unfold caeCell Cert.Spec.caeB
  exact pay32_apply x11 x12

/-- The running tile after the step: what it held plus the four cells in lanes 0 to 3 of row 0. -/
theorem accStep_apply (x0 : Vec Ideal S1x512x3 .f32) (x1 : Vec Ideal S1x512x1 .f32) (x2 x3 : Vec Ideal S1x3x511 .f32)
    (x4 x5 x6 : Vec Ideal S1x1x511 .f32) (x7 : Vec Ideal S1x3x512 .f32) (x8 : Vec Ideal S1x1x512 .f32)
    (x9 x10 : Vec Ideal S1x3x1 .f32) (x11 x12 : Vec Ideal S1x1024x4 .f32) (prev : Vec Ideal S8x128 .f32)
    (r : Fin 8) (l : Fin 128) :
    accStep (F := Ideal) x0 x1 x2 x3 x4 x5 x6 x7 x8 x9 x10 x11 x12 prev (ix2 r l)
      = prev (ix2 r l) + Cert.Spec.tile
          (numCell (F := Ideal) x0 x1 x2 x3 x4 x5 x6 x7 x8 x9 x10 (ix2 (0 : Fin 1) (0 : Fin 1)))
          (denCell (F := Ideal) x1 (ix2 (0 : Fin 1) (0 : Fin 1)))
          (smoothCell (F := Ideal) x0 x1 (ix2 (0 : Fin 1) (0 : Fin 1)))
          (caeCell (F := Ideal) x11 x12 (ix2 (0 : Fin 1) (0 : Fin 1))) r l := by
  unfold accStep Cert.Spec.tile
  refine (pay1_apply _ _ _ _ prev r l).trans ?_
  rw [pay34_apply]

end Cert.KernelIdeal.Pay

end
-- ==== Proof.SpecLaws.lean ====
/-
  Small facts about the specification: a one-bit word as 0 or 1 under complement and conjunction, the zero word, and
  the running tile (a sum over the batches met so far) one batch at a time and read at its four live cells.
-/
import proofs.«102376_j34763465294043_1_alg».proof.Proof.Spec
import Idealize.ShloMosaic.Lib.IdealHost

noncomputable section

open scoped BigOperators
open Idealize.ShloMosaic Idealize.ShloMosaic.ValueIdx

namespace Cert.Spec

theorem zero_eq : zero = 0 := Ideal.ofBits_zero_f32
theorem one_eq : one = 1 := Ideal.ofBits_one_f32

/-- 1 - (a bit as a number) is the complemented bit as a number. -/
theorem one_sub_bit (w : BitVec 1) : one - bit w = bit (~~~ w) := by
  rw [one_eq]
  have h : w = 0#1 ∨ w = 1#1 := by revert w; decide
  rcases h with rfl | rfl
  · show (1 : EReal) - (((0#1 : BitVec 1).toNat : ℝ) : EReal) = (((~~~(0#1 : BitVec 1)).toNat : ℝ) : EReal)
    have e0 : (0#1 : BitVec 1).toNat = 0 := by decide
    have e1 : (~~~(0#1 : BitVec 1)).toNat = 1 := by decide
    rw [e0, e1]; simp
  · show (1 : EReal) - (((1#1 : BitVec 1).toNat : ℝ) : EReal) = (((~~~(1#1 : BitVec 1)).toNat : ℝ) : EReal)
    have e0 : (1#1 : BitVec 1).toNat = 1 := by decide
    have e1 : (~~~(1#1 : BitVec 1)).toNat = 0 := by decide
    rw [e0, e1]
    have : ((1 : ℝ) : EReal) = 1 := by norm_cast
    simp only [Nat.cast_one, Nat.cast_zero, EReal.coe_one, EReal.coe_zero]
    rw [← EReal.coe_one, ← EReal.coe_sub]; simp

/-- The product of two bits as numbers is their conjunction as a number. -/
theorem bit_mul_bit (a b : BitVec 1) : bit a * bit b = bit (a &&& b) := by
  have ha : a = 0#1 ∨ a = 1#1 := by revert a; decide
  have hb : b = 0#1 ∨ b = 1#1 := by revert b; decide
  have e0 : (0#1 : BitVec 1).toNat = 0 := by decide
  have e1 : (1#1 : BitVec 1).toNat = 1 := by decide
  rcases ha with rfl | rfl <;> rcases hb with rfl | rfl
  · have e : ((0#1 : BitVec 1) &&& 0#1).toNat = 0 := by decide
    show (((0#1 : BitVec 1).toNat : ℝ) : EReal) * (((0#1 : BitVec 1).toNat : ℝ) : EReal) = _
    show _ = ((((0#1 : BitVec 1) &&& 0#1).toNat : ℝ) : EReal)
    rw [e, e0]; simp
  · have e : ((0#1 : BitVec 1) &&& 1#1).toNat = 0 := by decide
    show (((0#1 : BitVec 1).toNat : ℝ) : EReal) * (((1#1 : BitVec 1).toNat : ℝ) : EReal) = ((((0#1 : BitVec 1) &&& 1#1).toNat : ℝ) : EReal)
    rw [e, e0, e1]; simp
  · have e : ((1#1 : BitVec 1) &&& 0#1).toNat = 0 := by decide
    show (((1#1 : BitVec 1).toNat : ℝ) : EReal) * (((0#1 : BitVec 1).toNat : ℝ) : EReal) = ((((1#1 : BitVec 1) &&& 0#1).toNat : ℝ) : EReal)
    rw [e, e0, e1]; simp
  · have e : ((1#1 : BitVec 1) &&& 1#1).toNat = 1 := by decide
    show (((1#1 : BitVec 1).toNat : ℝ) : EReal) * (((1#1 : BitVec 1).toNat : ℝ) : EReal) = ((((1#1 : BitVec 1) &&& 1#1).toNat : ℝ) : EReal)
    rw [e, e1]; simp

section Whole
variable (pp : A3.Idx → EReal) (pm : A2.Idx → BitVec 1) (tg : A3.Idx → EReal) (tm : A2.Idx → BitVec 1)
  (orc ob : AO.Idx → EReal)

theorem accUpTo_zero (r : Fin 8) (l : Fin 128) :
    accUpTo pp pm tg tm orc ob 0 r l = tileAt pp pm tg tm orc ob 0 r l := by
  unfold accUpTo
  rw [Finset.sum_eq_single (0 : Fin 32)]
  · simp
  · intro b _ hb
    have : ¬ b.val ≤ 0 := fun h => hb (Fin.ext (by simpa using Nat.le_zero.mp h))
    simp [this]
  · intro h; exact absurd (Finset.mem_univ _) h

theorem accUpTo_succ (k : ℕ) (hk : k + 1 < 32) (r : Fin 8) (l : Fin 128) :
    accUpTo pp pm tg tm orc ob (k + 1) r l
      = accUpTo pp pm tg tm orc ob k r l + tileAt pp pm tg tm orc ob ⟨k + 1, hk⟩ r l := by
  unfold accUpTo
  have hsplit : ∀ b : Fin 32, (if b.val ≤ k + 1 then tileAt pp pm tg tm orc ob b r l else 0)
      = (if b.val ≤ k then tileAt pp pm tg tm orc ob b r l else 0)
        + (if b = (⟨k + 1, hk⟩ : Fin 32) then tileAt pp pm tg tm orc ob b r l else 0) := by
    intro b
    by_cases h1 : b.val ≤ k
    · have h2 : b.val ≤ k + 1 := by omega
      have h3 : b ≠ (⟨k + 1, hk⟩ : Fin 32) := fun e => by rw [e] at h1; simp at h1
      rw [if_pos h1, if_pos h2, if_neg h3, add_zero]
    · by_cases h4 : b.val = k + 1
      · have h3 : b = (⟨k + 1, hk⟩ : Fin 32) := Fin.ext h4
        have h2 : b.val ≤ k + 1 := by omega
        rw [if_neg h1, if_pos h2, if_pos h3, zero_add]
      · have h2 : ¬ b.val ≤ k + 1 := by omega
        have h3 : b ≠ (⟨k + 1, hk⟩ : Fin 32) := fun e => h4 (by rw [e])
        rw [if_neg h1, if_neg h2, if_neg h3, add_zero]
  rw [Finset.sum_congr rfl (fun b _ => hsplit b), Finset.sum_add_distrib, Finset.sum_ite_eq']
  simp

theorem accUpTo_last_0 : accUpTo pp pm tg tm orc ob 31 0 0 = ∑ b : Fin 32, numAt pp pm tg tm b := by
  unfold accUpTo
  refine Finset.sum_congr rfl fun b _ => ?_
  have hb : b.val ≤ 31 := by have := b.isLt; omega
  rw [if_pos hb]
  simp [tileAt, tile]
theorem accUpTo_last_1 : accUpTo pp pm tg tm orc ob 31 0 1 = ∑ b : Fin 32, denAt pm b := by
  unfold accUpTo
  refine Finset.sum_congr rfl fun b _ => ?_
  have hb : b.val ≤ 31 := by have := b.isLt; omega
  rw [if_pos hb]
  simp [tileAt, tile]
theorem accUpTo_last_2 : accUpTo pp pm tg tm orc ob 31 0 2 = ∑ b : Fin 32, smoothAt pp pm b := by
  unfold accUpTo
  refine Finset.sum_congr rfl fun b _ => ?_
  have hb : b.val ≤ 31 := by have := b.isLt; omega
  rw [if_pos hb]
  simp [tileAt, tile]
theorem accUpTo_last_3 : accUpTo pp pm tg tm orc ob 31 0 3 = ∑ b : Fin 32, caeAt orc ob b := by
  unfold accUpTo
  refine Finset.sum_congr rfl fun b _ => ?_
  have hb : b.val ≤ 31 := by have := b.isLt; omega
  rw [if_pos hb]
  simp [tileAt, tile]

end Whole

end Cert.Spec

end
-- ==== Proof.KFinal.lean ====
/-
  The running tile after each grid step is the sum of the batches' tiles met so far, and the output array after the launch is the tile after the last step: the output window is written back once, at the last step, and its one block is the whole array.
-/
import proofs.«102376_j34763465294043_1_alg».proof.Proof.KPieces
import proofs.«102376_j34763465294043_1_alg».proof.Proof.KBlocks
import proofs.«102376_j34763465294043_1_alg».proof.Proof.PayLine
import proofs.«102376_j34763465294043_1_alg».proof.Proof.PayPoint
import proofs.«102376_j34763465294043_1_alg».proof.Proof.PaySmall
import proofs.«102376_j34763465294043_1_alg».proof.Proof.SpecLaws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KVal

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ)

variable (c : Dev nD)
/-! ## The blocks a grid point loads, each under its literal type -/

abbrev b0 (t : Fin cfg0.N) : Vec Ideal S1x512x3 .f32 := iblk m c 0 t
abbrev b1 (t : Fin cfg0.N) : Vec Ideal S1x512x1 .f32 := iblk m c 1 t
abbrev b2 (t : Fin cfg0.N) : Vec Ideal S1x3x511 .f32 := iblk m c 2 t
abbrev b3 (t : Fin cfg0.N) : Vec Ideal S1x3x511 .f32 := iblk m c 3 t
abbrev b4 (t : Fin cfg0.N) : Vec Ideal S1x1x511 .f32 := iblk m c 4 t
abbrev b5 (t : Fin cfg0.N) : Vec Ideal S1x1x511 .f32 := iblk m c 5 t
abbrev b6 (t : Fin cfg0.N) : Vec Ideal S1x1x511 .f32 := iblk m c 6 t
abbrev b7 (t : Fin cfg0.N) : Vec Ideal S1x3x512 .f32 := iblk m c 7 t
abbrev b8 (t : Fin cfg0.N) : Vec Ideal S1x1x512 .f32 := iblk m c 8 t
abbrev b9 (t : Fin cfg0.N) : Vec Ideal S1x3x1 .f32 := iblk m c 9 t
abbrev b10 (t : Fin cfg0.N) : Vec Ideal S1x3x1 .f32 := iblk m c 10 t
abbrev b11 (t : Fin cfg0.N) : Vec Ideal S1x1024x4 .f32 := iblk m c 11 t
abbrev b12 (t : Fin cfg0.N) : Vec Ideal S1x1024x4 .f32 := iblk m c 12 t

/-! Their entries, in terms of the argument arrays. -/

theorem b0_at (t : Fin cfg0.N) (n : Fin 512) (d : Fin 3) :
    b0 m c t (ix3 (0 : Fin 1) n d) = (m ((c : Thread nD τ).loc main_arg0)) (ix3 (batchOf t) n d) := blk0 m c t n d
theorem b1_at (t : Fin cfg0.N) (n : Fin 512) :
    b1 m c t (ix3 (0 : Fin 1) n (0 : Fin 1)) = Cert.Spec.bit ((m ((c : Thread nD τ).loc main_arg1)) (ix2 (batchOf t) n)) := blk1 m c t n
theorem b2_at (t : Fin cfg0.N) (d : Fin 3) (s : Fin 511) :
    b2 m c t (ix3 (0 : Fin 1) d s) = Cert.Spec.segStart (m ((c : Thread nD τ).loc main_arg2)) (ix3 (batchOf t) s d) := blk2 m c t d s
theorem b3_at (t : Fin cfg0.N) (d : Fin 3) (s : Fin 511) :
    b3 m c t (ix3 (0 : Fin 1) d s) = Cert.Spec.segVec (m ((c : Thread nD τ).loc main_arg2)) (ix3 (batchOf t) s d) := blk3 m c t d s
theorem b4_at (t : Fin cfg0.N) (s : Fin 511) :
    b4 m c t (ix3 (0 : Fin 1) (0 : Fin 1) s) = Cert.Spec.segLen (m ((c : Thread nD τ).loc main_arg2)) (ix2 (batchOf t) s) := blk4 m c t s
theorem b5_at (t : Fin cfg0.N) (s : Fin 511) :
    b5 m c t (ix3 (0 : Fin 1) (0 : Fin 1) s) = Cert.Spec.segDot (m ((c : Thread nD τ).loc main_arg2)) (ix2 (batchOf t) s) := blk5 m c t s
theorem b6_at (t : Fin cfg0.N) (s : Fin 511) :
    b6 m c t (ix3 (0 : Fin 1) (0 : Fin 1) s) = Cert.Spec.bit (Cert.Spec.segOk (m ((c : Thread nD τ).loc main_arg3)) (ix2 (batchOf t) s)) := blk6 m c t s
theorem b7_at (t : Fin cfg0.N) (d : Fin 3) (g : Fin 512) :
    b7 m c t (ix3 (0 : Fin 1) d g) = (m ((c : Thread nD τ).loc main_arg2)) (ix3 (batchOf t) g d) := blk7 m c t d g
theorem b8_at (t : Fin cfg0.N) (g : Fin 512) :
    b8 m c t (ix3 (0 : Fin 1) (0 : Fin 1) g) = Cert.Spec.bit ((m ((c : Thread nD τ).loc main_arg3)) (ix2 (batchOf t) g)) := blk8 m c t g
theorem b9_at (t : Fin cfg0.N) (d : Fin 3) :
    b9 m c t (ix3 (0 : Fin 1) d (0 : Fin 1)) = Cert.Spec.sigma (m ((c : Thread nD τ).loc main_arg0)) (ix2 (batchOf t) d) := blk9 m c t d
theorem b10_at (t : Fin cfg0.N) (d : Fin 3) :
    b10 m c t (ix3 (0 : Fin 1) d (0 : Fin 1)) = Cert.Spec.sigma (m ((c : Thread nD τ).loc main_arg0)) (ix2 (batchOf t) d) := blk10 m c t d
theorem b11_at (t : Fin cfg0.N) (r : Fin 1024) (k : Fin 4) :
    b11 m c t (ix3 (0 : Fin 1) r k) = (m ((c : Thread nD τ).loc main_arg4)) (ix3 (batchOf t) r k) := blk11 m c t r k
theorem b12_at (t : Fin cfg0.N) (r : Fin 1024) (k : Fin 4) :
    b12 m c t (ix3 (0 : Fin 1) r k) = (m ((c : Thread nD τ).loc main_arg5)) (ix3 (batchOf t) r k) := blk12 m c t r k

/-- The four sums of the blocks loaded at point t are batch t's: each cell is the specification's function of the
    blocks' entries, and the entries are the argument arrays' rows of batch t (a validity mask enters the penalty as
    1 minus itself, the complemented bit; the smoothness mask is the product of two consecutive bits, their conjunction). -/
theorem tile_point (t : Fin cfg0.N) (r : Fin 8) (l : Fin 128) :
    Cert.Spec.tile
      (Pay.numCell (F := Ideal) (b0 m c t) (b1 m c t) (b2 m c t) (b3 m c t) (b4 m c t) (b5 m c t) (b6 m c t) (b7 m c t) (b8 m c t) (b9 m c t) (b10 m c t) (ix2 (0 : Fin 1) (0 : Fin 1)))
      (Pay.denCell (F := Ideal) (b1 m c t) (ix2 (0 : Fin 1) (0 : Fin 1)))
      (Pay.smoothCell (F := Ideal) (b0 m c t) (b1 m c t) (ix2 (0 : Fin 1) (0 : Fin 1)))
      (Pay.caeCell (F := Ideal) (b11 m c t) (b12 m c t) (ix2 (0 : Fin 1) (0 : Fin 1))) r l
      = Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) r l := by
  rw [Pay.numCell_apply, Pay.denCell_apply, Pay.smoothCell_apply, Pay.caeCell_apply]
  unfold Cert.Spec.tileAt Cert.Spec.numAt Cert.Spec.denAt Cert.Spec.smoothAt Cert.Spec.caeAt
  simp only [b0_at m c t, b1_at m c t, b2_at m c t, b3_at m c t, b4_at m c t, b5_at m c t, b6_at m c t, b7_at m c t, b8_at m c t, b9_at m c t, b10_at m c t, b11_at m c t, b12_at m c t, Cert.Spec.one_sub_bit, Cert.Spec.bit_mul_bit]

/-- The cleared tile's entries are the zero word, which is 0. -/
theorem pay2_at (r : Fin 8) (l : Fin 128) : (k0_pay2 (F := Ideal)) (ix2 r l) = 0 := by
  unfold k0_pay2
  rw [shapeCast_self]
  exact Ideal.ofBits_zero_f32

/-! ## One grid step -/

/-- The first step leaves batch 0's tile: the tile is cleared, then the sums are added, and 0 + x = x. -/
theorem step_A (t : Fin cfg0.N) (h0 : t.val % 32 = 0) (h1 : ¬t.val % 32 = 31) (r : Fin 8) (l : Fin 128) :
    (outsAt0 m c t.val t.isLt).2 (ix2 r l) = Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) r l := by
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (b0 m c t) (b1 m c t) (b2 m c t) (b3 m c t) (b4 m c t) (b5 m c t) (b6 m c t) (b7 m c t) (b8 m c t) (b9 m c t) (b10 m c t) (b11 m c t) (b12 m c t)) (ix2 r l)).trans ?_
  refine (Pay.accStep_apply (b0 m c t) (b1 m c t) (b2 m c t) (b3 m c t) (b4 m c t) (b5 m c t) (b6 m c t) (b7 m c t) (b8 m c t) (b9 m c t) (b10 m c t) (b11 m c t) (b12 m c t) (k0_pay2 (F := Ideal)) r l).trans ?_
  rw [tile_point m c t r l, pay2_at r l, zero_add]

/-- A middle step adds its batch's tile to what the step before left. -/
theorem step_B (t : Fin cfg0.N) (h0 : ¬t.val % 32 = 0) (h1 : ¬t.val % 32 = 31) (r : Fin 8) (l : Fin 128) :
    (outsAt0 m c t.val t.isLt).2 (ix2 r l)
      = (outsAt0 m c (t.val - 1) (Nat.lt_of_le_of_lt (Nat.sub_le _ _) t.isLt)).2 (ix2 r l)
        + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) r l := by
  rw [outsAt0_B m c t h0 h1]
  dsimp only
  refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2) (ix2 r l)).trans ?_
  refine (Pay.accStep_apply (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2 r l).trans ?_
  rw [tile_point m c t r l]

/-- The last step does the same to the tile, -/
theorem step_C (t : Fin cfg0.N) (h0 : ¬t.val % 32 = 0) (h1 : t.val % 32 = 31) (r : Fin 8) (l : Fin 128) :
    (outsAt0 m c t.val t.isLt).2 (ix2 r l)
      = (outsAt0 m c (t.val - 1) (Nat.lt_of_le_of_lt (Nat.sub_le _ _) t.isLt)).2 (ix2 r l)
        + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) r l := by
  rw [outsAt0_C m c t h0 h1]
  dsimp only
  refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2) (ix2 r l)).trans ?_
  refine (Pay.accStep_apply (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2 r l).trans ?_
  rw [tile_point m c t r l]

/-- and copies the tile into the output block. -/
theorem step_C_out (t : Fin cfg0.N) (h0 : ¬t.val % 32 = 0) (h1 : t.val % 32 = 31) (r : Fin 8) (l : Fin 128) :
    (outsAt0 m c t.val t.isLt).1 (ix2 r l)
      = (outsAt0 m c (t.val - 1) (Nat.lt_of_le_of_lt (Nat.sub_le _ _) t.isLt)).2 (ix2 r l)
        + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) r l := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2) (ix2 r l)).trans ?_
  refine (Pay.accStep_apply (b0 m c t) (b1 m c t) (b2 m c t) (b3 m c t) (b4 m c t) (b5 m c t) (b6 m c t) (b7 m c t) (b8 m c t) (b9 m c t) (b10 m c t) (b11 m c t) (b12 m c t) (outsAt0 m c (t.val - 1) (Nat.lt_of_le_of_lt (Nat.sub_le _ _) t.isLt)).2 r l).trans ?_
  rw [tile_point m c t r l]

/-! ## The running tile -/

/-- The tile after step k: batches 0 to k. -/
theorem scratch_after (k : ℕ) (hk : k < cfg0.N) (r : Fin 8) (l : Fin 128) :
    (outsAt0 m c k hk).2 (ix2 r l) = Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k r l := by
  induction k with
  | zero =>
    refine (step_A m c ⟨0, hk⟩ (Nat.zero_mod 32) (by show ¬(0 % 32 = 31); omega) r l).trans ?_
    exact (Cert.Spec.accUpTo_zero (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r l).symm
  | succ k ih =>
    have h32 : k + 1 < 32 := lt_of_lt_of_eq hk (show cfg0.N = 32 from N_0)
    have h0 : ¬(⟨k + 1, hk⟩ : Fin cfg0.N).val % 32 = 0 := by show ¬((k + 1) % 32 = 0); omega
    rw [Cert.Spec.accUpTo_succ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k h32 r l]
    by_cases h1 : (⟨k + 1, hk⟩ : Fin cfg0.N).val % 32 = 31
    · refine (step_C m c ⟨k + 1, hk⟩ h0 h1 r l).trans ?_
      exact congrArg (· + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨k + 1, h32⟩ : Fin 32) r l) (ih (Nat.lt_of_succ_lt hk))
    · refine (step_B m c ⟨k + 1, hk⟩ h0 h1 r l).trans ?_
      exact congrArg (· + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨k + 1, h32⟩ : Fin 32) r l) (ih (Nat.lt_of_succ_lt hk))

/-! ## The output array -/

/-- The last grid point. -/
abbrev tLast : Fin cfg0.N := ⟨31, by rw [show cfg0.N = 32 from N_0]; decide⟩

/-- The output block after the last step: every batch's tile. -/
theorem out_last (r : Fin 8) (l : Fin 128) :
    (outsAt0 m c (tLast).val (tLast).isLt).1 (ix2 r l) = Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 r l := by
  refine (step_C_out m c tLast (by decide) (by decide) r l).trans ?_
  rw [Cert.Spec.accUpTo_succ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 30 (by decide) r l]
  exact congrArg (· + Cert.Spec.tileAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨30 + 1, by decide⟩ : Fin 32) r l) (scratch_after m c 30 _ r l)

/-- The array the launch leaves, as a function of the index. -/
abbrev result : Buf (Elt Ideal) ((c : Thread nD τ).loc main_v36) :=
  fun j : S8x128.Idx => Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 (j 0) (j 1)

theorem out_last_eq : (outsAt0 m c (tLast).val (tLast).isLt).1 = result m c := by
  funext j
  rw [eq_ix2 j]
  exact out_last m c (j 0) (j 1)

/-- The one write-back, at the last point, writes the whole array: block (0, 0) of the 8 x 128 array read through zero
    offsets is the array. -/
theorem flushed_eq (t : Fin cfg0.N) (hf : (cfg0.win 13).flush t = true) :
    (dats m 0 c).flushed 13 t = ((cfg0.win 13).blk t).view.read (Elt Ideal) (result m c) := by
  have hN : cfg0.N = 32 := N_0
  have h31 : t.val = 31 := by have := (flush0_13 t).mp hf; have := t.isLt; omega
  obtain rfl : t = tLast := Fin.ext h31
  show (cfg0.win 13).cut (grid0.coords tLast) ((dats m 0 c).after 13 tLast) = _
  rw [after0_13, out_last_eq]
  have hz' : (fun a => win0_13.index tLast a * main_v36.ty.shape.size a) = fun _ => 0 := funext fun a => by fin_cases a <;> decide
  exact (Memref.read_access_unit_zero (Elt Ideal) main_v36 hz' (fun a => by rw [congrFun hz' a]; simp) (result m c)).symm

/-- The output array after the launch. -/
theorem final13 :
    (dats m 0 c).arrAt 13 cfg0.N = fun j : S8x128.Idx => Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 (j 0) (j 1) :=
  (dats m 0 c).arrAt_eq_of_cover 13 (result m c) (flushed_eq m c) fun i =>
    ⟨tLast, (flush0_13 tLast).mpr (by decide), by
      show i ∈ ((View.whole main_v36).slice (win0_13.rect tLast)).set
      rw [View.set_slice_whole, Rect.mem_set_unit]
      intro a
      have h0 : (i 0 : Nat) < 8 := (i 0).isLt
      have h1 : (i 1 : Nat) < 128 := (i 1).isLt
      match a with
      | ⟨0, _⟩ =>
        show win0_13.index tLast 0 * win0_13.size 0 ≤ (i 0 : Nat) ∧ (i 0 : Nat) < win0_13.index tLast 0 * win0_13.size 0 + win0_13.xsize (grid0.coords tLast) 0
        rw [show win0_13.index tLast 0 * win0_13.size 0 = 0 from by decide +kernel, show win0_13.xsize (grid0.coords tLast) 0 = 8 from by decide +kernel]; omega
      | ⟨1, _⟩ =>
        show win0_13.index tLast 1 * win0_13.size 1 ≤ (i 1 : Nat) ∧ (i 1 : Nat) < win0_13.index tLast 1 * win0_13.size 1 + win0_13.xsize (grid0.coords tLast) 1
        rw [show win0_13.index tLast 1 * win0_13.size 1 = 0 from by decide +kernel, show win0_13.xsize (grid0.coords tLast) 1 = 128 from by decide +kernel]; omega⟩

end Cert.KernelIdeal.KVal

end
-- ==== Proof.KTail.lean ====
/-
  The four results the host lines after the launch compute from the output array: cells (0,0) to (0,3) are the four sums over the batches, and the losses are their quotients and the weighted total.
-/
import proofs.«102376_j34763465294043_1_alg».proof.Proof.KFinal
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KVal

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ)

variable (c : Dev nD)

/-- The scalar a [0:1, k:k+1] slice of an 8 x 128 array followed by a reshape to rank 0 holds is the array's cell (0, k). -/
theorem cell_apply {α : Type} (X : S8x128.Idx → α) (k : Fin 128) (h : S8x128.Slices ![0, k.val] S1x1)
    (hc : S1x1.ShapeCasts S_) (i : S_.Idx) :
    shapeCast S_ (extractStridedSlice S1x1 ![0, k.val] X h) hc i = X (ix2 0 k) := by
  refine (shapeCast_apply _ hc i (ix2 0 0) ?_).trans ?_
  · have h1 := (S1x1.rowMajor (ix2 0 0)).isLt
    have h2 := (S_.rowMajor i).isLt
    have e1 : S1x1.numel = 1 := by decide
    have e2 : S_.numel = 1 := by decide
    omega
  · exact extractStridedSlice_apply _ X h (ix2 0 0) (ix2 0 k) fun a =>
      match a with
      | ⟨0, _⟩ => by show (0 : ℕ) = 0 + 0; rfl
      | ⟨1, _⟩ => by show k.val = k.val + 0; rfl

/-- The output array as the lines after the launch find it. -/
theorem out_found (X : S8x128.Idx → EReal) (hX : (dats m 0 c).arrAt 13 cfg0.N = X) :
    Pipeline.withArrays (cfgs 0).spec c (V0 m c) (fun w => (dats m 0 c).arrAt w (cfgs 0).N) (Proc.devRef .tc main_v36) = X :=
  (Pipeline.withArrays_arr spec0 launch0.win.arr_inj c _ _ 13).trans hX

/-- The first quotient: cell (0,0) over cell (0,1). -/
theorem tail45 (X : S8x128.Idx → EReal) (hX : (dats m 0 c).arrAt 13 cfg0.N = X) :
    Pipeline.afterTail₀ cfgs (dats m) 0 (V0 m) [hostOps1] c main_v45 = fun _ => Ideal.div (X (ix2 0 0)) (X (ix2 0 1)) := by
  unfold Pipeline.afterTail₀
  show StableHlo.after hostOps1 _ (Proc.devRef .tc main_v45) = _
  after_results
  rw [out_found m c X hX]
  funext i
  exact congrArg₂ Ideal.div (cell_apply X 0 slices_S8x128_S1x1_0_0 shapeCasts_S1x1_S_ i)
    (cell_apply X 1 slices_S8x128_S1x1_0_1 shapeCasts_S1x1_S_ i)

/-- The second: cell (0,2) over the word 32. -/
theorem tail46 (X : S8x128.Idx → EReal) (hX : (dats m 0 c).arrAt 13 cfg0.N = X) :
    Pipeline.afterTail₀ cfgs (dats m) 0 (V0 m) [hostOps1] c main_v46
      = fun _ => Ideal.div (X (ix2 0 2)) (Ideal.ofBits .f32 0x42000000#32) := by
  unfold Pipeline.afterTail₀
  show StableHlo.after hostOps1 _ (Proc.devRef .tc main_v46) = _
  after_results
  rw [out_found m c X hX]
  funext i
  exact congrArg (fun x => Ideal.div x (Ideal.ofBits .f32 0x42000000#32))
    (cell_apply X 2 slices_S8x128_S1x1_0_2 shapeCasts_S1x1_S_ i)

/-- The third: cell (0,3) over the word 131072. -/
theorem tail47 (X : S8x128.Idx → EReal) (hX : (dats m 0 c).arrAt 13 cfg0.N = X) :
    Pipeline.afterTail₀ cfgs (dats m) 0 (V0 m) [hostOps1] c main_v47
      = fun _ => Ideal.div (X (ix2 0 3)) (Ideal.ofBits .f32 0x48000000#32) := by
  unfold Pipeline.afterTail₀
  show StableHlo.after hostOps1 _ (Proc.devRef .tc main_v47) = _
  after_results
  rw [out_found m c X hX]
  funext i
  exact congrArg (fun x => Ideal.div x (Ideal.ofBits .f32 0x48000000#32))
    (cell_apply X 3 slices_S8x128_S1x1_0_3 shapeCasts_S1x1_S_ i)

/-- The weighted total of the three. -/
theorem tail51 (X : S8x128.Idx → EReal) (hX : (dats m 0 c).arrAt 13 cfg0.N = X) :
    Pipeline.afterTail₀ cfgs (dats m) 0 (V0 m) [hostOps1] c main_v51
      = fun _ => (Ideal.ofBits .f32 0x3F4CCCCD#32 * Ideal.div (X (ix2 0 2)) (Ideal.ofBits .f32 0x42000000#32)
          + Ideal.div (X (ix2 0 0)) (X (ix2 0 1)))
        + Ideal.ofBits .f32 0x3F000000#32 * Ideal.div (X (ix2 0 3)) (Ideal.ofBits .f32 0x48000000#32) := by
  unfold Pipeline.afterTail₀
  show StableHlo.after hostOps1 _ (Proc.devRef .tc main_v51) = _
  after_results_simp
  rw [out_found m c X hX]
  funext i
  have e0 := cell_apply X 0 slices_S8x128_S1x1_0_0 shapeCasts_S1x1_S_ i
  have e1 := cell_apply X 1 slices_S8x128_S1x1_0_1 shapeCasts_S1x1_S_ i
  have e2 := cell_apply X 2 slices_S8x128_S1x1_0_2 shapeCasts_S1x1_S_ i
  have e3 := cell_apply X 3 slices_S8x128_S1x1_0_3 shapeCasts_S1x1_S_ i
  exact congrArg₂ (· + ·)
    (congrArg₂ (· + ·)
      (congrArg (fun x => Ideal.ofBits .f32 0x3F4CCCCD#32 * Ideal.div x (Ideal.ofBits .f32 0x42000000#32)) e2)
      (congrArg₂ Ideal.div e0 e1))
    (congrArg (fun x => Ideal.ofBits .f32 0x3F000000#32 * Ideal.div x (Ideal.ofBits .f32 0x48000000#32)) e3)

theorem kres45 :
    Pipeline.afterTail₀ cfgs (dats m) 0 (V0 m) [hostOps1] c main_v45 = fun _ => Cert.Spec.lossPath (m ((c : Thread nD τ).loc main_arg0)) (m ((c : Thread nD τ).loc main_arg1)) (m ((c : Thread nD τ).loc main_arg2)) (m ((c : Thread nD τ).loc main_arg3)) := by
  refine (tail45 m c _ (final13 m c)).trans ?_
  funext _
  show Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 0) (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 1) = _
  rw [Cert.Spec.accUpTo_last_0, Cert.Spec.accUpTo_last_1]
  rfl

theorem kres46 :
    Pipeline.afterTail₀ cfgs (dats m) 0 (V0 m) [hostOps1] c main_v46 = fun _ => Cert.Spec.lossSmooth (m ((c : Thread nD τ).loc main_arg0)) (m ((c : Thread nD τ).loc main_arg1)) := by
  refine (tail46 m c _ (final13 m c)).trans ?_
  funext _
  show Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 2) (Ideal.ofBits .f32 0x42000000#32) = _
  rw [Cert.Spec.accUpTo_last_2]
  rfl

theorem kres47 :
    Pipeline.afterTail₀ cfgs (dats m) 0 (V0 m) [hostOps1] c main_v47 = fun _ => Cert.Spec.lossCae (m ((c : Thread nD τ).loc main_arg4)) (m ((c : Thread nD τ).loc main_arg5)) := by
  refine (tail47 m c _ (final13 m c)).trans ?_
  funext _
  show Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 3) (Ideal.ofBits .f32 0x48000000#32) = _
  rw [Cert.Spec.accUpTo_last_3]
  rfl

theorem kres51 :
    Pipeline.afterTail₀ cfgs (dats m) 0 (V0 m) [hostOps1] c main_v51 = fun _ => Cert.Spec.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (tail51 m c _ (final13 m c)).trans ?_
  funext _
  show (Ideal.ofBits .f32 0x3F4CCCCD#32 * Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 2) (Ideal.ofBits .f32 0x42000000#32)
          + Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 0) (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 1))
        + Ideal.ofBits .f32 0x3F000000#32 * Ideal.div (Cert.Spec.accUpTo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 31 0 3) (Ideal.ofBits .f32 0x48000000#32) = _
  rw [Cert.Spec.accUpTo_last_0, Cert.Spec.accUpTo_last_1, Cert.Spec.accUpTo_last_2, Cert.Spec.accUpTo_last_3]
  rfl

end Cert.KernelIdeal.KVal

end
-- ==== Proof.RLine.lean ====
/-
  The reference's line label of point n of batch b (the maximum over the segments of exp(-dist/2), read off its operations one at a time) is the specification's, the host quantities both programs share left unopened.
-/
import proofs.«102376_j34763465294043_1_alg».proof.Proof.Gen.ReferenceIdeal.Read
import proofs.«102376_j34763465294043_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem

namespace Line

variable (x0 : (⟨S32x512x3, .f32⟩ : BufTy).Contents (Elt Ideal)) (x1 : (⟨S32x512, .i1⟩ : BufTy).Contents (Elt Ideal))
  (x2 : (⟨S32x512x3, .f32⟩ : BufTy).Contents (Elt Ideal)) (x3 : (⟨S32x512, .i1⟩ : BufTy).Contents (Elt Ideal))

/-! ## The host quantities both programs share, by name -/

theorem segStart_eq : val_main_v11 (F := Ideal) x2 = Cert.Spec.segStart x2 := rfl
theorem segVec_eq : val_main_v13 (F := Ideal) x2 = Cert.Spec.segVec x2 := rfl
theorem segLen_eq : val_main_v17 (F := Ideal) x2 = Cert.Spec.segLen x2 := rfl
theorem segDot_eq : val_main_v27 (F := Ideal) x2 = Cert.Spec.segDot x2 := rfl
theorem segOk_eq : val_main_v20 (F := Ideal) x3 = Cert.Spec.segOk x3 := rfl
theorem sigma_eq : val_main_v6 (F := Ideal) x0 = Cert.Spec.sigma x0 := rfl

/-! ## The masked point -/

theorem pc_at (b : Fin 32) (n : Fin 512) (d : Fin 3) :
    val_main_v24 (F := Ideal) x0 x1 (ix3 b n d)
      = Cert.Spec.pc (fun n d => x0 (ix3 b n d)) (fun n => Cert.Spec.bit (x1 (ix2 b n))) n d := by
  rw [val_main_v24_apply, val_main_v23_apply, val_main_v22_apply, val_main_v21_apply]
  have e : idx_main_v21 (idx_main_v23 (ix3 b n d)) = ix2 b n :=
    funext fun a => Fin.ext (by match a with | ⟨0, _⟩ => rfl | ⟨1, _⟩ => rfl)
  rw [e]
  rfl

/-! ## The clamped foot parameter -/

theorem foot_at (b : Fin 32) (n : Fin 512) (s : Fin 511) :
    val_main_v34 (F := Ideal) x0 x1 x2 (ix3 b n s)
      = Cert.Spec.foot (fun n d => x0 (ix3 b n d)) (fun n => Cert.Spec.bit (x1 (ix2 b n)))
          (fun m d => Cert.Spec.segVec x2 (ix3 b m d)) (fun m => Cert.Spec.segLen x2 (ix2 b m))
          (fun m => Cert.Spec.segDot x2 (ix2 b m)) n s := by
  rw [val_main_v34_apply, val_main_call0_v4_apply, val_main_call0_v3_apply, val_main_cst_9_apply,
    val_main_call0_v2_apply, val_main_call0_v1_apply, val_main_call0_v0_apply, val_main_cst_8_apply,
    val_main_v33_apply, val_main_v30_apply, val_main_v25_apply, val_main_v29_apply, val_main_v28_apply,
    val_main_v32_apply, val_main_v31_apply, segVec_eq, segDot_eq, segLen_eq]
  have el : ∀ k : Fin 3, lidx_main_v25 (ix3 b n s) k = ix3 b n k := fun k =>
    funext fun a => Fin.ext (by match a with | ⟨0, _⟩ => rfl | ⟨1, _⟩ => rfl | ⟨2, _⟩ => rfl)
  have er : ∀ k : Fin 3, ridx_main_v25 (ix3 b n s) k = ix3 b s k := fun k =>
    funext fun a => Fin.ext (by match a with | ⟨0, _⟩ => rfl | ⟨1, _⟩ => rfl | ⟨2, _⟩ => rfl)
  have e1 : idx_main_v28 (idx_main_v29 (ix3 b n s)) = ix2 b s :=
    funext fun a => Fin.ext (by match a with | ⟨0, _⟩ => rfl | ⟨1, _⟩ => rfl)
  have e2 : idx_main_v31 (idx_main_v32 (ix3 b n s)) = ix2 b s :=
    funext fun a => Fin.ext (by match a with | ⟨0, _⟩ => rfl | ⟨1, _⟩ => rfl)
  simp only [el, er, e1, e2, pc_at]
  rfl

/-! ## One dimension's scaled offset from the foot -/

theorem offLine_at (b : Fin 32) (n : Fin 512) (s : Fin 511) (d : Fin 3) :
    val_main_v48 (F := Ideal) x0 x1 x2 (ix4 b n s d)
      = Cert.Spec.offLine (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun d => Cert.Spec.sigma x0 (ix2 b d)) n s d := by
  rw [val_main_v48_apply, val_main_v45_apply, val_main_v44_apply, val_main_v43_apply,
    val_main_v42_apply, val_main_v41_apply, val_main_v35_apply, val_main_v40_apply,
    val_main_v38_apply, val_main_v36_apply, val_main_v39_apply, val_main_v37_apply,
    val_main_v47_apply, val_main_v46_apply, segStart_eq, segVec_eq, sigma_eq]
  have e1 : idx_main_v43 (idx_main_v44 (ix4 b n s d)) = ix3 b n d :=
    funext fun a => Fin.ext (by match a with | ⟨0, _⟩ => rfl | ⟨1, _⟩ => rfl | ⟨2, _⟩ => rfl)
  have e2 : idx_main_v35 (idx_main_v41 (ix4 b n s d)) = ix3 b s d :=
    funext fun a => Fin.ext (by match a with | ⟨0, _⟩ => rfl | ⟨1, _⟩ => rfl | ⟨2, _⟩ => rfl)
  have e3 : idx_main_v36 (idx_main_v38 (ix4 b n s d)) = ix3 b n s :=
    funext fun a => Fin.ext (by match a with | ⟨0, _⟩ => rfl | ⟨1, _⟩ => rfl | ⟨2, _⟩ => rfl)
  have e4 : idx_main_v37 (idx_main_v39 (ix4 b n s d)) = ix3 b s d :=
    funext fun a => Fin.ext (by match a with | ⟨0, _⟩ => rfl | ⟨1, _⟩ => rfl | ⟨2, _⟩ => rfl)
  have e5 : idx_main_v46 (idx_main_v47 (ix4 b n s d)) = ix2 b d :=
    funext fun a => Fin.ext (by match a with | ⟨0, _⟩ => rfl | ⟨1, _⟩ => rfl)
  rw [e1, e2, e3, e4, e5, pc_at, foot_at]
  rfl

/-! ## The squared scaled distance to a segment, with the penalty -/

theorem distLine_at (b : Fin 32) (n : Fin 512) (s : Fin 511) :
    val_main_v57 (F := Ideal) x0 x1 x2 x3 (ix3 b n s)
      = Cert.Spec.distLine (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun m => Cert.Spec.bit (~~~ Cert.Spec.segOk x3 (ix2 b m))) (fun d => Cert.Spec.sigma x0 (ix2 b d)) n s := by
  rw [val_main_v57_apply, val_main_v50_apply, val_main_cst_10_apply, val_main_v56_apply, val_main_v55_apply,
    val_main_v53_apply, val_main_v52_apply, val_main_v51_apply, val_main_v54_apply, val_main_cst_11_apply,
    segOk_eq]
  have ek : ∀ k : Fin 3, idx_main_v50 (ix3 b n s) k = ix4 b n s k := fun k =>
    funext fun a => Fin.ext (by match a with | ⟨0, _⟩ => rfl | ⟨1, _⟩ => rfl | ⟨2, _⟩ => rfl | ⟨3, _⟩ => rfl)
  have e1 : idx_main_v53 (idx_main_v56 (ix3 b n s)) = ix2 b s :=
    funext fun a => Fin.ext (by match a with | ⟨0, _⟩ => rfl | ⟨1, _⟩ => rfl)
  simp only [ek, e1, val_main_v49_apply, offLine_at, Ideal.ofBits_def, Ideal.ofBits_zero_f32, zero_add]
  rfl

/-! ## exp(-dist/2) -/

theorem expLine_at (b : Fin 32) (n : Fin 512) (s : Fin 511) :
    val_main_v60 (F := Ideal) x0 x1 x2 x3 (ix3 b n s)
      = Ideal.exp (Cert.Spec.nhalf * Cert.Spec.distLine (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun m => Cert.Spec.bit (~~~ Cert.Spec.segOk x3 (ix2 b m))) (fun d => Cert.Spec.sigma x0 (ix2 b d)) n s) := by
  rw [val_main_v60_apply, val_main_v59_apply, val_main_v58_apply, val_main_cst_12_apply]
  exact congrArg (fun t => Ideal.exp (Cert.Spec.nhalf * t)) (distLine_at x0 x1 x2 x3 b n s)

/-! ## The maximum over the segments -/

/-- The index over (b, n) with segment coordinate k inserted on axis 2. -/
theorem lift_seg (h : S32x512x511.Reduces [2] S32x512) (b : Fin 32) (n : Fin 512) (k : Fin (S32x512x511.size 2)) :
    h.lift (ix2 b n) k = ix3 b n (⟨k.val, k.isLt⟩ : Fin 511) := by
  funext c; apply Fin.ext
  fin_cases c <;> rfl

end Line

theorem labelLine_eq (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) (b : Fin 32) (n : Fin 512) :
    val_main_v61 (F := Ideal) x0 x1 x2 x3 (ix2 b n)
      = Cert.Spec.labelLine (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun m => Cert.Spec.bit (~~~ Cert.Spec.segOk x3 (ix2 b m)))
          (fun d => Cert.Spec.sigma x0 (ix2 b d)) n := by
  have h : S32x512x511.Reduces [2] S32x512 := by decide
  unfold val_main_v61
  rw [Host.reduce_eq_fold_single FloatOps.maximumf _ _ reducesTo_S32x512x511_S32x512_d2 h h_S_]
  have hf : (val_main_v60 (F := Ideal) x0 x1 x2 x3 ∘ h.lift (ix2 b n))
      = fun k : Fin 511 => Ideal.exp (Cert.Spec.nhalf * Cert.Spec.distLine (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun m => Cert.Spec.bit (~~~ Cert.Spec.segOk x3 (ix2 b m))) (fun d => Cert.Spec.sigma x0 (ix2 b d)) n k) :=
    funext fun k => (congrArg (val_main_v60 (F := Ideal) x0 x1 x2 x3) (Line.lift_seg h b n k)).trans
      (Line.expLine_at x0 x1 x2 x3 b n ⟨k.val, k.isLt⟩)
  unfold Cert.Spec.labelLine
  exact congrArg (fun f => Finset.fold max Cert.Spec.ninf f (Finset.univ : Finset (Fin 511))) hf

end Cert.ReferenceIdeal.RefValue

end
-- ==== Proof.RPoint.lean ====
/-
  The reference's point label of point n of batch b (exp(-1/2 · the least scaled squared distance over the targets)) is the specification's.
-/
import proofs.«102376_j34763465294043_1_alg».proof.Proof.Gen.ReferenceIdeal.Read
import proofs.«102376_j34763465294043_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem

/-- The per-dimension scale the offsets are divided by is the specification's. -/
theorem scale_eq (x0 : (⟨S32x512x3, .f32⟩ : BufTy).Contents (Elt Ideal)) :
    val_main_v10 (F := Ideal) x0 = Cert.Spec.sigma x0 := rfl

/-- The masked path point (b, n, d). -/
theorem masked_at (x0 : (⟨S32x512x3, .f32⟩ : BufTy).Contents (Elt Ideal)) (x1 : (⟨S32x512, .i1⟩ : BufTy).Contents (Elt Ideal))
    (b : Fin 32) (n : Fin 512) (d : Fin 3) :
    val_main_v24 (F := Ideal) x0 x1 (ix3 b n d)
      = Cert.Spec.pc (fun n d => x0 (ix3 b n d)) (fun n => Cert.Spec.bit (x1 (ix2 b n))) n d := by
  have e : idx_main_v21 (idx_main_v23 (ix3 b n d)) = ix2 b n :=
    funext fun a => Fin.ext (by match a with | ⟨0, _⟩ => rfl | ⟨1, _⟩ => rfl)
  rw [val_main_v24_apply, val_main_v23_apply, val_main_v22_apply, val_main_v21_apply, e]
  rfl

/-- One dimension's scaled offset of point n from target g. -/
theorem off_at (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (b : Fin 32) (n g : Fin 512) (d : Fin 3) :
    val_main_v69 (F := Ideal) x0 x1 x2 (ix4 b n g d)
      = Cert.Spec.offPoint (fun n d => x0 (ix3 b n d)) (fun n => Cert.Spec.bit (x1 (ix2 b n)))
          (fun g d => x2 (ix3 b g d)) (fun d => Cert.Spec.sigma x0 (ix2 b d)) n g d := by
  have e64 : idx_main_v62 (idx_main_v64 (ix4 b n g d)) = ix3 b n d :=
    funext fun a => Fin.ext (by match a with | ⟨0, _⟩ => rfl | ⟨1, _⟩ => rfl | ⟨2, _⟩ => rfl)
  have e65 : idx_main_v63 (idx_main_v65 (ix4 b n g d)) = ix3 b g d :=
    funext fun a => Fin.ext (by match a with | ⟨0, _⟩ => rfl | ⟨1, _⟩ => rfl | ⟨2, _⟩ => rfl)
  have e68 : idx_main_v67 (idx_main_v68 (ix4 b n g d)) = ix2 b d :=
    funext fun a => Fin.ext (by match a with | ⟨0, _⟩ => rfl | ⟨1, _⟩ => rfl)
  rw [val_main_v69_apply, val_main_v66_apply, val_main_v64_apply, val_main_v62_apply, val_main_v65_apply,
    val_main_v63_apply, val_main_v68_apply, val_main_v67_apply, e64, e65, e68, masked_at, scale_eq]
  rfl

/-- The penalty on an invalid target: its 0/1 flag times 10^6, the same for every point n. -/
theorem penalty_at (x3 : (⟨S32x512, .i1⟩ : BufTy).Contents (Elt Ideal)) (b : Fin 32) (n g : Fin 512) :
    val_main_v77 (F := Ideal) x3 (ix3 b n g) = Cert.Spec.bit (~~~ x3 (ix2 b g)) * Cert.Spec.big := by
  have e : idx_main_v74 (idx_main_v77 (ix3 b n g)) = ix2 b g :=
    funext fun a => Fin.ext (by match a with | ⟨0, _⟩ => rfl | ⟨1, _⟩ => rfl)
  rw [val_main_v77_apply, val_main_v76_apply, val_main_v74_apply, val_main_v73_apply, val_main_v72_apply,
    val_main_v75_apply, val_main_cst_15_apply, e]
  rfl

/-- The squared scaled distance of point n to target g, with the penalty. -/
theorem dist_at (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal))
    (b : Fin 32) (n g : Fin 512) :
    val_main_v78 (F := Ideal) x0 x1 x2 x3 (ix3 b n g)
      = Cert.Spec.distPoint (fun n d => x0 (ix3 b n d)) (fun n => Cert.Spec.bit (x1 (ix2 b n)))
          (fun g d => x2 (ix3 b g d)) (fun g => Cert.Spec.bit (~~~ x3 (ix2 b g)))
          (fun d => Cert.Spec.sigma x0 (ix2 b d)) n g := by
  have e : ∀ k : Fin 3, idx_main_v71 (ix3 b n g) k = ix4 b n g k := fun k =>
    funext fun a => Fin.ext (by match a with | ⟨0, _⟩ => rfl | ⟨1, _⟩ => rfl | ⟨2, _⟩ => rfl | ⟨3, _⟩ => rfl)
  have hs : ∀ k : Fin 3, val_main_v70 (F := Ideal) x0 x1 x2 (idx_main_v71 (ix3 b n g) k)
      = Cert.Spec.offPoint (fun n d => x0 (ix3 b n d)) (fun n => Cert.Spec.bit (x1 (ix2 b n)))
            (fun g d => x2 (ix3 b g d)) (fun d => Cert.Spec.sigma x0 (ix2 b d)) n g k
          * Cert.Spec.offPoint (fun n d => x0 (ix3 b n d)) (fun n => Cert.Spec.bit (x1 (ix2 b n)))
            (fun g d => x2 (ix3 b g d)) (fun d => Cert.Spec.sigma x0 (ix2 b d)) n g k := fun k => by
    rw [e k, val_main_v70_apply, off_at]; rfl
  rw [val_main_v78_apply, val_main_v71_apply, penalty_at, val_main_cst_14_apply,
    Finset.sum_congr rfl (fun k _ => hs k)]
  show (Ideal.ofBits .f32 0x00000000#32 + _) + _ = _
  rw [Ideal.ofBits_zero_f32, zero_add]
  rfl

/-- Point (b, n) with target g put back on the reduced axis is (b, n, g). -/
theorem lift_at (h : S32x512x512.Reduces [2] S32x512) (b : Fin 32) (n : Fin 512) (k : Fin (S32x512x512.size 2)) :
    h.lift (ix2 b n) k = ix3 b n (⟨k.val, k.isLt⟩ : Fin 512) := by
  funext c; apply Fin.ext
  fin_cases c <;> rfl

/-- The least distance over the targets. -/
theorem least_at (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal))
    (b : Fin 32) (n : Fin 512) :
    val_main_v79 (F := Ideal) x0 x1 x2 x3 (ix2 b n)
      = (Finset.univ : Finset (Fin 512)).fold min Cert.Spec.pinf fun g =>
          Cert.Spec.distPoint (fun n d => x0 (ix3 b n d)) (fun n => Cert.Spec.bit (x1 (ix2 b n)))
            (fun g d => x2 (ix3 b g d)) (fun g => Cert.Spec.bit (~~~ x3 (ix2 b g)))
            (fun d => Cert.Spec.sigma x0 (ix2 b d)) n g := by
  have h : S32x512x512.Reduces [2] S32x512 := by decide
  unfold val_main_v79
  rw [Host.reduce_eq_fold_single (FloatOps.minimumf (F := Ideal) (φ := .f32)) (val_main_v78 (F := Ideal) x0 x1 x2 x3)
    (val_main_cst_16 (F := Ideal)) reducesTo_S32x512x512_S32x512_d2 h h_S_]
  have hf : (val_main_v78 (F := Ideal) x0 x1 x2 x3 ∘ h.lift (ix2 b n))
      = fun g : Fin 512 => Cert.Spec.distPoint (fun n d => x0 (ix3 b n d)) (fun n => Cert.Spec.bit (x1 (ix2 b n)))
            (fun g d => x2 (ix3 b g d)) (fun g => Cert.Spec.bit (~~~ x3 (ix2 b g)))
            (fun d => Cert.Spec.sigma x0 (ix2 b d)) n g :=
    funext fun k => (congrArg (val_main_v78 (F := Ideal) x0 x1 x2 x3) (lift_at h b n k)).trans (dist_at x0 x1 x2 x3 b n _)
  exact congrArg (fun f => Finset.fold min Cert.Spec.pinf f (Finset.univ : Finset (Fin 512))) hf

theorem labelPoint_eq (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) (b : Fin 32) (n : Fin 512) :
    val_main_v82 (F := Ideal) x0 x1 x2 x3 (ix2 b n)
      = Cert.Spec.labelPoint (fun n d => x0 (ix3 b n d)) (fun n => Cert.Spec.bit (x1 (ix2 b n)))
          (fun g d => x2 (ix3 b g d)) (fun g => Cert.Spec.bit (~~~ x3 (ix2 b g)))
          (fun d => Cert.Spec.sigma x0 (ix2 b d)) n := by
  rw [val_main_v82_apply, val_main_v81_apply, val_main_v80_apply, val_main_cst_17_apply, least_at,
    Ideal.hostUnary_exp_def, Ideal.mulf_def, Ideal.ofBits_def]
  rfl

end Cert.ReferenceIdeal.RefValue

end
-- ==== Proof.RRest.lean ====
/-
  The reference's four results are the specification's: the path loss from the two labels (sums over all points of all batches regrouped by batch), the smoothness loss, the reconstruction loss, and their weighted total.
-/
import proofs.«102376_j34763465294043_1_alg».proof.Proof.RLine
import proofs.«102376_j34763465294043_1_alg».proof.Proof.RPoint
import proofs.«102376_j34763465294043_1_alg».proof.Proof.SpecLaws
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem

/-! ## Sums over an index set, regrouped by coordinates -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The zero word each sum starts from -/

theorem cst23_zero (i : S_.Idx) : val_main_cst_23 (F := Ideal) i = 0 := Ideal.ofBits_zero_f32
theorem cst24_zero (i : S_.Idx) : val_main_cst_24 (F := Ideal) i = 0 := Ideal.ofBits_zero_f32
theorem cst25_zero (i : S_.Idx) : val_main_cst_25 (F := Ideal) i = 0 := Ideal.ofBits_zero_f32
theorem cst26_zero (i : S_.Idx) : val_main_cst_26 (F := Ideal) i = 0 := Ideal.ofBits_zero_f32
theorem cst27_zero (i : S_.Idx) : val_main_cst_27 (F := Ideal) i = 0 := Ideal.ofBits_zero_f32
theorem cst29_zero (i : S_.Idx) : val_main_cst_29 (F := Ideal) i = 0 := Ideal.ofBits_zero_f32
theorem cst31_zero (i : S_.Idx) : val_main_cst_31 (F := Ideal) i = 0 := Ideal.ofBits_zero_f32

/-! ## The path loss -/

/-- The clipped mixture of the two labels at point n of batch b is the specification's label. -/
theorem label_at (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) (b : Fin 32) (n : Fin 512) :
    val_main_v88 (F := Ideal) x0 x1 x2 x3 (ix2 b n)
      = Cert.Spec.label (fun n d => x0 (ix3 b n d)) (fun n => Cert.Spec.bit (x1 (ix2 b n)))
          (fun m d => Cert.Spec.segStart x2 (ix3 b m d)) (fun m d => Cert.Spec.segVec x2 (ix3 b m d))
          (fun m => Cert.Spec.segLen x2 (ix2 b m)) (fun m => Cert.Spec.segDot x2 (ix2 b m))
          (fun m => Cert.Spec.bit (~~~ Cert.Spec.segOk x3 (ix2 b m)))
          (fun g d => x2 (ix3 b g d)) (fun g => Cert.Spec.bit (~~~ x3 (ix2 b g)))
          (fun d => Cert.Spec.sigma x0 (ix2 b d)) (fun d => Cert.Spec.sigma x0 (ix2 b d)) n := by
  rw [val_main_v88_apply, val_main_call1_v4_apply, val_main_call1_v3_apply, val_main_cst_21_apply,
    val_main_call1_v2_apply, val_main_call1_v1_apply, val_main_call1_v0_apply, val_main_cst_20_apply,
    val_main_v87_apply, val_main_v84_apply, val_main_v83_apply, val_main_cst_18_apply,
    val_main_v86_apply, val_main_v85_apply, val_main_cst_19_apply, labelLine_eq, labelPoint_eq]
  rfl

/-- Batch b's masked sum of (1 - label), as the reference's products summed over the batch's points. -/
theorem num_at (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) (b : Fin 32) :
    ∑ n : Fin 512, val_main_v92 (F := Ideal) x0 x1 x2 x3 (ix2 b n) = Cert.Spec.numAt x0 x1 x2 x3 b := by
  unfold Cert.Spec.numAt Cert.Spec.numB
  refine Finset.sum_congr rfl fun n _ => ?_
  rw [val_main_v92_apply, val_main_v91_apply, val_main_v90_apply, val_main_cst_22_apply, val_main_v89_apply, label_at]
  rfl

/-- Batch b's masked count, as the reference's converted mask summed over the batch's points. -/
theorem den_at (x1 : (⟨S32x512, .i1⟩ : BufTy).Contents (Elt Ideal)) (b : Fin 32) :
    ∑ n : Fin 512, val_main_v89 (F := Ideal) x1 (ix2 b n) = Cert.Spec.denAt x1 b := rfl

theorem res95 (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) :
    val_main_v95 (F := Ideal) x0 x1 x2 x3 = fun _ => Cert.Spec.lossPath x0 x1 x2 x3 := by
  funext i
  have hnum : val_main_v93 (F := Ideal) x0 x1 x2 x3 i = ∑ b : Fin 32, Cert.Spec.numAt x0 x1 x2 x3 b := by
    rw [val_main_v93_apply, cst23_zero, zero_add, sum_idx2]
    exact Finset.sum_congr rfl fun b _ => num_at x0 x1 x2 x3 b
  have hden : val_main_v94 (F := Ideal) x1 i = ∑ b : Fin 32, Cert.Spec.denAt x1 b := by
    rw [val_main_v94_apply, cst24_zero, zero_add, sum_idx2]
    exact Finset.sum_congr rfl fun b _ => den_at x1 b
  rw [val_main_v95_apply, hnum, hden]
  rfl

/-! ## The smoothness loss -/

/-- A slice from offset 1 along the points reads the next point … -/
theorem idx96_at (b : Fin 32) (k : Fin 511) (d : Fin 3) : idx_main_v96 (ix3 b k d) = ix3 b k.succ d := by
  funext a; apply Fin.ext
  match a with
  | ⟨0, _⟩ => rfl
  | ⟨1, _⟩ => show 1 + k.val = k.val + 1; omega
  | ⟨2, _⟩ => rfl

/-- … and one from offset 0 reads the same point. -/
theorem idx97_at (b : Fin 32) (k : Fin 511) (d : Fin 3) : idx_main_v97 (ix3 b k d) = ix3 b k.castSucc d := by
  funext a; apply Fin.ext
  match a with
  | ⟨0, _⟩ => rfl
  | ⟨1, _⟩ => rfl
  | ⟨2, _⟩ => rfl

theorem idx99_at (b : Fin 32) (k : Fin 511) : idx_main_v99 (ix2 b k) = ix2 b k.succ := by
  funext a; apply Fin.ext
  match a with
  | ⟨0, _⟩ => rfl
  | ⟨1, _⟩ => show 1 + k.val = k.val + 1; omega

theorem idx100_at (b : Fin 32) (k : Fin 511) : idx_main_v100 (ix2 b k) = ix2 b k.castSucc := by
  funext a; apply Fin.ext
  match a with
  | ⟨0, _⟩ => rfl
  | ⟨1, _⟩ => rfl

theorem idx104_at (b : Fin 32) (k : Fin 511) (d : Fin 3) : idx_main_v104 (ix2 b k) d = ix3 b k d := by
  funext a; apply Fin.ext
  match a with
  | ⟨0, _⟩ => rfl
  | ⟨1, _⟩ => rfl
  | ⟨2, _⟩ => rfl

theorem idx106_at (b : Fin 32) (k : Fin 511) : idx_main_v106 (ix1 b) k = ix2 b k := by
  funext a; apply Fin.ext
  match a with
  | ⟨0, _⟩ => rfl
  | ⟨1, _⟩ => rfl

theorem idx107_at (b : Fin 32) (k : Fin 511) : idx_main_v107 (ix1 b) k = ix2 b k := by
  funext a; apply Fin.ext
  match a with
  | ⟨0, _⟩ => rfl
  | ⟨1, _⟩ => rfl

/-- The pair mask: 1 where points k and k+1 of batch b are both valid. -/
theorem pairMask_at (x1 : (⟨S32x512, .i1⟩ : BufTy).Contents (Elt Ideal)) (b : Fin 32) (k : Fin 511) :
    val_main_v102 (F := Ideal) x1 (ix2 b k) = Cert.Spec.bit (x1 (ix2 b k.succ) &&& x1 (ix2 b k.castSucc)) := by
  rw [val_main_v102_apply, val_main_v101_apply, val_main_v99_apply, val_main_v100_apply, idx99_at, idx100_at]
  rfl

/-- The squared length of the step from point k to point k+1 of batch b. -/
theorem stepSq_at (x0 : (⟨S32x512x3, .f32⟩ : BufTy).Contents (Elt Ideal)) (b : Fin 32) (k : Fin 511) :
    val_main_v104 (F := Ideal) x0 (ix2 b k)
      = ∑ d : Fin 3, (x0 (ix3 b k.succ d) - x0 (ix3 b k.castSucc d)) * (x0 (ix3 b k.succ d) - x0 (ix3 b k.castSucc d)) := by
  rw [val_main_v104_apply, cst25_zero, zero_add]
  refine Finset.sum_congr rfl fun d _ => ?_
  rw [idx104_at, val_main_v103_apply, val_main_v98_apply, val_main_v96_apply, val_main_v97_apply, idx96_at, idx97_at]
  rfl

/-- Batch b's smoothness term. -/
theorem smooth_at (x0 : (⟨S32x512x3, .f32⟩ : BufTy).Contents (Elt Ideal)) (x1 : (⟨S32x512, .i1⟩ : BufTy).Contents (Elt Ideal)) (b : Fin 32) :
    val_main_v110 (F := Ideal) x0 x1 (ix1 b) = Cert.Spec.smoothAt x0 x1 b := by
  have hnum : val_main_v106 (F := Ideal) x0 x1 (ix1 b)
      = ∑ k : Fin 511, (∑ d : Fin 3, (x0 (ix3 b k.succ d) - x0 (ix3 b k.castSucc d)) * (x0 (ix3 b k.succ d) - x0 (ix3 b k.castSucc d)))
          * Cert.Spec.bit (x1 (ix2 b k.succ) &&& x1 (ix2 b k.castSucc)) := by
    rw [val_main_v106_apply, cst26_zero, zero_add]
    refine Finset.sum_congr rfl fun k _ => ?_
    rw [idx106_at, val_main_v105_apply, stepSq_at, pairMask_at]
    rfl
  have hden : val_main_v107 (F := Ideal) x1 (ix1 b)
      = ∑ k : Fin 511, Cert.Spec.bit (x1 (ix2 b k.succ) &&& x1 (ix2 b k.castSucc)) := by
    rw [val_main_v107_apply, cst27_zero, zero_add]
    refine Finset.sum_congr rfl fun k _ => ?_
    rw [idx107_at, pairMask_at]
  rw [val_main_v110_apply, val_main_v109_apply, hnum, hden, val_main_v108_apply, val_main_cst_28_apply]
  rfl

theorem res112 (x0 : (⟨S32x512x3, .f32⟩ : BufTy).Contents (Elt Ideal)) (x1 : (⟨S32x512, .i1⟩ : BufTy).Contents (Elt Ideal)) :
    val_main_v112 (F := Ideal) x0 x1 = fun _ => Cert.Spec.lossSmooth x0 x1 := by
  funext i
  have hsum : val_main_v111 (F := Ideal) x0 x1 i = ∑ b : Fin 32, Cert.Spec.smoothAt x0 x1 b := by
    rw [val_main_v111_apply, cst29_zero, zero_add, sum_idx1]
    exact Finset.sum_congr rfl fun b _ => smooth_at x0 x1 b
  rw [val_main_v112_apply, hsum]
  rfl

/-! ## The reconstruction loss -/

theorem res116 (x4 x5 : (⟨S32x1024x4, .f32⟩ : BufTy).Contents (Elt Ideal)) :
    val_main_v116 (F := Ideal) x4 x5 = fun _ => Cert.Spec.lossCae x4 x5 := by
  funext i
  have hsum : val_main_v115 (F := Ideal) x4 x5 i = ∑ b : Fin 32, Cert.Spec.caeAt x4 x5 b := by
    rw [val_main_v115_apply, cst31_zero, zero_add, sum_idx3]
    rfl
  rw [val_main_v116_apply, hsum]
  rfl

/-! ## The total -/

theorem res120 (x0 : (⟨S32x512x3, .f32⟩ : BufTy).Contents (Elt Ideal)) (x1 : (⟨S32x512, .i1⟩ : BufTy).Contents (Elt Ideal))
    (x2 : (⟨S32x512x3, .f32⟩ : BufTy).Contents (Elt Ideal)) (x3 : (⟨S32x512, .i1⟩ : BufTy).Contents (Elt Ideal)) (x4 x5 : (⟨S32x1024x4, .f32⟩ : BufTy).Contents (Elt Ideal)) :
    val_main_v120 (F := Ideal) x0 x1 x2 x3 x4 x5 = fun _ => Cert.Spec.total x0 x1 x2 x3 x4 x5 := by
  funext i
  rw [val_main_v120_apply, val_main_v118_apply, val_main_v117_apply, val_main_v119_apply, res112, res95, res116]
  rfl

end Cert.ReferenceIdeal.RefValue

end
-- ==== Proof.lean ====
/-
  Kernel against reference, over the extended reals.

  Both programs compute four numbers from a batch of 32 paths (512 masked points in R^3 each), 32 target polylines and
  two observation arrays: the path loss (one minus a clipped mixture of two Gaussian-shaped labels — the nearest-segment
  label and the nearest-target label — averaged over the valid points), the smoothness loss (consecutive squared
  differences, averaged per batch, then over batches), the reconstruction loss (a mean of squared differences), and
  0.8·smooth + path + 0.5·recon. The kernel walks the batches on a grid of 32 steps, adds each batch's four sums to a
  running 8 x 128 tile, copies the tile out at the last step, and the lines after it divide; the reference computes
  everything with whole-array operations. Over the extended reals the two are the same function of the arguments:
  sums regroup freely (addition is a commutative monoid there), a three-term sum taken from zero is the sum over the
  three dimensions, 1 - (a bit as a number) is the complemented bit as a number, the product of two bits as numbers is
  their conjunction as a number, and a division, a clip, an exponential, a maximum or a minimum is one function on
  both sides. No input needs to be finite for any of this. The common value is stated once (Spec.lean); the kernel's
  results are proved equal to it in KTail.lean (through the blocks, the per-batch sums and the accumulation), the
  reference's in RRest.lean.

  The three frame claims: the kernel's two are the frame run of its launch; the reference's is its run with the
  results dropped. The preservation conjunct of this statement is the proposition True (its ledger of rewrites is
  empty), so it holds trivially.
-/
import proofs.«102376_j34763465294043_1_alg».proof.Defs
import proofs.«102376_j34763465294043_1_alg».proof.Proof.Gen.Kernel
import proofs.«102376_j34763465294043_1_alg».proof.Proof.GenP.Kernel.Frame
import proofs.«102376_j34763465294043_1_alg».proof.Proof.Gen.KernelIdeal
import proofs.«102376_j34763465294043_1_alg».proof.Proof.GenP.KernelIdeal.Frame
import proofs.«102376_j34763465294043_1_alg».proof.Proof.Gen.ReferenceIdeal
import proofs.«102376_j34763465294043_1_alg».proof.Proof.Gen.ReferenceIdeal.Run
import proofs.«102376_j34763465294043_1_alg».proof.Proof.Gen.ReferenceIdeal.Read
import proofs.«102376_j34763465294043_1_alg».proof.Proof.Gen.Pre_finite_inputs
import proofs.«102376_j34763465294043_1_alg».proof.Proof.KTail
import proofs.«102376_j34763465294043_1_alg».proof.Proof.RRest
import Idealize.ShloMosaic.Adequacy
import Idealize.ShloMosaic.Init

set_option maxRecDepth 16384

noncomputable section

namespace Cert.Proof

open Idealize.ShloMosaic Idealize.ShloMosaic.TcCoe Idealize.SL.Sem

/-- The two idealized programs, from memories that agree on the arguments, both run and end with the
    specification's four numbers of those arguments. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => fun _ => Cert.Spec.lossPath (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => fun _ => Cert.Spec.lossSmooth (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => fun _ => Cert.Spec.lossCae (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · -- the kernel: its frame run, the results read after the lines that follow the launch
    refine (θ_run Cert.KernelIdeal.defs _ _).mono (fun r h c => ?_) (Cert.KernelIdeal.GenP.run_main m ρ)
    exact ⟨((h c).2 Cert.KernelIdeal.main_v51 (Pipeline.mem_restRefs_of Cert.KernelIdeal.main_v51 (by decide) (by decide))).trans (Cert.KernelIdeal.KVal.kres51 m c),
      ((h c).2 Cert.KernelIdeal.main_v45 (Pipeline.mem_restRefs_of Cert.KernelIdeal.main_v45 (by decide) (by decide))).trans (Cert.KernelIdeal.KVal.kres45 m c),
      ((h c).2 Cert.KernelIdeal.main_v46 (Pipeline.mem_restRefs_of Cert.KernelIdeal.main_v46 (by decide) (by decide))).trans (Cert.KernelIdeal.KVal.kres46 m c),
      ((h c).2 Cert.KernelIdeal.main_v47 (Pipeline.mem_restRefs_of Cert.KernelIdeal.main_v47 (by decide) (by decide))).trans (Cert.KernelIdeal.KVal.kres47 m c),
      ((h c).1 0).trans (((Cert.KernelIdeal.GenP.dats m 0 c).arrAt_in 0 rfl _).trans ((Cert.KernelIdeal.GenP.A_eq m c 0).trans (Cert.KernelIdeal.GenP.V_main_arg0 m c))),
      ((h c).2 Cert.KernelIdeal.main_arg1 (Pipeline.mem_restRefs_of Cert.KernelIdeal.main_arg1 (by decide) (by decide))).trans (Cert.KernelIdeal.GenP.W_main_arg1 m (Cert.KernelIdeal.GenP.dats m) c),
      ((h c).2 Cert.KernelIdeal.main_arg2 (Pipeline.mem_restRefs_of Cert.KernelIdeal.main_arg2 (by decide) (by decide))).trans (Cert.KernelIdeal.GenP.W_main_arg2 m (Cert.KernelIdeal.GenP.dats m) c),
      ((h c).2 Cert.KernelIdeal.main_arg3 (Pipeline.mem_restRefs_of Cert.KernelIdeal.main_arg3 (by decide) (by decide))).trans (Cert.KernelIdeal.GenP.W_main_arg3 m (Cert.KernelIdeal.GenP.dats m) c),
      ((h c).1 11).trans (((Cert.KernelIdeal.GenP.dats m 0 c).arrAt_in 11 rfl _).trans ((Cert.KernelIdeal.GenP.A_eq m c 11).trans (Cert.KernelIdeal.GenP.V_main_arg4 m c))),
      ((h c).1 12).trans (((Cert.KernelIdeal.GenP.dats m 0 c).arrAt_in 12 rfl _).trans ((Cert.KernelIdeal.GenP.A_eq m c 12).trans (Cert.KernelIdeal.GenP.V_main_arg5 m c)))⟩
  · -- the reference: its run, each result's term read as the specification's, the arguments rewritten by the agreement
    refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5⟩ := hagree c
    refine ⟨h0.trans ?_, h1.trans ?_, h2.trans ?_, h3.trans ?_, hargs⟩
    · rw [Cert.ReferenceIdeal.Read.val_main_v120_eq, Cert.ReferenceIdeal.RefValue.res120, e0, e1, e2, e3, e4, e5]
      rfl
    · rw [Cert.ReferenceIdeal.Read.val_main_v95_eq, Cert.ReferenceIdeal.RefValue.res95, e0, e1, e2, e3]
      rfl
    · refine (Cert.ReferenceIdeal.Read.val_main_v112_eq _ _).trans ?_
      rw [Cert.ReferenceIdeal.RefValue.res112, e0, e1]
      rfl
    · refine (Cert.ReferenceIdeal.Read.val_main_v116_eq _ _).trans ?_
      rw [Cert.ReferenceIdeal.RefValue.res116, e4, e5]
      rfl

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2.2.2)
    (Cert.ReferenceIdeal.Value.run (F := Ideal) m ρ),
  trivial,
  algebraic⟩

end Cert.Proof

end
